-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x128 : Shape := ⟨2, ![64, 128]⟩
abbrev S128x64 : Shape := ⟨2, ![128, 64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x64 .f32) (main_arg12 : FVec F S64 .f32) (main_arg13 : FVec F S64x64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_v63 main_v67

def fn_part2 {F : FTy → Type} [FloatOps F] (main_arg7 : FVec F S256x64 .f32) (main_arg8 : FVec F S64 .f32) (main_arg9 : FVec F S64x128 .f32) (main_arg10 : FVec F S128 .f32) (main_arg11 : FVec F S128x64 .f32) (main_arg12 : FVec F S64 .f32) (main_arg13 : FVec F S64x64 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128 .f32) (main_arg5 : FVec F S128x128 .f32) (main_arg6 : FVec F S128 .f32) (main_arg7 : FVec F S256x64 .f32) (main_arg8 : FVec F S64 .f32) (main_arg9 : FVec F S64x128 .f32) (main_arg10 : FVec F S128 .f32) (main_arg11 : FVec F S128x64 .f32) (main_arg12 : FVec F S64 .f32) (main_arg13 : FVec F S64x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) (main_arg5 : FVec F S128x128 .f32) (main_arg6 : FVec F S128 .f32) (main_arg7 : FVec F S256x64 .f32) (main_arg8 : FVec F S64 .f32) (main_arg9 : FVec F S64x128 .f32) (main_arg10 : FVec F S128 .f32) (main_arg11 : FVec F S128x64 .f32) (main_arg12 : FVec F S64 .f32) (main_arg13 : FVec F S64x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x128 : Shape := ⟨2, ![64, 128]⟩
abbrev S128x64 : Shape := ⟨2, ![128, 64]⟩
abbrev S64x64 : Shape := ⟨2, ![64, 64]⟩
abbrev S1x128 : Shape := ⟨2, ![1, 128]⟩
abbrev S1x64 : Shape := ⟨2, ![1, 64]⟩
abbrev S200x10000 : Shape := ⟨2, ![200, 10000]⟩
abbrev S10000x64 : Shape := ⟨2, ![10000, 64]⟩
abbrev S200x128 : Shape := ⟨2, ![200, 128]⟩
abbrev S200x64 : Shape := ⟨2, ![200, 64]⟩

abbrev nBuf : Space → Nat
  | .hbm => 23
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S10000x128, .bf16⟩
  | .hbm, ⟨15, _⟩ => ⟨S1x128, .f32⟩
  | .hbm, ⟨16, _⟩ => ⟨S1x128, .f32⟩
  | .hbm, ⟨17, _⟩ => ⟨S128x64, .f32⟩
  | .hbm, ⟨18, _⟩ => ⟨S128x64, .f32⟩
  | .hbm, ⟨19, _⟩ => ⟨S1x64, .f32⟩
  | .hbm, ⟨20, _⟩ => ⟨S1x128, .f32⟩
  | .hbm, ⟨21, _⟩ => ⟨S1x64, .f32⟩
  | .hbm, ⟨22, _⟩ => ⟨S10000x10000, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .bf16⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S128x64, .f32⟩
  | .local _ .vmem, ⟨10, _⟩ => ⟨S128x64, .f32⟩
  | .local _ .vmem, ⟨11, _⟩ => ⟨S1x64, .f32⟩
  | .local _ .vmem, ⟨12, _⟩ => ⟨S64x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S64x64, .f32⟩
  | .local _ .vmem, ⟨17, _⟩ => ⟨S200x10000, .f32⟩
  | .local _ .vmem, ⟨18, _⟩ => ⟨S200x10000, .f32⟩
  | .local _ .vmem, ⟨19, _⟩ => ⟨S10000x128, .bf16⟩
  | .local _ .vmem, ⟨20, _⟩ => ⟨S10000x128, .bf16⟩
  | .local _ .vmem, ⟨21, _⟩ => ⟨S10000x64, .bf16⟩
  | .local _ .vmem, ⟨22, _⟩ => ⟨S10000x64, .bf16⟩
  | .local _ .vmem, ⟨23, _⟩ => ⟨S200x128, .f32⟩
  | .local _ .vmem, ⟨24, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![101], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c50_i32 : BitVec 32 := 50#32
  let v4 : BitVec 1 := Scalar.cmpi .sle arg0 c50_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg0 : BitVec 32 := BitVec.ofNat 32 (i 0).val
  let c1_i32 : BitVec 32 := 1#32
  let v44 : BitVec 32 := Scalar.subi arg0 c1_i32
  let c200_i32 : BitVec 32 := 200#32
  let v45 : BitVec 32 := Scalar.muli v44 c200_i32
  let v46 : Index := Scalar.indexCast v45
  let c0_29 : Index := 0#32
  ![v46.toNat, 0]
def k0_cond4 (i : grid0.Coords) : BitVec 1 :=
  let arg0 : BitVec 32 := BitVec.ofNat 32 (i 0).val
  let c50_i32_5 : BitVec 32 := 50#32
  let v11 : BitVec 1 := Scalar.cmpi .sgt arg0 c50_i32_5
  let v12 : BitVec 32 := Scalar.extui v11
  let c0_i32_6 : BitVec 32 := 0#32
  let v13 : BitVec 1 := Scalar.cmpi .ne v12 c0_i32_6
  v13

def k0_off2 (i : grid0.Coords) : Fin 2 → Nat :=
  let arg0 : BitVec 32 := BitVec.ofNat 32 (i 0).val
  let c50_i32_7 : BitVec 32 := 50#32
  let v14 : BitVec 32 := Scalar.subi arg0 c50_i32_7
  let c1_i32 : BitVec 32 := 1#32
  let v15 : BitVec 32 := Scalar.subi v14 c1_i32
  let c200_i32 : BitVec 32 := 200#32
  let v16 : BitVec 32 := Scalar.muli v15 c200_i32
  let v17 : Index := Scalar.indexCast v16
  let c0 : Index := 0#32
  ![v17.toNat, 0]
def cc0_transform_0 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c50_i32 : BitVec 32 := 50#32
  let v0 : BitVec 32 := Scalar.subi arg0 c50_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S200x10000 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  shapeCasts_S128_S1x128 : S128.ShapeCasts S1x128
  slices_S256x64_S128x64_0_0 : S256x64.Slices ![0, 0] S128x64
  slices_S256x64_S128x64_128_0 : S256x64.Slices ![128, 0] S128x64
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  inb_S200x128_S200x128_0_0 : ∀ a, (![0, 0] : Fin 2 → Nat) a + S200x128.size a ≤ S200x128.size a
  h_S200x128 : 0 < S200x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x64 : 0 < S200x64.numel
  shapeCasts_S200x64_S200x64 : S200x64.ShapeCasts S200x64
  inb_S64x64_S64x64_0_0 : ∀ a, (![0, 0] : Fin 2 → Nat) a + S64x64.size a ≤ S64x64.size a
  h_S64x64 : 0 < S64x64.numel
  inb_S200x10000_S200x10000_0_0 : ∀ a, (![0, 0] : Fin 2 → Nat) a + S200x10000.size a ≤ S200x10000.size a
  h_S200x10000 : 0 < S200x10000.numel
  shapeCasts_S200x128_S200x128 : S200x128.ShapeCasts S200x128
  inb_S10000x64_S10000x64_0_0 : ∀ a, (![0, 0] : Fin 2 → Nat) a + S10000x64.size a ≤ S10000x64.size a
  h_S10000x64 : 0 < S10000x64.numel
  dot_S10000x128_S128x128_S10000x128_1_0_0_1_n_n_wf : DotDims.WF S10000x128 S128x128 S10000x128 [1] [0] [0] [1] [] []
  dot_S200x128_S128x64_S200x64_1_0_0_1_n_n_wf : DotDims.WF S200x128 S128x64 S200x64 [1] [0] [0] [1] [] []
  dot_S200x64_S64x128_S200x128_1_0_0_1_n_n_wf : DotDims.WF S200x64 S64x128 S200x128 [1] [0] [0] [1] [] []
  dot_S200x64_S64x64_S200x64_1_0_0_1_n_n_wf : DotDims.WF S200x64 S64x64 S200x64 [1] [0] [0] [1] [] []
  dot_S200x10000_S10000x128_S200x128_1_0_0_1_n_n_wf : DotDims.WF S200x10000 S10000x128 S200x128 [1] [0] [0] [1] [] []
  dot_S200x64_S10000x64_S200x10000_1_1_0_0_n_n_wf : DotDims.WF S200x64 S10000x64 S200x10000 [1] [1] [0] [0] [] []
  hrank0 : 0 < grid0.rank
  k0_off1_inb : ∀ i : grid0.Coords, ∀ (k0_h2 : k0_cond2 i = 1#1), ∀ a, (k0_off1 i) a + S200x64.size a ≤ S10000x64.size a
  k0_off1_packedbf16 : ∀ i : grid0.Coords, ∀ (k0_h2 : k0_cond2 i = 1#1), (Rect.unit (s := S10000x64) (k0_off1 i) S200x64.size (k0_off1_inb i k0_h2)).PackedRows (EltTy.packing .bf16)
  k0_off2_inb : ∀ i : grid0.Coords, ∀ (k0_h4 : k0_cond4 i = 1#1), ∀ a, (k0_off2 i) a + S200x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .bf16 = 32 ∨ (Rect.block (s := S10000x128) S10000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S64x128.size a
  hwx0_10 : ∀ i : grid0.Coords, EltTy.bits .f32 = 32 ∨ (Rect.block (s := S64x128) S64x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x64.size a ≤ S64x64.size a
  hwx0_14 : ∀ i : grid0.Coords, EltTy.bits .f32 = 32 ∨ (Rect.block (s := S64x64) S64x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S200x10000.size a ≤ S10000x10000.size a
  hwx0_15 : ∀ i : grid0.Coords, EltTy.bits .f32 = 32 ∨ (Rect.block (s := S10000x10000) S200x10000.size (cc0_transform_15 i) (hinb0_15 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x64_S64x128_S200x128_1_0_0_1_n_n : DotDims S200x64 S64x128 S200x128 where
  lhsContracting := [1]
  rhsContracting := [0]
  lhsNonContracting := [0]
  rhsNonContracting := [1]
  lhsBatch := []
  rhsBatch := []
  wf := dot_S200x64_S64x128_S200x128_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x64_S10000x64_S200x10000_1_1_0_0_n_n : DotDims S200x64 S10000x64 S200x10000 where
  lhsContracting := [1]
  rhsContracting := [1]
  lhsNonContracting := [0]
  rhsNonContracting := [0]
  lhsBatch := []
  rhsBatch := []
  wf := dot_S200x64_S10000x64_S200x10000_1_1_0_0_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S64x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S200x10000.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond4 i == 1#1) | ⟨_ + 16, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x128 : Shape := ⟨2, ![64, 128]⟩
abbrev S128x64 : Shape := ⟨2, ![128, 64]⟩
abbrev S64x64 : Shape := ⟨2, ![64, 64]⟩
abbrev S1x128 : Shape := ⟨2, ![1, 128]⟩
abbrev S_ : Shape := ⟨0, ![]⟩
abbrev S10000x256 : Shape := ⟨2, ![10000, 256]⟩
abbrev S10000x64 : Shape := ⟨2, ![10000, 64]⟩
abbrev S1x64 : Shape := ⟨2, ![1, 64]⟩
abbrev S64x10000 : Shape := ⟨2, ![64, 10000]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x256, .f32⟩
  | .hbm, ⟨31, _⟩ => ⟨S10000x64, .f32⟩
  | .hbm, ⟨32, _⟩ => ⟨S1x64, .f32⟩
  | .hbm, ⟨33, _⟩ => ⟨S10000x64, .f32⟩
  | .hbm, ⟨34, _⟩ => ⟨S10000x64, .f32⟩
  | .hbm, ⟨35, _⟩ => ⟨S_, .f32⟩
  | .hbm, ⟨36, _⟩ => ⟨S10000x64, .f32⟩
  | .hbm, ⟨37, _⟩ => ⟨S10000x64, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S10000x64, .f32⟩
  | .hbm, ⟨46, _⟩ => ⟨S1x64, .f32⟩
  | .hbm, ⟨47, _⟩ => ⟨S10000x64, .f32⟩
  | .hbm, ⟨48, _⟩ => ⟨S10000x64, .f32⟩
  | .hbm, ⟨49, _⟩ => ⟨S10000x64, .f32⟩
  | .hbm, ⟨50, _⟩ => ⟨S64x10000, .f32⟩
  | .hbm, ⟨51, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call2_cst : Ref sig .tc := ⟨.hbm, 35, rfl⟩
abbrev main_call2_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call3_cst : Ref sig .tc := ⟨.hbm, 42, rfl⟩
abbrev main_call3_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  transposes_S10000x64_S64x10000_1_0 : S10000x64.Transposes [1, 0] S64x10000
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x64_S10000x64_1_0_0_1_n_n_wf : DotDims.WF S10000x256 S256x64 S10000x64 [1] [0] [0] [1] [] []
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  dot_S10000x64_S64x10000_S10000x10000_1_0_0_1_n_n_wf : DotDims.WF S10000x64 S64x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.K.Data.lean ====
import proofs.«143297_g16561393893844_cont_week2b_458_21_alg».proof.Proof.Gen.Kernel.Skeleton
import proofs.«143297_g16561393893844_cont_week2b_458_21_alg».proof.Proof.Gen.Kernel.Frame
import Idealize.ShloMosaic.Lib.Pipeline.Value
import Idealize.ShloMosaic.Lib.ValueIdx

/-!
The proof data of the fused encoder / MLP / decoder kernel, for any float instance.

The grid has 101 points. Point 0 stores the two feature transforms x W in scratch; points 0..49 encode row block t
of both signs, z = relu (A[t] (x W) + b); points 1..50 run the MLP on the block encoded one point before and store its
result h and the decoder's left factor h Wd in rows 200 (t-1) .. of two further scratch arrays; points 51..100
write out[t-51] = (h Wd)[t-51] hᵀ. Everything a point leaves is a closed function of the point and of the blocks the
pipeline hands the body, so the scratch is tracked by a relation that says which rows are already final.
-/

set_option maxRecDepth 16384

noncomputable section

namespace Cert.Proof.KB

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ
abbrev 𝒱₀ : Variants := Variants.none

variable (m : (ℓ : Loc nD τ sig) → Buf (Elt F) ℓ)

/-- The grid point numbered n (the first point when n is past the grid). -/
def pt (n : ℕ) : Fin cfg0.N := if h : n < cfg0.N then ⟨n, h⟩ else ⟨0, by decide⟩

theorem pt_val (t : Fin cfg0.N) : pt t.val = t := by unfold pt; rw [dif_pos t.isLt]

/-- The feature transform x W_pos the first point leaves in scratch, -/
def XWP (c : Dev nD) : Vec F S10000x128 .bf16 := k0_pay2 (iblk m c 2 (pt 0)) (iblk m c 3 (pt 0))
/-- and x W_neg. -/
def XWN (c : Dev nD) : Vec F S10000x128 .bf16 := k0_pay3 (iblk m c 2 (pt 0)) (iblk m c 4 (pt 0))

/-- Row block n of the positive encoder, relu (A_pos[n] (x W_pos) + b_pos), as point n computes it, -/
def ZP (c : Dev nD) (n : ℕ) : Vec F S200x128 .f32 := k0_pay6 (iblk m c 0 (pt n)) (XWP m c) (iblk m c 5 (pt n))
/-- and of the negative one. -/
def ZN (c : Dev nD) (n : ℕ) : Vec F S200x128 .f32 := k0_pay7 (iblk m c 1 (pt n)) (XWN m c) (iblk m c 6 (pt n))

/-- The MLP's result on the block encoded at point n - 1, as point n computes it (before the store's rounding), -/
def HF (c : Dev nD) (n : ℕ) : Vec F S200x64 .f32 :=
  k0_pay9 (ZP m c (n - 1)) (ZN m c (n - 1)) (iblk m c 7 (pt n)) (iblk m c 8 (pt n)) (iblk m c 9 (pt n)) (iblk m c 10 (pt n))
    (iblk m c 11 (pt n)) (iblk m c 12 (pt n)) (iblk m c 13 (pt n))
/-- what point n stores of it into rows 200 (n-1) .. of the h scratch, -/
def HB (c : Dev nD) (n : ℕ) : Vec F S200x64 .bf16 :=
  k0_pay4 (k0_pay10 (ZP m c (n - 1)) (ZN m c (n - 1)) (iblk m c 7 (pt n)) (iblk m c 8 (pt n)) (iblk m c 9 (pt n)) (iblk m c 10 (pt n))
    (iblk m c 11 (pt n)) (iblk m c 12 (pt n)) (iblk m c 13 (pt n)))
/-- and the decoder's left factor h Wd it stores into the same rows of the other scratch. -/
def TB (c : Dev nD) (n : ℕ) : Vec F S200x64 .bf16 := k0_pay5 (HF m c n) (iblk m c 14 (pt n))

/-- The h scratch once every block is stored: row r comes from point r / 200 + 1. -/
def Hfun (c : Dev nD) : Vec F S10000x64 .bf16 := fun y =>
  HB m c ((y 0).val / 200 + 1) (ix2 (⟨(y 0).val % 200, Nat.mod_lt _ (by decide)⟩ : Fin 200) (⟨(y 1).val, (y 1).isLt⟩ : Fin 64))
/-- The h Wd scratch once every block is stored. -/
def Tfun (c : Dev nD) : Vec F S10000x64 .bf16 := fun y =>
  TB m c ((y 0).val / 200 + 1) (ix2 (⟨(y 0).val % 200, Nat.mod_lt _ (by decide)⟩ : Fin 200) (⟨(y 1).val, (y 1).isLt⟩ : Fin 64))

/-- What a decoding point t ≥ 51 leaves in the result's staging buffer: block t - 51 of h Wd (stored by point
    t - 50) against the whole of h. -/
def OUT (c : Dev nD) (t : Fin cfg0.N) : Vec F S200x10000 .f32 := k0_pay8 (TB m c (t.val - 50)) (Hfun m c)

/-- The result array after the run: row r is written back by point r / 200 + 51. -/
def Yfun (c : Dev nD) : Vec F S10000x10000 .f32 := fun y =>
  OUT m c (pt ((y 0).val / 200 + 51)) (ix2 (⟨(y 0).val % 200, Nat.mod_lt _ (by decide)⟩ : Fin 200) (⟨(y 1).val, (y 1).isLt⟩ : Fin 10000))

/-- What is known of the six scratch arrays before point n: the feature transforms from point 1 on; the two encoded
    blocks of point n - 1 while the encoder runs; and of h and h Wd the rows the points before n stored. -/
def R (c : Dev nD) (n : ℕ) (X0 X1 : Vec F S10000x128 .bf16) (XH XT : Vec F S10000x64 .bf16) (X4 X5 : Vec F S200x128 .f32) : Prop :=
  (1 ≤ n → X0 = XWP m c ∧ X1 = XWN m c)
  ∧ (1 ≤ n → n ≤ 50 → X4 = ZP m c (n - 1) ∧ X5 = ZN m c (n - 1))
  ∧ (∀ y : S10000x64.Idx, (y 0).val + 200 < 200 * n → XH y = Hfun m c y ∧ XT y = Tfun m c y)

/-- The six scratch arrays as the body is called with them. -/
abbrev sc0 : Memref sig .tc .vmem S10000x128 .bf16 := Memref.whole cc0_scratch0
abbrev sc1 : Memref sig .tc .vmem S10000x128 .bf16 := Memref.whole cc0_scratch1
abbrev sc2 : Memref sig .tc .vmem S10000x64 .bf16 := Memref.whole cc0_scratch2
abbrev sc3 : Memref sig .tc .vmem S10000x64 .bf16 := Memref.whole cc0_scratch3
abbrev sc4 : Memref sig .tc .vmem S200x128 .f32 := Memref.whole cc0_scratch4
abbrev sc5 : Memref sig .tc .vmem S200x128 .f32 := Memref.whole cc0_scratch5

/-- The body's invariant before point n: the scratch arrays at contents R relates, the generator register at anything. -/
def phi (c : Dev nD) (n : ℕ) : sProp 𝕄 :=
  iprop(∃ (X0 X1 : Vec F S10000x128 .bf16) (XH XT : Vec F S10000x64 .bf16) (X4 X5 : Vec F S200x128 .f32),
    ⌜R m c n X0 X1 XH XT X4 X5⌝ ∗ owns (c : Thread nD τ) sc0 fullShare X0 ∗ owns (c : Thread nD τ) sc1 fullShare X1
      ∗ owns (c : Thread nD τ) sc2 fullShare XH ∗ owns (c : Thread nD τ) sc3 fullShare XT
      ∗ owns (c : Thread nD τ) sc4 fullShare X4 ∗ owns (c : Thread nD τ) sc5 fullShare X5 ∗ ∃ r, prngReg c r)

/-- The pipeline's proof data on core c: the arrays as the region finds them; each input's buffer left at its block; the
    result's buffer at OUT (consulted at the decoding points only: the window is idle before them); the invariant phi. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => OUT m c t
    | ⟨_ + 16, h⟩ => absurd h (Nat.not_lt.2 (Nat.le_add_left _ _))
  Φ t := phi m c t.val
  q _ := fullShare
  owed _ := 0

theorem A_eq (c : Dev nD) (w : Fin cfg0.W) : (dats m 0 c).A w = V m c (Pipeline.arrRef spec0 w) := rfl

end Cert.Proof.KB

end
-- ==== Proof.LibRowsUpd.lean ====
import Idealize.ShloMosaic.Lib.WritesUnit
import Idealize.ShloMosaic.Lib.ValueIdx

/-!
# A rank-2 buffer with a band of whole rows replaced

General facts, independent of any program. rowsUpd X o w is the array X with rows o .. o + W replaced by the
W-row block w. A buffer written once through the unit-stride rectangle of those rows (every column) reads as
rowsUpd of what it read before (read_writes_rows); the band itself then reads as the block (ld_rowsUpd), and a row
outside the band reads as before (rowsUpd_of_not_mem).
-/

namespace Idealize.ShloMosaic

open ValueIdx

/-- The array X with rows [o, o + W) replaced by the block w. -/
def rowsUpd {α : Type} {N C W : ℕ} (X : (⟨2, ![N, C]⟩ : Shape).Idx → α) (o : ℕ) (w : (⟨2, ![W, C]⟩ : Shape).Idx → α) :
    (⟨2, ![N, C]⟩ : Shape).Idx → α :=
  fun y => if h : o ≤ (y 0).val ∧ (y 0).val < o + W then
      w (ix2 (⟨(y 0).val - o, by omega⟩ : Fin W) (⟨(y 1).val, (y 1).isLt⟩ : Fin C))
    else X y

/-- Inside the band the replaced array reads the block, at the row minus the band's start. -/
theorem rowsUpd_of_mem {α : Type} {N C W : ℕ} (X : (⟨2, ![N, C]⟩ : Shape).Idx → α) (o : ℕ) (w : (⟨2, ![W, C]⟩ : Shape).Idx → α)
    (y : (⟨2, ![N, C]⟩ : Shape).Idx) (p : Fin W) (q : Fin C) (h0 : (y 0).val = o + p.val) (h1 : (y 1).val = q.val) :
    rowsUpd X o w y = w (ix2 p q) := by
  unfold rowsUpd
  rw [dif_pos ⟨by omega, by have := p.isLt; omega⟩]
  congr 1
  funext a
  match a with
  | ⟨0, _⟩ => exact Fin.ext (by show (y 0).val - o = p.val; omega)
  | ⟨1, _⟩ => exact Fin.ext h1

/-- Outside the band it reads what it read before. -/
theorem rowsUpd_of_not_mem {α : Type} {N C W : ℕ} (X : (⟨2, ![N, C]⟩ : Shape).Idx → α) (o : ℕ) (w : (⟨2, ![W, C]⟩ : Shape).Idx → α)
    (y : (⟨2, ![N, C]⟩ : Shape).Idx) (h : (y 0).val < o ∨ o + W ≤ (y 0).val) : rowsUpd X o w y = X y := by
  unfold rowsUpd
  rw [dif_neg (by omega)]

namespace View

variable {sig : RefSig} {κ : Kind} {sp : Space} {e : EltTy} {Val : EltTy → Type}

/-- A buffer written once through the rectangle of rows [o, o + W), every column, reads as what it read before with
    those rows replaced by the stored block. The rectangle's offsets are given by an equation, so that offsets a kernel
    computes are read through their closed form. -/
theorem read_writes_rows {N C W : ℕ} (v : View sig κ sp (⟨2, ![N, C]⟩ : Shape) e) (f : v.ty.Contents Val)
    {off : Fin 2 → ℕ} (inb : ∀ a : Fin 2, off a + (![W, C] : Fin 2 → ℕ) a ≤ (![N, C] : Fin 2 → ℕ) a)
    (w : (Rect.unit (s := (⟨2, ![N, C]⟩ : Shape)) off ![W, C] inb).shape.Idx → Val e) (o : ℕ) (hoff : off = ![o, 0]) :
    v.read Val (v.writes Val f [(⟨Rect.unit (s := (⟨2, ![N, C]⟩ : Shape)) off ![W, C] inb, w⟩ : Piece Val (⟨2, ![N, C]⟩ : Shape) e)])
      = rowsUpd (v.read Val f) o w := by
  funext y
  rw [read_writes_cons_rows v f inb w [] y hoff (W := W) rfl rfl]
  unfold rowsUpd
  by_cases h : o ≤ (y (0 : Fin 2)).val ∧ (y (0 : Fin 2)).val < o + W
  · rw [dif_pos h, dif_pos h]
    congr 1
    funext a
    match a with
    | ⟨0, _⟩ => exact Fin.ext (by rw [Rect.unitLocal_val]; rfl)
    | ⟨1, _⟩ => exact Fin.ext (by rw [Rect.unitLocal_val]; show (y 1).val - 0 = (y 1).val; omega)
  · rw [dif_neg h, dif_neg h, writes_nil]

end View

end Idealize.ShloMosaic
-- ==== Proof.K.CasesCommon.lean ====
import proofs.«143297_g16561393893844_cont_week2b_458_21_alg».proof.Proof.K.Data
import proofs.«143297_g16561393893844_cont_week2b_458_21_alg».proof.Proof.LibRowsUpd
import Idealize.ShloMosaic.Lib.Pipeline.Value

/-!
What the four control cases of the body share: the branch conditions as the kernel computes them from the grid
coordinate, and a buffer stored whole through the zero-offset rectangle reading back as the stored value.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The four branch conditions of the body, as the kernel computes them from the grid coordinate: the first point; the
    points that run the MLP; the points that encode; the points that decode. -/
abbrev c1 (i : grid0.Coords) : Prop := (Scalar.cmpi .ne (Scalar.extui (Scalar.cmpi .eq (BitVec.ofNat 32 (i 0).val) 0#32)) 0#32) = 1#1
abbrev c2 (i : grid0.Coords) : Prop := k0_cond2 i = 1#1
abbrev c3 (i : grid0.Coords) : Prop := (Scalar.cmpi .ne (Scalar.extui (Scalar.cmpi .slt (BitVec.ofNat 32 (i 0).val) 50#32)) 0#32) = 1#1
abbrev c4 (i : grid0.Coords) : Prop := k0_cond4 i = 1#1

/-- The whole-buffer rectangle's offsets are zero. -/
theorem off0 : (![0, 0] : Fin 2 → ℕ) = fun _ => 0 := funext fun a => by fin_cases a <;> rfl

/-- A buffer stored whole, through the rectangle at offsets zero of the buffer's own sizes, reads back as the stored value. -/
theorem read_store_whole {κ : Kind} {sp : Space} {s : Shape} {e : EltTy} (v : View sig κ sp s e) (f : v.ty.Contents (Elt F))
    {off : Fin s.rank → ℕ} (h : off = fun _ => 0) (inb : ∀ a, off a + s.size a ≤ s.size a) (w : s.Idx → Elt F e) :
    v.read (Elt F) (v.writes (Elt F) f [(⟨Rect.unit off s.size inb, w⟩ : View.Piece (Elt F) s e)]) = w := by
  subst h
  exact View.read_writes_whole v f w

end Cert.Proof.KB

end
-- ==== Proof.K.BodyCommon.lean ====
import proofs.«143297_g16561393893844_cont_week2b_458_21_alg».proof.Proof.K.Data
import proofs.«143297_g16561393893844_cont_week2b_458_21_alg».proof.Proof.K.CasesCommon
import Idealize.ShloMosaic.Lib.Pipeline.Value

/-!
What the body obligation's four cases share: the branch conditions and the computed row offsets decided over the
grid, what each window's buffer holds before and after the body, and the obligation's pre- and postcondition window by
window. The result's window is idle before the decoding points (its buffer is handed back as found) and live at them.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

/-! ## The grid decides the branches and the offsets -/

theorem hc1 : ∀ t : Fin cfg0.N, c1 (grid0.coords t) ↔ t.val = 0 :=
  (by decide +kernel : ∀ t : Fin grid0.N, c1 (grid0.coords t) ↔ t.val = 0)
theorem hc2 : ∀ t : Fin cfg0.N, c2 (grid0.coords t) ↔ (1 ≤ t.val ∧ t.val ≤ 50) :=
  (by decide +kernel : ∀ t : Fin grid0.N, c2 (grid0.coords t) ↔ (1 ≤ t.val ∧ t.val ≤ 50))
theorem hc3 : ∀ t : Fin cfg0.N, c3 (grid0.coords t) ↔ t.val < 50 :=
  (by decide +kernel : ∀ t : Fin grid0.N, c3 (grid0.coords t) ↔ t.val < 50)
theorem hc4 : ∀ t : Fin cfg0.N, c4 (grid0.coords t) ↔ 50 < t.val :=
  (by decide +kernel : ∀ t : Fin grid0.N, c4 (grid0.coords t) ↔ 50 < t.val)

/-- The MLP's point t stores into rows 200 (t - 1) .., -/
theorem hoff1 : ∀ t : Fin cfg0.N, 1 ≤ t.val → t.val ≤ 50 → k0_off1 (grid0.coords t) = ![200 * (t.val - 1), 0] :=
  (by decide +kernel : ∀ t : Fin grid0.N, 1 ≤ t.val → t.val ≤ 50 → k0_off1 (grid0.coords t) = ![200 * (t.val - 1), 0])
/-- and the decoding point t loads rows 200 (t - 51) ... -/
theorem hoff2 : ∀ t : Fin cfg0.N, 50 < t.val → k0_off2 (grid0.coords t) = ![200 * (t.val - 51), 0] :=
  (by decide +kernel : ∀ t : Fin grid0.N, 50 < t.val → k0_off2 (grid0.coords t) = ![200 * (t.val - 51), 0])

/-- The result's window is idle exactly before the decoding points, and is not written back there. -/
theorem hidle15 : ∀ t : Fin cfg0.N, cfg0.idle 15 (cfg0.grid.coords t) = decide (t.val ≤ 50) :=
  (by decide +kernel : ∀ t : Fin grid0.N, cfg0.idle 15 (cfg0.grid.coords t) = decide (t.val ≤ 50))
theorem hflush15 : ∀ t : Fin cfg0.N, t.val ≤ 50 → (cfg0.win 15).flush t = false :=
  (by decide +kernel : ∀ t : Fin grid0.N, t.val ≤ 50 → (cfg0.win 15).flush t = false)

/-! ## The windows' buffers before and after the body -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

theorem after0_out (c : Dev nD) (t : Fin cfg0.N) : (dats m 0 c).after 15 t = OUT m c t := by dsimp only [dats]

/-! ## The obligation at a point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns: every input's buffer as it was, the result's as the library's rule for an idle-or-live window says. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (dats m 0 c).leavesExact 15 t)

end Cert.Proof.KB

end
-- ==== Proof.K.CaseA.lean ====
import proofs.«143297_g16561393893844_cont_week2b_458_21_alg».proof.Proof.K.CasesCommon
import Idealize.ShloMosaic.Lib.Pipeline.Value

/-!
The body at the first point: the prologue stores the two feature transforms over whatever the scratch held, then the
encoder branch reads them back and stores the first two encoded blocks.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

theorem sound_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S200x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S200x128 .f32) (harg21 : arg21.IsWhole) (arg22 : Memref sig .tc .vmem S200x128 .f32) (harg22 : arg22.IsWhole)
    (h1 : c1 i) (h2 : ¬ c2 i) (h3 : c3 i) (h4 : ¬ c4 i)
    (x1 x2 : Vec F S200x10000 .f32) (x3 : Vec F S10000x128 .bf16) (x4 x5 : Vec F S128x128 .f32) (x6 x7 : Vec F S1x128 .f32)
    (X0 X1 : Vec F S10000x128 .bf16) (X4 X5 : Vec F S200x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg17 fullShare X0 ∗ owns (c : Thread nD τ) arg18 fullShare X1 ∗ owns (c : Thread nD τ) arg21 fullShare X4 ∗ owns (c : Thread nD τ) arg22 fullShare X5
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg17 fullShare (k0_pay2 x3 x4) ∗ owns (c : Thread nD τ) arg18 fullShare (k0_pay3 x3 x5)
            ∗ owns (c : Thread nD τ) arg21 fullShare (k0_pay6 x1 (k0_pay2 x3 x4) x6) ∗ owns (c : Thread nD τ) arg22 fullShare (k0_pay7 x2 (k0_pay3 x3 x5) x7)) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, G0⟩, ⟨%g1, %hg1, G1⟩, ⟨%g4, %hg4, G4⟩, ⟨%g5, %hg5, G5⟩, Hk⟩
  subst hf1 hf2 hf3 hf4 hf5 hf6 hf7 hg0 hg1 hg4 hg5
  sl_exec (disch := first | exact h1 | exact h2 | exact h3 | exact h4)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [G0]
  · iexists _; isplitr
    swap; · iexact G0
    ipureintro
    sl_unfold_run_names
    rw [read_store_whole _ _ off0]
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [G1]
  · iexists _; isplitr
    swap; · iexact G1
    ipureintro
    sl_unfold_run_names
    rw [read_store_whole _ _ off0]
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [G4]
  · iexists _; isplitr
    swap; · iexact G4
    ipureintro
    sl_unfold_run_names
    rw [read_store_whole _ _ off0]
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0, View.readCov_unit_zero (S := S10000x128) _ off0]
  iexists _; isplitr
  swap; · iexact G5
  ipureintro
  sl_unfold_run_names
  rw [read_store_whole _ _ off0]
  simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0, View.readCov_unit_zero (S := S10000x128) _ off0]

end Cert.Proof.KB

end
-- ==== Proof.K.Steps.lean ====
import proofs.«143297_g16561393893844_cont_week2b_458_21_alg».proof.Proof.K.Data
import proofs.«143297_g16561393893844_cont_week2b_458_21_alg».proof.Proof.LibRowsUpd

/-!
How the relation on the scratch arrays advances over one point, in each of the body's four control cases, and what a
decoding point reads. Pure facts: no program logic. Rows 200 (t - 1) .. 200 t of h and h Wd become final at point t
(1 ≤ t ≤ 50); a row r belongs to the block stored by point r / 200 + 1.
-/

set_option maxRecDepth 16384

noncomputable section

namespace Cert.Proof.KB

open Cert.Kernel Cert.Kernel.Gen
open Idealize.ShloMosaic Idealize.ShloMosaic.ValueIdx
open Idealize.ShloMosaic.TcCoe Idealize.SL.Sem

variable {F : FTy → Type} [FloatOps F]
variable (m : (ℓ : Loc nD τ sig) → Buf (Elt F) ℓ) (c : Dev nD)

/-- The encoded blocks a point computes from the final feature transforms are the blocks of its number. -/
private theorem ZP_eq (t : Fin cfg0.N) : k0_pay6 (iblk m c 0 t) (XWP m c) (iblk m c 5 t) = ZP m c t.val := by
  unfold ZP; rw [pt_val]

private theorem ZN_eq (t : Fin cfg0.N) : k0_pay7 (iblk m c 1 t) (XWN m c) (iblk m c 6 t) = ZN m c t.val := by
  unfold ZN; rw [pt_val]

/-- What a point stores of the MLP's result, from the blocks encoded one point before, is the block of its number, -/
private theorem HB_eq (t : Fin cfg0.N) :
    k0_pay4 (k0_pay10 (ZP m c (t.val - 1)) (ZN m c (t.val - 1)) (iblk m c 7 t) (iblk m c 8 t) (iblk m c 9 t) (iblk m c 10 t)
      (iblk m c 11 t) (iblk m c 12 t) (iblk m c 13 t)) = HB m c t.val := by
  unfold HB; rw [pt_val]

/-- and so is the decoder's left factor. -/
private theorem TB_eq (t : Fin cfg0.N) :
    k0_pay5 (k0_pay9 (ZP m c (t.val - 1)) (ZN m c (t.val - 1)) (iblk m c 7 t) (iblk m c 8 t) (iblk m c 9 t) (iblk m c 10 t)
      (iblk m c 11 t) (iblk m c 12 t) (iblk m c 13 t)) (iblk m c 14 t) = TB m c t.val := by
  unfold TB HF; rw [pt_val]

/-- Row 200 (n - 1) + p of the final h is row p of the block point n stores, -/
private theorem Hfun_at (y : S10000x64.Idx) (n : ℕ) (hn : 1 ≤ n) (p : Fin 200) (q : Fin 64)
    (h0 : (y 0).val = 200 * (n - 1) + p.val) (h1 : (y 1).val = q.val) : Hfun m c y = HB m c n (ix2 p q) := by
  have hp := p.isLt
  have e1 : (y 0).val / 200 + 1 = n := by omega
  have e2 : (⟨(y 0).val % 200, Nat.mod_lt _ (by decide)⟩ : Fin 200) = p := Fin.ext (by show (y 0).val % 200 = p.val; omega)
  have e3 : (⟨(y 1).val, (y 1).isLt⟩ : Fin 64) = q := Fin.ext h1
  show HB m c ((y 0).val / 200 + 1) (ix2 (⟨(y 0).val % 200, Nat.mod_lt _ (by decide)⟩ : Fin 200) (⟨(y 1).val, (y 1).isLt⟩ : Fin 64)) = _
  rw [e1, e2, e3]

/-- and the same of the final h Wd. -/
private theorem Tfun_at (y : S10000x64.Idx) (n : ℕ) (hn : 1 ≤ n) (p : Fin 200) (q : Fin 64)
    (h0 : (y 0).val = 200 * (n - 1) + p.val) (h1 : (y 1).val = q.val) : Tfun m c y = TB m c n (ix2 p q) := by
  have hp := p.isLt
  have e1 : (y 0).val / 200 + 1 = n := by omega
  have e2 : (⟨(y 0).val % 200, Nat.mod_lt _ (by decide)⟩ : Fin 200) = p := Fin.ext (by show (y 0).val % 200 = p.val; omega)
  have e3 : (⟨(y 1).val, (y 1).isLt⟩ : Fin 64) = q := Fin.ext h1
  show TB m c ((y 0).val / 200 + 1) (ix2 (⟨(y 0).val % 200, Nat.mod_lt _ (by decide)⟩ : Fin 200) (⟨(y 1).val, (y 1).isLt⟩ : Fin 64)) = _
  rw [e1, e2, e3]

/-- Storing the blocks of point n into rows 200 (n - 1) .. makes those rows final and keeps the earlier ones. -/
private theorem rows_step (n : ℕ) (hn : 1 ≤ n) (XH XT : Vec F S10000x64 .bf16)
    (hrows : ∀ y : S10000x64.Idx, (y 0).val + 200 < 200 * n → XH y = Hfun m c y ∧ XT y = Tfun m c y) :
    ∀ y : S10000x64.Idx, (y 0).val + 200 < 200 * (n + 1) →
      rowsUpd XH (200 * (n - 1)) (HB m c n) y = Hfun m c y ∧ rowsUpd XT (200 * (n - 1)) (TB m c n) y = Tfun m c y := by
  intro y hy
  by_cases hb : (y 0).val + 200 < 200 * n
  · -- a row below the band: untouched, and final already
    rw [rowsUpd_of_not_mem XH _ _ y (Or.inl (by omega)), rowsUpd_of_not_mem XT _ _ y (Or.inl (by omega))]
    exact hrows y hb
  · -- a row of the band: it reads the stored block
    have hlt : (y 0).val - 200 * (n - 1) < 200 := by omega
    have h0 : (y 0).val = 200 * (n - 1) + (⟨(y 0).val - 200 * (n - 1), hlt⟩ : Fin 200).val := by
      show (y 0).val = 200 * (n - 1) + ((y 0).val - 200 * (n - 1)); omega
    have h1 : (y 1).val = (⟨(y 1).val, (y 1).isLt⟩ : Fin 64).val := rfl
    rw [rowsUpd_of_mem XH _ _ y _ _ h0 h1, rowsUpd_of_mem XT _ _ y _ _ h0 h1]
    exact ⟨(Hfun_at m c y n hn _ _ h0 h1).symm, (Tfun_at m c y n hn _ _ h0 h1).symm⟩

/-- Before the first point nothing is known of the scratch. -/
theorem R_zero (X0 X1 : Vec F S10000x128 .bf16) (XH XT : Vec F S10000x64 .bf16) (X4 X5 : Vec F S200x128 .f32) :
    R m c 0 X0 X1 XH XT X4 X5 := by
  unfold R
  exact ⟨fun h => absurd h (by omega), fun h => absurd h (by omega), fun y hy => absurd hy (by omega)⟩

/-- After the first point: the two feature transforms and the first two encoded blocks. -/
theorem R_step_A (t : Fin cfg0.N) (ht : t.val = 0) (XH XT : Vec F S10000x64 .bf16) :
    R m c (t.val + 1) (k0_pay2 (iblk m c 2 t) (iblk m c 3 t)) (k0_pay3 (iblk m c 2 t) (iblk m c 4 t)) XH XT
      (k0_pay6 (iblk m c 0 t) (k0_pay2 (iblk m c 2 t) (iblk m c 3 t)) (iblk m c 5 t))
      (k0_pay7 (iblk m c 1 t) (k0_pay3 (iblk m c 2 t) (iblk m c 4 t)) (iblk m c 6 t)) := by
  have e : t = pt 0 := by rw [← pt_val t, ht]
  rw [ht]
  subst e
  unfold R
  exact ⟨fun _ => ⟨rfl, rfl⟩, fun _ _ => ⟨rfl, rfl⟩, fun y hy => absurd hy (by omega)⟩

/-- A point that runs the MLP and encodes: rows 200 (t - 1) .. become final, the encoded blocks are this point's. -/
theorem R_step_B (t : Fin cfg0.N) (h1 : 1 ≤ t.val) (h2 : t.val ≤ 49)
    (X0 X1 : Vec F S10000x128 .bf16) (XH XT : Vec F S10000x64 .bf16) (X4 X5 : Vec F S200x128 .f32)
    (hR : R m c t.val X0 X1 XH XT X4 X5) :
    R m c (t.val + 1) X0 X1
      (rowsUpd XH (200 * (t.val - 1)) (k0_pay4 (k0_pay10 X4 X5 (iblk m c 7 t) (iblk m c 8 t) (iblk m c 9 t) (iblk m c 10 t) (iblk m c 11 t) (iblk m c 12 t) (iblk m c 13 t))))
      (rowsUpd XT (200 * (t.val - 1)) (k0_pay5 (k0_pay9 X4 X5 (iblk m c 7 t) (iblk m c 8 t) (iblk m c 9 t) (iblk m c 10 t) (iblk m c 11 t) (iblk m c 12 t) (iblk m c 13 t)) (iblk m c 14 t)))
      (k0_pay6 (iblk m c 0 t) X0 (iblk m c 5 t)) (k0_pay7 (iblk m c 1 t) X1 (iblk m c 6 t)) := by
  unfold R at hR
  obtain ⟨hA, hZ, hrows⟩ := hR
  obtain ⟨e0, e1⟩ := hA h1
  obtain ⟨e4, e5⟩ := hZ h1 (by omega)
  subst e0 e1 e4 e5
  rw [HB_eq, TB_eq, ZP_eq, ZN_eq]
  unfold R
  refine ⟨fun _ => ⟨rfl, rfl⟩, fun _ _ => ?_, rows_step m c t.val h1 XH XT hrows⟩
  rw [Nat.add_sub_cancel]
  exact ⟨rfl, rfl⟩

/-- Point 50 runs the MLP only: the last rows become final. -/
theorem R_step_C (t : Fin cfg0.N) (ht : t.val = 50)
    (X0 X1 : Vec F S10000x128 .bf16) (XH XT : Vec F S10000x64 .bf16) (X4 X5 : Vec F S200x128 .f32)
    (hR : R m c t.val X0 X1 XH XT X4 X5) :
    R m c (t.val + 1) X0 X1
      (rowsUpd XH (200 * (t.val - 1)) (k0_pay4 (k0_pay10 X4 X5 (iblk m c 7 t) (iblk m c 8 t) (iblk m c 9 t) (iblk m c 10 t) (iblk m c 11 t) (iblk m c 12 t) (iblk m c 13 t))))
      (rowsUpd XT (200 * (t.val - 1)) (k0_pay5 (k0_pay9 X4 X5 (iblk m c 7 t) (iblk m c 8 t) (iblk m c 9 t) (iblk m c 10 t) (iblk m c 11 t) (iblk m c 12 t) (iblk m c 13 t)) (iblk m c 14 t)))
      X4 X5 := by
  unfold R at hR
  obtain ⟨hA, hZ, hrows⟩ := hR
  obtain ⟨e4, e5⟩ := hZ (by omega) (by omega)
  subst e4 e5
  rw [HB_eq, TB_eq]
  unfold R
  exact ⟨fun _ => hA (by omega), fun _ h => absurd h (by omega), rows_step m c t.val (by omega) XH XT hrows⟩

/-- A decoding point changes no scratch array. -/
theorem R_step_D (t : Fin cfg0.N) (ht : 51 ≤ t.val)
    (X0 X1 : Vec F S10000x128 .bf16) (XH XT : Vec F S10000x64 .bf16) (X4 X5 : Vec F S200x128 .f32)
    (hR : R m c t.val X0 X1 XH XT X4 X5) : R m c (t.val + 1) X0 X1 XH XT X4 X5 := by
  unfold R at hR ⊢
  obtain ⟨hA, hZ, hrows⟩ := hR
  refine ⟨fun _ => hA (by omega), fun _ h => absurd h (by omega), fun y _ => hrows y ?_⟩
  have := idx2_lt0 y
  omega

/-- What a decoding point computes from the scratch it finds: its 200 rows of h Wd against the whole of h. -/
theorem R_decode (t : Fin cfg0.N) (ht : 51 ≤ t.val)
    (X0 X1 : Vec F S10000x128 .bf16) (XH XT : Vec F S10000x64 .bf16) (X4 X5 : Vec F S200x128 .f32)
    (hR : R m c t.val X0 X1 XH XT X4 X5) (off : Fin 2 → ℕ) (hoff : off = ![200 * (t.val - 51), 0])
    (inb : ∀ a, off a + S200x64.size a ≤ S10000x64.size a) :
    k0_pay8 (View.ld XT (Rect.unit (s := S10000x64) off S200x64.size inb)) XH = OUT m c t := by
  unfold R at hR
  obtain ⟨hA, hZ, hrows⟩ := hR
  -- every row is final once the decoder runs
  have hall : ∀ y : S10000x64.Idx, XH y = Hfun m c y ∧ XT y = Tfun m c y := fun y =>
    hrows y (by have := idx2_lt0 y; omega)
  have hH : XH = Hfun m c := funext fun y => (hall y).1
  -- rows 200 (t - 51) .. of h Wd are the block point t - 50 stored
  have hT : View.ld XT (Rect.unit (s := S10000x64) off S200x64.size inb) = TB m c (t.val - 50) := by
    subst hoff
    funext (x : S200x64.Idx)
    have hx := idx2_lt0 x
    show XT ((Rect.unit (s := S10000x64) ![200 * (t.val - 51), 0] S200x64.size inb).idx x) = _
    rw [(hall _).2]
    refine (Tfun_at m c _ (t.val - 50) (by omega) (x 0) (x 1) ?_ ?_).trans (congrArg (TB m c (t.val - 50)) (eq_ix2 x).symm)
    · show 200 * (t.val - 51) + 1 * (x 0).val = 200 * (t.val - 50 - 1) + (x 0).val
      omega
    · show 0 + 1 * (x 1).val = (x 1).val
      omega
  unfold OUT
  rw [hT, hH]

end Cert.Proof.KB

end
-- ==== Proof.K.BodyA.lean ====
import proofs.«143297_g16561393893844_cont_week2b_458_21_alg».proof.Proof.K.BodyCommon
import proofs.«143297_g16561393893844_cont_week2b_458_21_alg».proof.Proof.K.CaseA
import proofs.«143297_g16561393893844_cont_week2b_458_21_alg».proof.Proof.K.Steps
import Idealize.ShloMosaic.Lib.Pipeline.Value

/-!
The body obligation at the first point: whatever the scratch held, the prologue leaves the two feature transforms and
the encoder the first two encoded blocks; the result's window is idle.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

theorem sound_body_A (c : Dev nD) (t : Fin cfg0.N) (ht : t.val = 0) :
    bodyPre m c t ⊢ wp frame (wpE (defs₀ (F := F)) 𝒱₀ c none) Set.univ (bodyAt0 t) (fun _ => bodyPost m c t) := by
  have hi : cfg0.idle 15 (cfg0.grid.coords t) = true := by rw [hidle15]; exact decide_eq_true (by omega)
  have hf : (cfg0.win 15).flush t = false := hflush15 t (by omega)
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = phi m c (t.val + 1) from rfl, show (dats m 0 c).Φ t.castSucc = phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [Dat.leavesExact_idle (dats m 0 c) 15 t hi hf]
  unfold phi
  iintro ⟨⟨%X0, %X1, %XH, %XT, %X4, %X5, %hR, S0, S1, S2, S3, S4, S5, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_A c (grid0.coords t) _ _ _ _ _ _ _ _ _ _ _ _ _ _ _ _ _ _ _ _ _ _ _ _ _ _ _ _ _ _ _ _ _ _ _ _ _ _ _ _ _ _ _ _
    ((hc1 t).mpr ht) ((hc2 t).not.mpr (by omega)) ((hc3 t).mpr (by omega)) ((hc4 t).not.mpr (by omega))
    (iblk m c 0 t) (iblk m c 1 t) (iblk m c 2 t) (iblk m c 3 t) (iblk m c 4 t) (iblk m c 5 t) (iblk m c 6 t) X0 X1 X4 X5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S4]; · iexact S4
  isplitl [S5]; · iexact S5
  iintro ⟨H0, H1, H2, H3, H4, H5, H6, S0, S1, S4, S5⟩
  isplitl [S0 S1 S2 S3 S4 S5 HR]
  · iexists _, _, _, _, _, _
    isplitr; · ipureintro; exact R_step_A m c t ht XH XT
    isplitl [S0]; · iexact S0
    isplitl [S1]; · iexact S1
    isplitl [S2]; · iexact S2
    isplitl [S3]; · iexact S3
    isplitl [S4]; · iexact S4
    isplitl [S5]; · iexact S5
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

end Cert.Proof.KB

end
-- ==== Proof.K.CaseB.lean ====
import proofs.«143297_g16561393893844_cont_week2b_458_21_alg».proof.Proof.K.CasesCommon
import Idealize.ShloMosaic.Lib.Pipeline.Value

/-!
The body at points 1 .. 49: the MLP branch on the blocks encoded one point before (stored into rows o .. o + 200 of
the h and h Wd scratch arrays), then the encoder branch, which overwrites the two encoded blocks with this point's.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

theorem sound_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S200x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S200x128 .f32) (harg21 : arg21.IsWhole) (arg22 : Memref sig .tc .vmem S200x128 .f32) (harg22 : arg22.IsWhole)
    (h1 : ¬ c1 i) (h2 : c2 i) (h3 : c3 i) (h4 : ¬ c4 i) (o : ℕ) (hoff : k0_off1 i = ![o, 0])
    (x1 x2 : Vec F S200x10000 .f32) (x6 x7 : Vec F S1x128 .f32) (x8 x9 : Vec F S128x64 .f32) (x10 : Vec F S1x64 .f32) (x11 : Vec F S64x128 .f32) (x12 : Vec F S1x128 .f32) (x13 : Vec F S128x64 .f32) (x14 : Vec F S1x64 .f32) (x15 : Vec F S64x64 .f32)
    (X0 X1 : Vec F S10000x128 .bf16) (XH XT : Vec F S10000x64 .bf16) (X4 X5 : Vec F S200x128 .f32) (K : PUnit → sProp 𝕄) :
    iprop(owns (c : Thread nD τ) arg1 fullShare x1 ∗ owns (c : Thread nD τ) arg2 fullShare x2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ owns (c : Thread nD τ) arg17 fullShare X0 ∗ owns (c : Thread nD τ) arg18 fullShare X1 ∗ owns (c : Thread nD τ) arg19 fullShare XH ∗ owns (c : Thread nD τ) arg20 fullShare XT ∗ owns (c : Thread nD τ) arg21 fullShare X4 ∗ owns (c : Thread nD τ) arg22 fullShare X5
        ∗ (iprop(owns (c : Thread nD τ) arg1 fullShare x1 ∗ owns (c : Thread nD τ) arg2 fullShare x2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ owns (c : Thread nD τ) arg17 fullShare X0 ∗ owns (c : Thread nD τ) arg18 fullShare X1 ∗ owns (c : Thread nD τ) arg19 fullShare (rowsUpd XH o (k0_pay4 (k0_pay10 X4 X5 x8 x9 x10 x11 x12 x13 x14))) ∗ owns (c : Thread nD τ) arg20 fullShare (rowsUpd XT o (k0_pay5 (k0_pay9 X4 X5 x8 x9 x10 x11 x12 x13 x14) x15))
            ∗ owns (c : Thread nD τ) arg21 fullShare (k0_pay6 x1 X0 x6) ∗ owns (c : Thread nD τ) arg22 fullShare (k0_pay7 x2 X1 x7)) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%f1, %hf1, H1⟩, ⟨%f2, %hf2, H2⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%g0, %hg0, G0⟩, ⟨%g1, %hg1, G1⟩, ⟨%gH, %hgH, GH⟩, ⟨%gT, %hgT, GT⟩, ⟨%g4, %hg4, G4⟩, ⟨%g5, %hg5, G5⟩, Hk⟩
  subst hf1 hf2 hf6 hf7 hf8 hf9 hf10 hf11 hf12 hf13 hf14 hf15 hg0 hg1 hgH hgT hg4 hg5
  sl_exec (disch := first | exact h1 | exact h2 | exact h3 | exact h4)
  sl_step
  iapply Hk
  isplitl [H1]
  · iexists f1; isplitr; · ipureintro; rfl
    iexact H1
  isplitl [H2]
  · iexists f2; isplitr; · ipureintro; rfl
    iexact H2
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [G0]
  · iexists g0; isplitr; · ipureintro; rfl
    iexact G0
  isplitl [G1]
  · iexists g1; isplitr; · ipureintro; rfl
    iexact G1
  isplitl [GH]
  · iexists _; isplitr
    swap; · iexact GH
    ipureintro
    rw [View.read_writes_rows _ _ _ _ o hoff]
    sl_unfold_run_names
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [GT]
  · iexists _; isplitr
    swap; · iexact GT
    ipureintro
    rw [View.read_writes_rows _ _ _ _ o hoff]
    sl_unfold_run_names
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [G4]
  · iexists _; isplitr
    swap; · iexact G4
    ipureintro
    rw [read_store_whole _ _ off0]
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  iexists _; isplitr
  swap; · iexact G5
  ipureintro
  rw [read_store_whole _ _ off0]
  simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]

end Cert.Proof.KB

end
-- ==== Proof.K.BodyB.lean ====
import proofs.«143297_g16561393893844_cont_week2b_458_21_alg».proof.Proof.K.BodyCommon
import proofs.«143297_g16561393893844_cont_week2b_458_21_alg».proof.Proof.K.CaseB
import proofs.«143297_g16561393893844_cont_week2b_458_21_alg».proof.Proof.K.Steps
import Idealize.ShloMosaic.Lib.Pipeline.Value

/-!
The body obligation at points 1 .. 49: the MLP on the blocks the point before encoded makes rows 200 (t - 1) .. of h
and h Wd final, then the encoder replaces the two encoded blocks by this point's; the result's window is idle.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

theorem sound_body_B (c : Dev nD) (t : Fin cfg0.N) (h1 : 1 ≤ t.val) (h2 : t.val ≤ 49) :
    bodyPre m c t ⊢ wp frame (wpE (defs₀ (F := F)) 𝒱₀ c none) Set.univ (bodyAt0 t) (fun _ => bodyPost m c t) := by
  have hi : cfg0.idle 15 (cfg0.grid.coords t) = true := by rw [hidle15]; exact decide_eq_true (by omega)
  have hf : (cfg0.win 15).flush t = false := hflush15 t (by omega)
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = phi m c (t.val + 1) from rfl, show (dats m 0 c).Φ t.castSucc = phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [Dat.leavesExact_idle (dats m 0 c) 15 t hi hf]
  unfold phi
  iintro ⟨⟨%X0, %X1, %XH, %XT, %X4, %X5, %hR, S0, S1, S2, S3, S4, S5, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_B c (grid0.coords t) _ _ _ _ _ _ _ _ _ _ _ _ _ _ _ _ _ _ _ _ _ _ _ _ _ _ _ _ _ _ _ _ _ _ _ _ _ _ _ _ _ _ _ _
    ((hc1 t).not.mpr (by omega)) ((hc2 t).mpr ⟨h1, by omega⟩) ((hc3 t).mpr (by omega)) ((hc4 t).not.mpr (by omega))
    (200 * (t.val - 1)) (hoff1 t h1 (by omega))
    (iblk m c 0 t) (iblk m c 1 t) (iblk m c 5 t) (iblk m c 6 t) (iblk m c 7 t) (iblk m c 8 t) (iblk m c 9 t) (iblk m c 10 t) (iblk m c 11 t) (iblk m c 12 t) (iblk m c 13 t) (iblk m c 14 t) X0 X1 XH XT X4 X5 _)
  isplitl [H0]; · iexact H0
  isplitl [H1]; · iexact H1
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  isplitl [S3]; · iexact S3
  isplitl [S4]; · iexact S4
  isplitl [S5]; · iexact S5
  iintro ⟨H0, H1, H5, H6, H7, H8, H9, H10, H11, H12, H13, H14, S0, S1, S2, S3, S4, S5⟩
  isplitl [S0 S1 S2 S3 S4 S5 HR]
  · iexists _, _, _, _, _, _
    isplitr; · ipureintro; exact R_step_B m c t h1 h2 X0 X1 XH XT X4 X5 hR
    isplitl [S0]; · iexact S0
    isplitl [S1]; · iexact S1
    isplitl [S2]; · iexact S2
    isplitl [S3]; · iexact S3
    isplitl [S4]; · iexact S4
    isplitl [S5]; · iexact S5
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

end Cert.Proof.KB

end
-- ==== Proof.K.CaseC.lean ====
import proofs.«143297_g16561393893844_cont_week2b_458_21_alg».proof.Proof.K.CasesCommon
import Idealize.ShloMosaic.Lib.Pipeline.Value

/-!
The body at point 50: only the MLP branch runs. It reads the two encoded blocks and the MLP's weights, and stores the
result and its product with the decoder weight into rows o .. o + 200 of the h and h Wd scratch arrays.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

theorem sound_C (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S200x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S200x128 .f32) (harg21 : arg21.IsWhole) (arg22 : Memref sig .tc .vmem S200x128 .f32) (harg22 : arg22.IsWhole)
    (h1 : ¬ c1 i) (h2 : c2 i) (h3 : ¬ c3 i) (h4 : ¬ c4 i) (o : ℕ) (hoff : k0_off1 i = ![o, 0])
    (x8 x9 : Vec F S128x64 .f32) (x10 : Vec F S1x64 .f32) (x11 : Vec F S64x128 .f32) (x12 : Vec F S1x128 .f32) (x13 : Vec F S128x64 .f32) (x14 : Vec F S1x64 .f32) (x15 : Vec F S64x64 .f32)
    (XH XT : Vec F S10000x64 .bf16) (X4 X5 : Vec F S200x128 .f32) (K : PUnit → sProp 𝕄) :
    iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ owns (c : Thread nD τ) arg19 fullShare XH ∗ owns (c : Thread nD τ) arg20 fullShare XT ∗ owns (c : Thread nD τ) arg21 fullShare X4 ∗ owns (c : Thread nD τ) arg22 fullShare X5
        ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ owns (c : Thread nD τ) arg19 fullShare (rowsUpd XH o (k0_pay4 (k0_pay10 X4 X5 x8 x9 x10 x11 x12 x13 x14))) ∗ owns (c : Thread nD τ) arg20 fullShare (rowsUpd XT o (k0_pay5 (k0_pay9 X4 X5 x8 x9 x10 x11 x12 x13 x14) x15)) ∗ owns (c : Thread nD τ) arg21 fullShare X4 ∗ owns (c : Thread nD τ) arg22 fullShare X5) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%gH, %hgH, GH⟩, ⟨%gT, %hgT, GT⟩, ⟨%g4, %hg4, G4⟩, ⟨%g5, %hg5, G5⟩, Hk⟩
  subst hf8 hf9 hf10 hf11 hf12 hf13 hf14 hf15 hgH hgT hg4 hg5
  sl_exec (disch := first | exact h1 | exact h2 | exact h3 | exact h4)
  sl_step
  iapply Hk
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [GH]
  · iexists _; isplitr
    swap; · iexact GH
    ipureintro
    rw [View.read_writes_rows _ _ _ _ o hoff]
    sl_unfold_run_names
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [GT]
  · iexists _; isplitr
    swap; · iexact GT
    ipureintro
    rw [View.read_writes_rows _ _ _ _ o hoff]
    sl_unfold_run_names
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [G4]
  · iexists g4; isplitr; · ipureintro; rfl
    iexact G4
  iexists g5; isplitr; · ipureintro; rfl
  iexact G5

end Cert.Proof.KB

end
-- ==== Proof.K.BodyC.lean ====
import proofs.«143297_g16561393893844_cont_week2b_458_21_alg».proof.Proof.K.BodyCommon
import proofs.«143297_g16561393893844_cont_week2b_458_21_alg».proof.Proof.K.CaseC
import proofs.«143297_g16561393893844_cont_week2b_458_21_alg».proof.Proof.K.Steps
import Idealize.ShloMosaic.Lib.Pipeline.Value

/-!
The body obligation at point 50: only the MLP runs, making the last rows of h and h Wd final; the result's window is idle.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

theorem sound_body_C (c : Dev nD) (t : Fin cfg0.N) (ht : t.val = 50) :
    bodyPre m c t ⊢ wp frame (wpE (defs₀ (F := F)) 𝒱₀ c none) Set.univ (bodyAt0 t) (fun _ => bodyPost m c t) := by
  have hi : cfg0.idle 15 (cfg0.grid.coords t) = true := by rw [hidle15]; exact decide_eq_true (by omega)
  have hf : (cfg0.win 15).flush t = false := hflush15 t (by omega)
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = phi m c (t.val + 1) from rfl, show (dats m 0 c).Φ t.castSucc = phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [Dat.leavesExact_idle (dats m 0 c) 15 t hi hf]
  unfold phi
  iintro ⟨⟨%X0, %X1, %XH, %XT, %X4, %X5, %hR, S0, S1, S2, S3, S4, S5, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_C c (grid0.coords t) _ _ _ _ _ _ _ _ _ _ _ _ _ _ _ _ _ _ _ _ _ _ _ _ _ _ _ _ _ _ _ _ _ _ _ _ _ _ _ _ _ _ _ _
    ((hc1 t).not.mpr (by omega)) ((hc2 t).mpr ⟨by omega, by omega⟩) ((hc3 t).not.mpr (by omega)) ((hc4 t).not.mpr (by omega))
    (200 * (t.val - 1)) (hoff1 t (by omega) (by omega))
    (iblk m c 7 t) (iblk m c 8 t) (iblk m c 9 t) (iblk m c 10 t) (iblk m c 11 t) (iblk m c 12 t) (iblk m c 13 t) (iblk m c 14 t) XH XT X4 X5 _)
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S2]; · iexact S2
  isplitl [S3]; · iexact S3
  isplitl [S4]; · iexact S4
  isplitl [S5]; · iexact S5
  iintro ⟨H7, H8, H9, H10, H11, H12, H13, H14, S2, S3, S4, S5⟩
  isplitl [S0 S1 S2 S3 S4 S5 HR]
  · iexists _, _, _, _, _, _
    isplitr; · ipureintro; exact R_step_C m c t ht X0 X1 XH XT X4 X5 hR
    isplitl [S0]; · iexact S0
    isplitl [S1]; · iexact S1
    isplitl [S2]; · iexact S2
    isplitl [S3]; · iexact S3
    isplitl [S4]; · iexact S4
    isplitl [S5]; · iexact S5
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

end Cert.Proof.KB

end
-- ==== Proof.K.CaseD.lean ====
import proofs.«143297_g16561393893844_cont_week2b_458_21_alg».proof.Proof.K.CasesCommon
import Idealize.ShloMosaic.Lib.Pipeline.Value

/-!
The body at a decoding point: the three earlier branches are skipped; the point loads its 200 rows of the h Wd
scratch and the whole h scratch and stores their product (columns against columns) over the result's buffer.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

theorem sound_D (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S200x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S200x128 .f32) (harg21 : arg21.IsWhole) (arg22 : Memref sig .tc .vmem S200x128 .f32) (harg22 : arg22.IsWhole)
    (h1 : ¬ c1 i) (h2 : ¬ c2 i) (h3 : ¬ c3 i) (h4 : c4 i)
    (xo : Vec F S200x10000 .f32) (XH XT : Vec F S10000x64 .bf16) (K : PUnit → sProp 𝕄) :
    iprop(owns (c : Thread nD τ) arg16 fullShare xo ∗ owns (c : Thread nD τ) arg19 fullShare XH ∗ owns (c : Thread nD τ) arg20 fullShare XT
        ∗ (iprop(owns (c : Thread nD τ) arg16 fullShare (k0_pay8 (View.ld XT (Rect.unit (s := S10000x64) (k0_off2 i) S200x64.size (k0_off2_inb i h4))) XH)
            ∗ owns (c : Thread nD τ) arg19 fullShare XH ∗ owns (c : Thread nD τ) arg20 fullShare XT) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%fo, %hfo, Ho⟩, ⟨%fH, %hfH, HH⟩, ⟨%fT, %hfT, HT⟩, Hk⟩
  subst hfo hfH hfT
  sl_exec (disch := first | exact h1 | exact h2 | exact h3 | exact h4)
  sl_step
  iapply Hk
  isplitl [Ho]
  · iexists _; isplitr
    swap; · iexact Ho
    ipureintro
    rw [read_store_whole _ _ off0]
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [HH]
  · iexists fH; isplitr; · ipureintro; rfl
    iexact HH
  iexists fT; isplitr; · ipureintro; rfl
  iexact HT

end Cert.Proof.KB

end
-- ==== Proof.K.BodyD.lean ====
import proofs.«143297_g16561393893844_cont_week2b_458_21_alg».proof.Proof.K.BodyCommon
import proofs.«143297_g16561393893844_cont_week2b_458_21_alg».proof.Proof.K.CaseD
import proofs.«143297_g16561393893844_cont_week2b_458_21_alg».proof.Proof.K.Steps
import Idealize.ShloMosaic.Lib.Pipeline.Value

/-!
The body obligation at a decoding point t ≥ 51: the scratch relation gives the point its rows of h Wd and the whole
of h, the body stores their product over the result's buffer, and no scratch array changes.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

theorem sound_body_D (c : Dev nD) (t : Fin cfg0.N) (ht : 51 ≤ t.val) :
    bodyPre m c t ⊢ wp frame (wpE (defs₀ (F := F)) 𝒱₀ c none) Set.univ (bodyAt0 t) (fun _ => bodyPost m c t) := by
  have hi : cfg0.idle 15 (cfg0.grid.coords t) = false := by rw [hidle15]; exact decide_eq_false (by omega)
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = phi m c (t.val + 1) from rfl, show (dats m 0 c).Φ t.castSucc = phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).leavesExact 15 t = owns (c : Thread nD τ) (st0_15 t) fullShare ((dats m 0 c).after 15 t) from by
    unfold Dat.leavesExact; rw [hi], after0_out]
  unfold phi
  iintro ⟨⟨%X0, %X1, %XH, %XT, %X4, %X5, %hR, S0, S1, S2, S3, S4, S5, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_D c (grid0.coords t) _ _ _ _ _ _ _ _ _ _ _ _ _ _ _ _ _ _ _ _ _ _ _ _ _ _ _ _ _ _ _ _ _ _ _ _ _ _ _ _ _ _ _ _
    ((hc1 t).not.mpr (by omega)) ((hc2 t).not.mpr (by omega)) ((hc3 t).not.mpr (by omega)) ((hc4 t).mpr (by omega))
    ((dats m 0 c).before 15 t d15) XH XT _)
  isplitl [H15]; · iexact H15
  isplitl [S2]; · iexact S2
  isplitl [S3]; · iexact S3
  iintro ⟨H15, S2, S3⟩
  isplitl [S0 S1 S2 S3 S4 S5 HR]
  · iexists _, _, _, _, _, _
    isplitr; · ipureintro; exact R_step_D m c t ht X0 X1 XH XT X4 X5 hR
    isplitl [S0]; · iexact S0
    isplitl [S1]; · iexact S1
    isplitl [S2]; · iexact S2
    isplitl [S3]; · iexact S3
    isplitl [S4]; · iexact S4
    isplitl [S5]; · iexact S5
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  rw [← R_decode m c t ht X0 X1 XH XT X4 X5 hR _ (hoff2 t (by omega)) _]
  iexact H15

end Cert.Proof.KB

end
-- ==== Proof.K.BodyRun.lean ====
import proofs.«143297_g16561393893844_cont_week2b_458_21_alg».proof.Proof.K.BodyA
import proofs.«143297_g16561393893844_cont_week2b_458_21_alg».proof.Proof.K.BodyB
import proofs.«143297_g16561393893844_cont_week2b_458_21_alg».proof.Proof.K.BodyC
import proofs.«143297_g16561393893844_cont_week2b_458_21_alg».proof.Proof.K.BodyD
import Idealize.ShloMosaic.Lib.Pipeline.Value

/-!
The body obligation at every point, the launch, and the frame. The class invariant (the scratch at anything) yields the
tracking invariant before the first point, where nothing is claimed of the scratch, and gets it back after the last.
-/

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The body at any point: one of the four control cases, by the point's number. -/
theorem sound_body (c : Dev nD) (t : Fin cfg0.N) :
    bodyPre m c t ⊢ wp frame (wpE (defs₀ (F := F)) 𝒱₀ c none) Set.univ (bodyAt0 t) (fun _ => bodyPost m c t) := by
  by_cases h0 : t.val = 0
  · exact sound_body_A m c t h0
  by_cases h49 : t.val ≤ 49
  · exact sound_body_B m c t (by omega) h49
  by_cases h50 : t.val = 50
  · exact sound_body_C m c t h50
  exact sound_body_D m c t (by omega)

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The scratch between the class invariant and the tracking invariant -/

theorem scr_eq0 (c : Dev nD) (f : Buf (Elt F) ((c : Thread nD τ).loc cc0_scratch0)) :
    (sc0.view.loc (c : Thread nD τ) ↦[sc0.view.set]{fullShare} f : sProp 𝕄) = ((c : Thread nD τ).loc cc0_scratch0) ↦{fullShare} f := by
  simp only [Memref.view_whole, View.set_whole]
theorem scr_eq1 (c : Dev nD) (f : Buf (Elt F) ((c : Thread nD τ).loc cc0_scratch1)) :
    (sc1.view.loc (c : Thread nD τ) ↦[sc1.view.set]{fullShare} f : sProp 𝕄) = ((c : Thread nD τ).loc cc0_scratch1) ↦{fullShare} f := by
  simp only [Memref.view_whole, View.set_whole]
theorem scr_eq2 (c : Dev nD) (f : Buf (Elt F) ((c : Thread nD τ).loc cc0_scratch2)) :
    (sc2.view.loc (c : Thread nD τ) ↦[sc2.view.set]{fullShare} f : sProp 𝕄) = ((c : Thread nD τ).loc cc0_scratch2) ↦{fullShare} f := by
  simp only [Memref.view_whole, View.set_whole]
theorem scr_eq3 (c : Dev nD) (f : Buf (Elt F) ((c : Thread nD τ).loc cc0_scratch3)) :
    (sc3.view.loc (c : Thread nD τ) ↦[sc3.view.set]{fullShare} f : sProp 𝕄) = ((c : Thread nD τ).loc cc0_scratch3) ↦{fullShare} f := by
  simp only [Memref.view_whole, View.set_whole]
theorem scr_eq4 (c : Dev nD) (f : Buf (Elt F) ((c : Thread nD τ).loc cc0_scratch4)) :
    (sc4.view.loc (c : Thread nD τ) ↦[sc4.view.set]{fullShare} f : sProp 𝕄) = ((c : Thread nD τ).loc cc0_scratch4) ↦{fullShare} f := by
  simp only [Memref.view_whole, View.set_whole]
theorem scr_eq5 (c : Dev nD) (f : Buf (Elt F) ((c : Thread nD τ).loc cc0_scratch5)) :
    (sc5.view.loc (c : Thread nD τ) ↦[sc5.view.set]{fullShare} f : sProp 𝕄) = ((c : Thread nD τ).loc cc0_scratch5) ↦{fullShare} f := by
  simp only [Memref.view_whole, View.set_whole]

/-- Before the first point the scratch holds anything, and nothing is claimed of it. -/
theorem phi_in (c : Dev nD) : ΦA spec0 c ⊢ (dats m 0 c).Φ 0 := by
  show ΦA spec0 c ⊢ phi m c 0
  unfold ΦA phi
  rw [scopedRest0_eq]
  iintro ⟨⟨⟨%g0, S0⟩, ⟨%g1, S1⟩, ⟨%g2, S2⟩, ⟨%g3, S3⟩, ⟨%g4, S4⟩, ⟨%g5, S5⟩⟩, HR⟩
  iexists (sc0.view.read (Elt F) g0), (sc1.view.read (Elt F) g1), (sc2.view.read (Elt F) g2), (sc3.view.read (Elt F) g3),
    (sc4.view.read (Elt F) g4), (sc5.view.read (Elt F) g5)
  isplitr; · ipureintro; exact R_zero m c _ _ _ _ _ _
  unfold owns
  isplitl [S0]
  · iexists g0; isplitr; · ipureintro; rfl
    rw [scr_eq0]; iexact S0
  isplitl [S1]
  · iexists g1; isplitr; · ipureintro; rfl
    rw [scr_eq1]; iexact S1
  isplitl [S2]
  · iexists g2; isplitr; · ipureintro; rfl
    rw [scr_eq2]; iexact S2
  isplitl [S3]
  · iexists g3; isplitr; · ipureintro; rfl
    rw [scr_eq3]; iexact S3
  isplitl [S4]
  · iexists g4; isplitr; · ipureintro; rfl
    rw [scr_eq4]; iexact S4
  isplitl [S5]
  · iexists g5; isplitr; · ipureintro; rfl
    rw [scr_eq5]; iexact S5
  iexact HR

/-- After the last point the scratch is forgotten. -/
theorem phi_out (c : Dev nD) : (dats m 0 c).Φ (Fin.last cfg0.N) ⊢ ΦA spec0 c := by
  show phi m c cfg0.N ⊢ ΦA spec0 c
  unfold ΦA phi owns
  rw [scopedRest0_eq]
  iintro ⟨%X0, %X1, %XH, %XT, %X4, %X5, -, ⟨%g0, -, S0⟩, ⟨%g1, -, S1⟩, ⟨%g2, -, S2⟩, ⟨%g3, -, S3⟩, ⟨%g4, -, S4⟩, ⟨%g5, -, S5⟩, HR⟩
  isplitr [HR]
  · isplitl [S0]; · iexists g0; rw [← scr_eq0]; iexact S0
    isplitl [S1]; · iexists g1; rw [← scr_eq1]; iexact S1
    isplitl [S2]; · iexists g2; rw [← scr_eq2]; iexact S2
    isplitl [S3]; · iexists g3; rw [← scr_eq3]; iexact S3
    isplitl [S4]; · iexists g4; rw [← scr_eq4]; iexact S4
    iexists g5; rw [← scr_eq5]; iexact S5
  iexact HR

/-! ## The run and the frame -/

set_option backward.isDefEq.respectTransparency.types false in
/-- At the compiled mesh, for any values, from any memory with zero counters: every weakly fair execution of @main
    terminates, every array of the pipeline ends at what the proof data's write-backs leave and every other unscoped buffer
    as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hin := phi_in m) (hout := phi_out m)

/-- The frame: the run terminates, nothing faults, and the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Proof.KB

end
-- ==== Proof.Data.lean ====
import proofs.«143297_g16561393893844_cont_week2b_458_21_alg».proof.Proof.Gen.KernelIdeal.Skeleton
import proofs.«143297_g16561393893844_cont_week2b_458_21_alg».proof.Proof.Gen.KernelIdeal.Frame
import Idealize.ShloMosaic.Lib.Pipeline.Value
import Idealize.ShloMosaic.Lib.ValueIdx

/-!
The proof data of the fused encoder / MLP / decoder kernel, for any float instance.

The grid has 101 points. Point 0 stores the two feature transforms x W in scratch; points 0..49 encode row block t
of both signs, z = relu (A[t] (x W) + b); points 1..50 run the MLP on the block encoded one point before and store its
result h and the decoder's left factor h Wd in rows 200 (t-1) .. of two further scratch arrays; points 51..100
write out[t-51] = (h Wd)[t-51] hᵀ. Everything a point leaves is a closed function of the point and of the blocks the
pipeline hands the body, so the scratch is tracked by a relation that says which rows are already final.
-/

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ
abbrev 𝒱₀ : Variants := Variants.none

variable (m : (ℓ : Loc nD τ sig) → Buf (Elt F) ℓ)

/-- The grid point numbered n (the first point when n is past the grid). -/
def pt (n : ℕ) : Fin cfg0.N := if h : n < cfg0.N then ⟨n, h⟩ else ⟨0, by decide⟩

theorem pt_val (t : Fin cfg0.N) : pt t.val = t := by unfold pt; rw [dif_pos t.isLt]

/-- The feature transform x W_pos the first point leaves in scratch, -/
def XWP (c : Dev nD) : Vec F S10000x128 .bf16 := k0_pay2 (iblk m c 2 (pt 0)) (iblk m c 3 (pt 0))
/-- and x W_neg. -/
def XWN (c : Dev nD) : Vec F S10000x128 .bf16 := k0_pay3 (iblk m c 2 (pt 0)) (iblk m c 4 (pt 0))

/-- Row block n of the positive encoder, relu (A_pos[n] (x W_pos) + b_pos), as point n computes it, -/
def ZP (c : Dev nD) (n : ℕ) : Vec F S200x128 .f32 := k0_pay6 (iblk m c 0 (pt n)) (XWP m c) (iblk m c 5 (pt n))
/-- and of the negative one. -/
def ZN (c : Dev nD) (n : ℕ) : Vec F S200x128 .f32 := k0_pay7 (iblk m c 1 (pt n)) (XWN m c) (iblk m c 6 (pt n))

/-- The MLP's result on the block encoded at point n - 1, as point n computes it (before the store's rounding), -/
def HF (c : Dev nD) (n : ℕ) : Vec F S200x64 .f32 :=
  k0_pay9 (ZP m c (n - 1)) (ZN m c (n - 1)) (iblk m c 7 (pt n)) (iblk m c 8 (pt n)) (iblk m c 9 (pt n)) (iblk m c 10 (pt n))
    (iblk m c 11 (pt n)) (iblk m c 12 (pt n)) (iblk m c 13 (pt n))
/-- what point n stores of it into rows 200 (n-1) .. of the h scratch, -/
def HB (c : Dev nD) (n : ℕ) : Vec F S200x64 .bf16 :=
  k0_pay4 (k0_pay10 (ZP m c (n - 1)) (ZN m c (n - 1)) (iblk m c 7 (pt n)) (iblk m c 8 (pt n)) (iblk m c 9 (pt n)) (iblk m c 10 (pt n))
    (iblk m c 11 (pt n)) (iblk m c 12 (pt n)) (iblk m c 13 (pt n)))
/-- and the decoder's left factor h Wd it stores into the same rows of the other scratch. -/
def TB (c : Dev nD) (n : ℕ) : Vec F S200x64 .bf16 := k0_pay5 (HF m c n) (iblk m c 14 (pt n))

/-- The h scratch once every block is stored: row r comes from point r / 200 + 1. -/
def Hfun (c : Dev nD) : Vec F S10000x64 .bf16 := fun y =>
  HB m c ((y 0).val / 200 + 1) (ix2 (⟨(y 0).val % 200, Nat.mod_lt _ (by decide)⟩ : Fin 200) (⟨(y 1).val, (y 1).isLt⟩ : Fin 64))
/-- The h Wd scratch once every block is stored. -/
def Tfun (c : Dev nD) : Vec F S10000x64 .bf16 := fun y =>
  TB m c ((y 0).val / 200 + 1) (ix2 (⟨(y 0).val % 200, Nat.mod_lt _ (by decide)⟩ : Fin 200) (⟨(y 1).val, (y 1).isLt⟩ : Fin 64))

/-- What a decoding point t ≥ 51 leaves in the result's staging buffer: block t - 51 of h Wd (stored by point
    t - 50) against the whole of h. -/
def OUT (c : Dev nD) (t : Fin cfg0.N) : Vec F S200x10000 .f32 := k0_pay8 (TB m c (t.val - 50)) (Hfun m c)

/-- The result array after the run: row r is written back by point r / 200 + 51. -/
def Yfun (c : Dev nD) : Vec F S10000x10000 .f32 := fun y =>
  OUT m c (pt ((y 0).val / 200 + 51)) (ix2 (⟨(y 0).val % 200, Nat.mod_lt _ (by decide)⟩ : Fin 200) (⟨(y 1).val, (y 1).isLt⟩ : Fin 10000))

/-- What is known of the six scratch arrays before point n: the feature transforms from point 1 on; the two encoded
    blocks of point n - 1 while the encoder runs; and of h and h Wd the rows the points before n stored. -/
def R (c : Dev nD) (n : ℕ) (X0 X1 : Vec F S10000x128 .bf16) (XH XT : Vec F S10000x64 .bf16) (X4 X5 : Vec F S200x128 .f32) : Prop :=
  (1 ≤ n → X0 = XWP m c ∧ X1 = XWN m c)
  ∧ (1 ≤ n → n ≤ 50 → X4 = ZP m c (n - 1) ∧ X5 = ZN m c (n - 1))
  ∧ (∀ y : S10000x64.Idx, (y 0).val + 200 < 200 * n → XH y = Hfun m c y ∧ XT y = Tfun m c y)

/-- The six scratch arrays as the body is called with them. -/
abbrev sc0 : Memref sig .tc .vmem S10000x128 .bf16 := Memref.whole cc0_scratch0
abbrev sc1 : Memref sig .tc .vmem S10000x128 .bf16 := Memref.whole cc0_scratch1
abbrev sc2 : Memref sig .tc .vmem S10000x64 .bf16 := Memref.whole cc0_scratch2
abbrev sc3 : Memref sig .tc .vmem S10000x64 .bf16 := Memref.whole cc0_scratch3
abbrev sc4 : Memref sig .tc .vmem S200x128 .f32 := Memref.whole cc0_scratch4
abbrev sc5 : Memref sig .tc .vmem S200x128 .f32 := Memref.whole cc0_scratch5

/-- The body's invariant before point n: the scratch arrays at contents R relates, the generator register at anything. -/
def phi (c : Dev nD) (n : ℕ) : sProp 𝕄 :=
  iprop(∃ (X0 X1 : Vec F S10000x128 .bf16) (XH XT : Vec F S10000x64 .bf16) (X4 X5 : Vec F S200x128 .f32),
    ⌜R m c n X0 X1 XH XT X4 X5⌝ ∗ owns (c : Thread nD τ) sc0 fullShare X0 ∗ owns (c : Thread nD τ) sc1 fullShare X1
      ∗ owns (c : Thread nD τ) sc2 fullShare XH ∗ owns (c : Thread nD τ) sc3 fullShare XT
      ∗ owns (c : Thread nD τ) sc4 fullShare X4 ∗ owns (c : Thread nD τ) sc5 fullShare X5 ∗ ∃ r, prngReg c r)

/-- The pipeline's proof data on core c: the arrays as the region finds them; each input's buffer left at its block; the
    result's buffer at OUT (consulted at the decoding points only: the window is idle before them); the invariant phi. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => OUT m c t
    | ⟨_ + 16, h⟩ => absurd h (Nat.not_lt.2 (Nat.le_add_left _ _))
  Φ t := phi m c t.val
  q _ := fullShare
  owed _ := 0

theorem A_eq (c : Dev nD) (w : Fin cfg0.W) : (dats m 0 c).A w = V m c (Pipeline.arrRef spec0 w) := rfl

end Cert.Proof.KI

end
-- ==== Proof.CasesCommon.lean ====
import proofs.«143297_g16561393893844_cont_week2b_458_21_alg».proof.Proof.Data
import proofs.«143297_g16561393893844_cont_week2b_458_21_alg».proof.Proof.LibRowsUpd
import Idealize.ShloMosaic.Lib.Pipeline.Value

/-!
What the four control cases of the body share: the branch conditions as the kernel computes them from the grid
coordinate, and a buffer stored whole through the zero-offset rectangle reading back as the stored value.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The four branch conditions of the body, as the kernel computes them from the grid coordinate: the first point; the
    points that run the MLP; the points that encode; the points that decode. -/
abbrev c1 (i : grid0.Coords) : Prop := (Scalar.cmpi .ne (Scalar.extui (Scalar.cmpi .eq (BitVec.ofNat 32 (i 0).val) 0#32)) 0#32) = 1#1
abbrev c2 (i : grid0.Coords) : Prop := k0_cond2 i = 1#1
abbrev c3 (i : grid0.Coords) : Prop := (Scalar.cmpi .ne (Scalar.extui (Scalar.cmpi .slt (BitVec.ofNat 32 (i 0).val) 50#32)) 0#32) = 1#1
abbrev c4 (i : grid0.Coords) : Prop := k0_cond4 i = 1#1

/-- The whole-buffer rectangle's offsets are zero. -/
theorem off0 : (![0, 0] : Fin 2 → ℕ) = fun _ => 0 := funext fun a => by fin_cases a <;> rfl

/-- A buffer stored whole, through the rectangle at offsets zero of the buffer's own sizes, reads back as the stored value. -/
theorem read_store_whole {κ : Kind} {sp : Space} {s : Shape} {e : EltTy} (v : View sig κ sp s e) (f : v.ty.Contents (Elt F))
    {off : Fin s.rank → ℕ} (h : off = fun _ => 0) (inb : ∀ a, off a + s.size a ≤ s.size a) (w : s.Idx → Elt F e) :
    v.read (Elt F) (v.writes (Elt F) f [(⟨Rect.unit off s.size inb, w⟩ : View.Piece (Elt F) s e)]) = w := by
  subst h
  exact View.read_writes_whole v f w

end Cert.Proof.KI

end
-- ==== Proof.BodyCommon.lean ====
import proofs.«143297_g16561393893844_cont_week2b_458_21_alg».proof.Proof.Data
import proofs.«143297_g16561393893844_cont_week2b_458_21_alg».proof.Proof.CasesCommon
import Idealize.ShloMosaic.Lib.Pipeline.Value

/-!
What the body obligation's four cases share: the branch conditions and the computed row offsets decided over the
grid, what each window's buffer holds before and after the body, and the obligation's pre- and postcondition window by
window. The result's window is idle before the decoding points (its buffer is handed back as found) and live at them.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

/-! ## The grid decides the branches and the offsets -/

theorem hc1 : ∀ t : Fin cfg0.N, c1 (grid0.coords t) ↔ t.val = 0 :=
  (by decide +kernel : ∀ t : Fin grid0.N, c1 (grid0.coords t) ↔ t.val = 0)
theorem hc2 : ∀ t : Fin cfg0.N, c2 (grid0.coords t) ↔ (1 ≤ t.val ∧ t.val ≤ 50) :=
  (by decide +kernel : ∀ t : Fin grid0.N, c2 (grid0.coords t) ↔ (1 ≤ t.val ∧ t.val ≤ 50))
theorem hc3 : ∀ t : Fin cfg0.N, c3 (grid0.coords t) ↔ t.val < 50 :=
  (by decide +kernel : ∀ t : Fin grid0.N, c3 (grid0.coords t) ↔ t.val < 50)
theorem hc4 : ∀ t : Fin cfg0.N, c4 (grid0.coords t) ↔ 50 < t.val :=
  (by decide +kernel : ∀ t : Fin grid0.N, c4 (grid0.coords t) ↔ 50 < t.val)

/-- The MLP's point t stores into rows 200 (t - 1) .., -/
theorem hoff1 : ∀ t : Fin cfg0.N, 1 ≤ t.val → t.val ≤ 50 → k0_off1 (grid0.coords t) = ![200 * (t.val - 1), 0] :=
  (by decide +kernel : ∀ t : Fin grid0.N, 1 ≤ t.val → t.val ≤ 50 → k0_off1 (grid0.coords t) = ![200 * (t.val - 1), 0])
/-- and the decoding point t loads rows 200 (t - 51) ... -/
theorem hoff2 : ∀ t : Fin cfg0.N, 50 < t.val → k0_off2 (grid0.coords t) = ![200 * (t.val - 51), 0] :=
  (by decide +kernel : ∀ t : Fin grid0.N, 50 < t.val → k0_off2 (grid0.coords t) = ![200 * (t.val - 51), 0])

/-- The result's window is idle exactly before the decoding points, and is not written back there. -/
theorem hidle15 : ∀ t : Fin cfg0.N, cfg0.idle 15 (cfg0.grid.coords t) = decide (t.val ≤ 50) :=
  (by decide +kernel : ∀ t : Fin grid0.N, cfg0.idle 15 (cfg0.grid.coords t) = decide (t.val ≤ 50))
theorem hflush15 : ∀ t : Fin cfg0.N, t.val ≤ 50 → (cfg0.win 15).flush t = false :=
  (by decide +kernel : ∀ t : Fin grid0.N, t.val ≤ 50 → (cfg0.win 15).flush t = false)

/-! ## The windows' buffers before and after the body -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

theorem after0_out (c : Dev nD) (t : Fin cfg0.N) : (dats m 0 c).after 15 t = OUT m c t := by dsimp only [dats]

/-! ## The obligation at a point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns: every input's buffer as it was, the result's as the library's rule for an idle-or-live window says. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (dats m 0 c).leavesExact 15 t)

end Cert.Proof.KI

end
-- ==== Proof.CaseA.lean ====
import proofs.«143297_g16561393893844_cont_week2b_458_21_alg».proof.Proof.CasesCommon
import Idealize.ShloMosaic.Lib.Pipeline.Value

/-!
The body at the first point: the prologue stores the two feature transforms over whatever the scratch held, then the
encoder branch reads them back and stores the first two encoded blocks.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

theorem sound_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S200x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S200x128 .f32) (harg21 : arg21.IsWhole) (arg22 : Memref sig .tc .vmem S200x128 .f32) (harg22 : arg22.IsWhole)
    (h1 : c1 i) (h2 : ¬ c2 i) (h3 : c3 i) (h4 : ¬ c4 i)
    (x1 x2 : Vec F S200x10000 .f32) (x3 : Vec F S10000x128 .bf16) (x4 x5 : Vec F S128x128 .f32) (x6 x7 : Vec F S1x128 .f32)
    (X0 X1 : Vec F S10000x128 .bf16) (X4 X5 : Vec F S200x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg17 fullShare X0 ∗ owns (c : Thread nD τ) arg18 fullShare X1 ∗ owns (c : Thread nD τ) arg21 fullShare X4 ∗ owns (c : Thread nD τ) arg22 fullShare X5
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg17 fullShare (k0_pay2 x3 x4) ∗ owns (c : Thread nD τ) arg18 fullShare (k0_pay3 x3 x5)
            ∗ owns (c : Thread nD τ) arg21 fullShare (k0_pay6 x1 (k0_pay2 x3 x4) x6) ∗ owns (c : Thread nD τ) arg22 fullShare (k0_pay7 x2 (k0_pay3 x3 x5) x7)) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, G0⟩, ⟨%g1, %hg1, G1⟩, ⟨%g4, %hg4, G4⟩, ⟨%g5, %hg5, G5⟩, Hk⟩
  subst hf1 hf2 hf3 hf4 hf5 hf6 hf7 hg0 hg1 hg4 hg5
  sl_exec (disch := first | exact h1 | exact h2 | exact h3 | exact h4)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [G0]
  · iexists _; isplitr
    swap; · iexact G0
    ipureintro
    sl_unfold_run_names
    rw [read_store_whole _ _ off0]
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [G1]
  · iexists _; isplitr
    swap; · iexact G1
    ipureintro
    sl_unfold_run_names
    rw [read_store_whole _ _ off0]
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [G4]
  · iexists _; isplitr
    swap; · iexact G4
    ipureintro
    sl_unfold_run_names
    rw [read_store_whole _ _ off0]
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0, View.readCov_unit_zero (S := S10000x128) _ off0]
  iexists _; isplitr
  swap; · iexact G5
  ipureintro
  sl_unfold_run_names
  rw [read_store_whole _ _ off0]
  simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0, View.readCov_unit_zero (S := S10000x128) _ off0]

end Cert.Proof.KI

end
-- ==== Proof.Steps.lean ====
import proofs.«143297_g16561393893844_cont_week2b_458_21_alg».proof.Proof.Data
import proofs.«143297_g16561393893844_cont_week2b_458_21_alg».proof.Proof.LibRowsUpd

/-!
How the relation on the scratch arrays advances over one point, in each of the body's four control cases, and what a
decoding point reads. Pure facts: no program logic. Rows 200 (t - 1) .. 200 t of h and h Wd become final at point t
(1 ≤ t ≤ 50); a row r belongs to the block stored by point r / 200 + 1.
-/

set_option maxRecDepth 16384

noncomputable section

namespace Cert.Proof.KI

open Cert.KernelIdeal Cert.KernelIdeal.Gen
open Idealize.ShloMosaic Idealize.ShloMosaic.ValueIdx
open Idealize.ShloMosaic.TcCoe Idealize.SL.Sem

variable {F : FTy → Type} [FloatOps F]
variable (m : (ℓ : Loc nD τ sig) → Buf (Elt F) ℓ) (c : Dev nD)

/-- The encoded blocks a point computes from the final feature transforms are the blocks of its number. -/
private theorem ZP_eq (t : Fin cfg0.N) : k0_pay6 (iblk m c 0 t) (XWP m c) (iblk m c 5 t) = ZP m c t.val := by
  unfold ZP; rw [pt_val]

private theorem ZN_eq (t : Fin cfg0.N) : k0_pay7 (iblk m c 1 t) (XWN m c) (iblk m c 6 t) = ZN m c t.val := by
  unfold ZN; rw [pt_val]

/-- What a point stores of the MLP's result, from the blocks encoded one point before, is the block of its number, -/
private theorem HB_eq (t : Fin cfg0.N) :
    k0_pay4 (k0_pay10 (ZP m c (t.val - 1)) (ZN m c (t.val - 1)) (iblk m c 7 t) (iblk m c 8 t) (iblk m c 9 t) (iblk m c 10 t)
      (iblk m c 11 t) (iblk m c 12 t) (iblk m c 13 t)) = HB m c t.val := by
  unfold HB; rw [pt_val]

/-- and so is the decoder's left factor. -/
private theorem TB_eq (t : Fin cfg0.N) :
    k0_pay5 (k0_pay9 (ZP m c (t.val - 1)) (ZN m c (t.val - 1)) (iblk m c 7 t) (iblk m c 8 t) (iblk m c 9 t) (iblk m c 10 t)
      (iblk m c 11 t) (iblk m c 12 t) (iblk m c 13 t)) (iblk m c 14 t) = TB m c t.val := by
  unfold TB HF; rw [pt_val]

/-- Row 200 (n - 1) + p of the final h is row p of the block point n stores, -/
private theorem Hfun_at (y : S10000x64.Idx) (n : ℕ) (hn : 1 ≤ n) (p : Fin 200) (q : Fin 64)
    (h0 : (y 0).val = 200 * (n - 1) + p.val) (h1 : (y 1).val = q.val) : Hfun m c y = HB m c n (ix2 p q) := by
  have hp := p.isLt
  have e1 : (y 0).val / 200 + 1 = n := by omega
  have e2 : (⟨(y 0).val % 200, Nat.mod_lt _ (by decide)⟩ : Fin 200) = p := Fin.ext (by show (y 0).val % 200 = p.val; omega)
  have e3 : (⟨(y 1).val, (y 1).isLt⟩ : Fin 64) = q := Fin.ext h1
  show HB m c ((y 0).val / 200 + 1) (ix2 (⟨(y 0).val % 200, Nat.mod_lt _ (by decide)⟩ : Fin 200) (⟨(y 1).val, (y 1).isLt⟩ : Fin 64)) = _
  rw [e1, e2, e3]

/-- and the same of the final h Wd. -/
private theorem Tfun_at (y : S10000x64.Idx) (n : ℕ) (hn : 1 ≤ n) (p : Fin 200) (q : Fin 64)
    (h0 : (y 0).val = 200 * (n - 1) + p.val) (h1 : (y 1).val = q.val) : Tfun m c y = TB m c n (ix2 p q) := by
  have hp := p.isLt
  have e1 : (y 0).val / 200 + 1 = n := by omega
  have e2 : (⟨(y 0).val % 200, Nat.mod_lt _ (by decide)⟩ : Fin 200) = p := Fin.ext (by show (y 0).val % 200 = p.val; omega)
  have e3 : (⟨(y 1).val, (y 1).isLt⟩ : Fin 64) = q := Fin.ext h1
  show TB m c ((y 0).val / 200 + 1) (ix2 (⟨(y 0).val % 200, Nat.mod_lt _ (by decide)⟩ : Fin 200) (⟨(y 1).val, (y 1).isLt⟩ : Fin 64)) = _
  rw [e1, e2, e3]

/-- Storing the blocks of point n into rows 200 (n - 1) .. makes those rows final and keeps the earlier ones. -/
private theorem rows_step (n : ℕ) (hn : 1 ≤ n) (XH XT : Vec F S10000x64 .bf16)
    (hrows : ∀ y : S10000x64.Idx, (y 0).val + 200 < 200 * n → XH y = Hfun m c y ∧ XT y = Tfun m c y) :
    ∀ y : S10000x64.Idx, (y 0).val + 200 < 200 * (n + 1) →
      rowsUpd XH (200 * (n - 1)) (HB m c n) y = Hfun m c y ∧ rowsUpd XT (200 * (n - 1)) (TB m c n) y = Tfun m c y := by
  intro y hy
  by_cases hb : (y 0).val + 200 < 200 * n
  · -- a row below the band: untouched, and final already
    rw [rowsUpd_of_not_mem XH _ _ y (Or.inl (by omega)), rowsUpd_of_not_mem XT _ _ y (Or.inl (by omega))]
    exact hrows y hb
  · -- a row of the band: it reads the stored block
    have hlt : (y 0).val - 200 * (n - 1) < 200 := by omega
    have h0 : (y 0).val = 200 * (n - 1) + (⟨(y 0).val - 200 * (n - 1), hlt⟩ : Fin 200).val := by
      show (y 0).val = 200 * (n - 1) + ((y 0).val - 200 * (n - 1)); omega
    have h1 : (y 1).val = (⟨(y 1).val, (y 1).isLt⟩ : Fin 64).val := rfl
    rw [rowsUpd_of_mem XH _ _ y _ _ h0 h1, rowsUpd_of_mem XT _ _ y _ _ h0 h1]
    exact ⟨(Hfun_at m c y n hn _ _ h0 h1).symm, (Tfun_at m c y n hn _ _ h0 h1).symm⟩

/-- Before the first point nothing is known of the scratch. -/
theorem R_zero (X0 X1 : Vec F S10000x128 .bf16) (XH XT : Vec F S10000x64 .bf16) (X4 X5 : Vec F S200x128 .f32) :
    R m c 0 X0 X1 XH XT X4 X5 := by
  unfold R
  exact ⟨fun h => absurd h (by omega), fun h => absurd h (by omega), fun y hy => absurd hy (by omega)⟩

/-- After the first point: the two feature transforms and the first two encoded blocks. -/
theorem R_step_A (t : Fin cfg0.N) (ht : t.val = 0) (XH XT : Vec F S10000x64 .bf16) :
    R m c (t.val + 1) (k0_pay2 (iblk m c 2 t) (iblk m c 3 t)) (k0_pay3 (iblk m c 2 t) (iblk m c 4 t)) XH XT
      (k0_pay6 (iblk m c 0 t) (k0_pay2 (iblk m c 2 t) (iblk m c 3 t)) (iblk m c 5 t))
      (k0_pay7 (iblk m c 1 t) (k0_pay3 (iblk m c 2 t) (iblk m c 4 t)) (iblk m c 6 t)) := by
  have e : t = pt 0 := by rw [← pt_val t, ht]
  rw [ht]
  subst e
  unfold R
  exact ⟨fun _ => ⟨rfl, rfl⟩, fun _ _ => ⟨rfl, rfl⟩, fun y hy => absurd hy (by omega)⟩

/-- A point that runs the MLP and encodes: rows 200 (t - 1) .. become final, the encoded blocks are this point's. -/
theorem R_step_B (t : Fin cfg0.N) (h1 : 1 ≤ t.val) (h2 : t.val ≤ 49)
    (X0 X1 : Vec F S10000x128 .bf16) (XH XT : Vec F S10000x64 .bf16) (X4 X5 : Vec F S200x128 .f32)
    (hR : R m c t.val X0 X1 XH XT X4 X5) :
    R m c (t.val + 1) X0 X1
      (rowsUpd XH (200 * (t.val - 1)) (k0_pay4 (k0_pay10 X4 X5 (iblk m c 7 t) (iblk m c 8 t) (iblk m c 9 t) (iblk m c 10 t) (iblk m c 11 t) (iblk m c 12 t) (iblk m c 13 t))))
      (rowsUpd XT (200 * (t.val - 1)) (k0_pay5 (k0_pay9 X4 X5 (iblk m c 7 t) (iblk m c 8 t) (iblk m c 9 t) (iblk m c 10 t) (iblk m c 11 t) (iblk m c 12 t) (iblk m c 13 t)) (iblk m c 14 t)))
      (k0_pay6 (iblk m c 0 t) X0 (iblk m c 5 t)) (k0_pay7 (iblk m c 1 t) X1 (iblk m c 6 t)) := by
  unfold R at hR
  obtain ⟨hA, hZ, hrows⟩ := hR
  obtain ⟨e0, e1⟩ := hA h1
  obtain ⟨e4, e5⟩ := hZ h1 (by omega)
  subst e0 e1 e4 e5
  rw [HB_eq, TB_eq, ZP_eq, ZN_eq]
  unfold R
  refine ⟨fun _ => ⟨rfl, rfl⟩, fun _ _ => ?_, rows_step m c t.val h1 XH XT hrows⟩
  rw [Nat.add_sub_cancel]
  exact ⟨rfl, rfl⟩

/-- Point 50 runs the MLP only: the last rows become final. -/
theorem R_step_C (t : Fin cfg0.N) (ht : t.val = 50)
    (X0 X1 : Vec F S10000x128 .bf16) (XH XT : Vec F S10000x64 .bf16) (X4 X5 : Vec F S200x128 .f32)
    (hR : R m c t.val X0 X1 XH XT X4 X5) :
    R m c (t.val + 1) X0 X1
      (rowsUpd XH (200 * (t.val - 1)) (k0_pay4 (k0_pay10 X4 X5 (iblk m c 7 t) (iblk m c 8 t) (iblk m c 9 t) (iblk m c 10 t) (iblk m c 11 t) (iblk m c 12 t) (iblk m c 13 t))))
      (rowsUpd XT (200 * (t.val - 1)) (k0_pay5 (k0_pay9 X4 X5 (iblk m c 7 t) (iblk m c 8 t) (iblk m c 9 t) (iblk m c 10 t) (iblk m c 11 t) (iblk m c 12 t) (iblk m c 13 t)) (iblk m c 14 t)))
      X4 X5 := by
  unfold R at hR
  obtain ⟨hA, hZ, hrows⟩ := hR
  obtain ⟨e4, e5⟩ := hZ (by omega) (by omega)
  subst e4 e5
  rw [HB_eq, TB_eq]
  unfold R
  exact ⟨fun _ => hA (by omega), fun _ h => absurd h (by omega), rows_step m c t.val (by omega) XH XT hrows⟩

/-- A decoding point changes no scratch array. -/
theorem R_step_D (t : Fin cfg0.N) (ht : 51 ≤ t.val)
    (X0 X1 : Vec F S10000x128 .bf16) (XH XT : Vec F S10000x64 .bf16) (X4 X5 : Vec F S200x128 .f32)
    (hR : R m c t.val X0 X1 XH XT X4 X5) : R m c (t.val + 1) X0 X1 XH XT X4 X5 := by
  unfold R at hR ⊢
  obtain ⟨hA, hZ, hrows⟩ := hR
  refine ⟨fun _ => hA (by omega), fun _ h => absurd h (by omega), fun y _ => hrows y ?_⟩
  have := idx2_lt0 y
  omega

/-- What a decoding point computes from the scratch it finds: its 200 rows of h Wd against the whole of h. -/
theorem R_decode (t : Fin cfg0.N) (ht : 51 ≤ t.val)
    (X0 X1 : Vec F S10000x128 .bf16) (XH XT : Vec F S10000x64 .bf16) (X4 X5 : Vec F S200x128 .f32)
    (hR : R m c t.val X0 X1 XH XT X4 X5) (off : Fin 2 → ℕ) (hoff : off = ![200 * (t.val - 51), 0])
    (inb : ∀ a, off a + S200x64.size a ≤ S10000x64.size a) :
    k0_pay8 (View.ld XT (Rect.unit (s := S10000x64) off S200x64.size inb)) XH = OUT m c t := by
  unfold R at hR
  obtain ⟨hA, hZ, hrows⟩ := hR
  -- every row is final once the decoder runs
  have hall : ∀ y : S10000x64.Idx, XH y = Hfun m c y ∧ XT y = Tfun m c y := fun y =>
    hrows y (by have := idx2_lt0 y; omega)
  have hH : XH = Hfun m c := funext fun y => (hall y).1
  -- rows 200 (t - 51) .. of h Wd are the block point t - 50 stored
  have hT : View.ld XT (Rect.unit (s := S10000x64) off S200x64.size inb) = TB m c (t.val - 50) := by
    subst hoff
    funext (x : S200x64.Idx)
    have hx := idx2_lt0 x
    show XT ((Rect.unit (s := S10000x64) ![200 * (t.val - 51), 0] S200x64.size inb).idx x) = _
    rw [(hall _).2]
    refine (Tfun_at m c _ (t.val - 50) (by omega) (x 0) (x 1) ?_ ?_).trans (congrArg (TB m c (t.val - 50)) (eq_ix2 x).symm)
    · show 200 * (t.val - 51) + 1 * (x 0).val = 200 * (t.val - 50 - 1) + (x 0).val
      omega
    · show 0 + 1 * (x 1).val = (x 1).val
      omega
  unfold OUT
  rw [hT, hH]

end Cert.Proof.KI

end
-- ==== Proof.BodyA.lean ====
import proofs.«143297_g16561393893844_cont_week2b_458_21_alg».proof.Proof.BodyCommon
import proofs.«143297_g16561393893844_cont_week2b_458_21_alg».proof.Proof.CaseA
import proofs.«143297_g16561393893844_cont_week2b_458_21_alg».proof.Proof.Steps
import Idealize.ShloMosaic.Lib.Pipeline.Value

/-!
The body obligation at the first point: whatever the scratch held, the prologue leaves the two feature transforms and
the encoder the first two encoded blocks; the result's window is idle.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

theorem sound_body_A (c : Dev nD) (t : Fin cfg0.N) (ht : t.val = 0) :
    bodyPre m c t ⊢ wp frame (wpE (defs₀ (F := F)) 𝒱₀ c none) Set.univ (bodyAt0 t) (fun _ => bodyPost m c t) := by
  have hi : cfg0.idle 15 (cfg0.grid.coords t) = true := by rw [hidle15]; exact decide_eq_true (by omega)
  have hf : (cfg0.win 15).flush t = false := hflush15 t (by omega)
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = phi m c (t.val + 1) from rfl, show (dats m 0 c).Φ t.castSucc = phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [Dat.leavesExact_idle (dats m 0 c) 15 t hi hf]
  unfold phi
  iintro ⟨⟨%X0, %X1, %XH, %XT, %X4, %X5, %hR, S0, S1, S2, S3, S4, S5, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_A c (grid0.coords t) _ _ _ _ _ _ _ _ _ _ _ _ _ _ _ _ _ _ _ _ _ _ _ _ _ _ _ _ _ _ _ _ _ _ _ _ _ _ _ _ _ _ _ _
    ((hc1 t).mpr ht) ((hc2 t).not.mpr (by omega)) ((hc3 t).mpr (by omega)) ((hc4 t).not.mpr (by omega))
    (iblk m c 0 t) (iblk m c 1 t) (iblk m c 2 t) (iblk m c 3 t) (iblk m c 4 t) (iblk m c 5 t) (iblk m c 6 t) X0 X1 X4 X5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S4]; · iexact S4
  isplitl [S5]; · iexact S5
  iintro ⟨H0, H1, H2, H3, H4, H5, H6, S0, S1, S4, S5⟩
  isplitl [S0 S1 S2 S3 S4 S5 HR]
  · iexists _, _, _, _, _, _
    isplitr; · ipureintro; exact R_step_A m c t ht XH XT
    isplitl [S0]; · iexact S0
    isplitl [S1]; · iexact S1
    isplitl [S2]; · iexact S2
    isplitl [S3]; · iexact S3
    isplitl [S4]; · iexact S4
    isplitl [S5]; · iexact S5
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

end Cert.Proof.KI

end
-- ==== Proof.CaseB.lean ====
import proofs.«143297_g16561393893844_cont_week2b_458_21_alg».proof.Proof.CasesCommon
import Idealize.ShloMosaic.Lib.Pipeline.Value

/-!
The body at points 1 .. 49: the MLP branch on the blocks encoded one point before (stored into rows o .. o + 200 of
the h and h Wd scratch arrays), then the encoder branch, which overwrites the two encoded blocks with this point's.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

theorem sound_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S200x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S200x128 .f32) (harg21 : arg21.IsWhole) (arg22 : Memref sig .tc .vmem S200x128 .f32) (harg22 : arg22.IsWhole)
    (h1 : ¬ c1 i) (h2 : c2 i) (h3 : c3 i) (h4 : ¬ c4 i) (o : ℕ) (hoff : k0_off1 i = ![o, 0])
    (x1 x2 : Vec F S200x10000 .f32) (x6 x7 : Vec F S1x128 .f32) (x8 x9 : Vec F S128x64 .f32) (x10 : Vec F S1x64 .f32) (x11 : Vec F S64x128 .f32) (x12 : Vec F S1x128 .f32) (x13 : Vec F S128x64 .f32) (x14 : Vec F S1x64 .f32) (x15 : Vec F S64x64 .f32)
    (X0 X1 : Vec F S10000x128 .bf16) (XH XT : Vec F S10000x64 .bf16) (X4 X5 : Vec F S200x128 .f32) (K : PUnit → sProp 𝕄) :
    iprop(owns (c : Thread nD τ) arg1 fullShare x1 ∗ owns (c : Thread nD τ) arg2 fullShare x2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ owns (c : Thread nD τ) arg17 fullShare X0 ∗ owns (c : Thread nD τ) arg18 fullShare X1 ∗ owns (c : Thread nD τ) arg19 fullShare XH ∗ owns (c : Thread nD τ) arg20 fullShare XT ∗ owns (c : Thread nD τ) arg21 fullShare X4 ∗ owns (c : Thread nD τ) arg22 fullShare X5
        ∗ (iprop(owns (c : Thread nD τ) arg1 fullShare x1 ∗ owns (c : Thread nD τ) arg2 fullShare x2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ owns (c : Thread nD τ) arg17 fullShare X0 ∗ owns (c : Thread nD τ) arg18 fullShare X1 ∗ owns (c : Thread nD τ) arg19 fullShare (rowsUpd XH o (k0_pay4 (k0_pay10 X4 X5 x8 x9 x10 x11 x12 x13 x14))) ∗ owns (c : Thread nD τ) arg20 fullShare (rowsUpd XT o (k0_pay5 (k0_pay9 X4 X5 x8 x9 x10 x11 x12 x13 x14) x15))
            ∗ owns (c : Thread nD τ) arg21 fullShare (k0_pay6 x1 X0 x6) ∗ owns (c : Thread nD τ) arg22 fullShare (k0_pay7 x2 X1 x7)) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%f1, %hf1, H1⟩, ⟨%f2, %hf2, H2⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%g0, %hg0, G0⟩, ⟨%g1, %hg1, G1⟩, ⟨%gH, %hgH, GH⟩, ⟨%gT, %hgT, GT⟩, ⟨%g4, %hg4, G4⟩, ⟨%g5, %hg5, G5⟩, Hk⟩
  subst hf1 hf2 hf6 hf7 hf8 hf9 hf10 hf11 hf12 hf13 hf14 hf15 hg0 hg1 hgH hgT hg4 hg5
  sl_exec (disch := first | exact h1 | exact h2 | exact h3 | exact h4)
  sl_step
  iapply Hk
  isplitl [H1]
  · iexists f1; isplitr; · ipureintro; rfl
    iexact H1
  isplitl [H2]
  · iexists f2; isplitr; · ipureintro; rfl
    iexact H2
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [G0]
  · iexists g0; isplitr; · ipureintro; rfl
    iexact G0
  isplitl [G1]
  · iexists g1; isplitr; · ipureintro; rfl
    iexact G1
  isplitl [GH]
  · iexists _; isplitr
    swap; · iexact GH
    ipureintro
    rw [View.read_writes_rows _ _ _ _ o hoff]
    sl_unfold_run_names
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [GT]
  · iexists _; isplitr
    swap; · iexact GT
    ipureintro
    rw [View.read_writes_rows _ _ _ _ o hoff]
    sl_unfold_run_names
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [G4]
  · iexists _; isplitr
    swap; · iexact G4
    ipureintro
    rw [read_store_whole _ _ off0]
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  iexists _; isplitr
  swap; · iexact G5
  ipureintro
  rw [read_store_whole _ _ off0]
  simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]

end Cert.Proof.KI

end
-- ==== Proof.BodyB.lean ====
import proofs.«143297_g16561393893844_cont_week2b_458_21_alg».proof.Proof.BodyCommon
import proofs.«143297_g16561393893844_cont_week2b_458_21_alg».proof.Proof.CaseB
import proofs.«143297_g16561393893844_cont_week2b_458_21_alg».proof.Proof.Steps
import Idealize.ShloMosaic.Lib.Pipeline.Value

/-!
The body obligation at points 1 .. 49: the MLP on the blocks the point before encoded makes rows 200 (t - 1) .. of h
and h Wd final, then the encoder replaces the two encoded blocks by this point's; the result's window is idle.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

theorem sound_body_B (c : Dev nD) (t : Fin cfg0.N) (h1 : 1 ≤ t.val) (h2 : t.val ≤ 49) :
    bodyPre m c t ⊢ wp frame (wpE (defs₀ (F := F)) 𝒱₀ c none) Set.univ (bodyAt0 t) (fun _ => bodyPost m c t) := by
  have hi : cfg0.idle 15 (cfg0.grid.coords t) = true := by rw [hidle15]; exact decide_eq_true (by omega)
  have hf : (cfg0.win 15).flush t = false := hflush15 t (by omega)
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = phi m c (t.val + 1) from rfl, show (dats m 0 c).Φ t.castSucc = phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [Dat.leavesExact_idle (dats m 0 c) 15 t hi hf]
  unfold phi
  iintro ⟨⟨%X0, %X1, %XH, %XT, %X4, %X5, %hR, S0, S1, S2, S3, S4, S5, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_B c (grid0.coords t) _ _ _ _ _ _ _ _ _ _ _ _ _ _ _ _ _ _ _ _ _ _ _ _ _ _ _ _ _ _ _ _ _ _ _ _ _ _ _ _ _ _ _ _
    ((hc1 t).not.mpr (by omega)) ((hc2 t).mpr ⟨h1, by omega⟩) ((hc3 t).mpr (by omega)) ((hc4 t).not.mpr (by omega))
    (200 * (t.val - 1)) (hoff1 t h1 (by omega))
    (iblk m c 0 t) (iblk m c 1 t) (iblk m c 5 t) (iblk m c 6 t) (iblk m c 7 t) (iblk m c 8 t) (iblk m c 9 t) (iblk m c 10 t) (iblk m c 11 t) (iblk m c 12 t) (iblk m c 13 t) (iblk m c 14 t) X0 X1 XH XT X4 X5 _)
  isplitl [H0]; · iexact H0
  isplitl [H1]; · iexact H1
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  isplitl [S3]; · iexact S3
  isplitl [S4]; · iexact S4
  isplitl [S5]; · iexact S5
  iintro ⟨H0, H1, H5, H6, H7, H8, H9, H10, H11, H12, H13, H14, S0, S1, S2, S3, S4, S5⟩
  isplitl [S0 S1 S2 S3 S4 S5 HR]
  · iexists _, _, _, _, _, _
    isplitr; · ipureintro; exact R_step_B m c t h1 h2 X0 X1 XH XT X4 X5 hR
    isplitl [S0]; · iexact S0
    isplitl [S1]; · iexact S1
    isplitl [S2]; · iexact S2
    isplitl [S3]; · iexact S3
    isplitl [S4]; · iexact S4
    isplitl [S5]; · iexact S5
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

end Cert.Proof.KI

end
-- ==== Proof.CaseC.lean ====
import proofs.«143297_g16561393893844_cont_week2b_458_21_alg».proof.Proof.CasesCommon
import Idealize.ShloMosaic.Lib.Pipeline.Value

/-!
The body at point 50: only the MLP branch runs. It reads the two encoded blocks and the MLP's weights, and stores the
result and its product with the decoder weight into rows o .. o + 200 of the h and h Wd scratch arrays.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

theorem sound_C (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S200x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S200x128 .f32) (harg21 : arg21.IsWhole) (arg22 : Memref sig .tc .vmem S200x128 .f32) (harg22 : arg22.IsWhole)
    (h1 : ¬ c1 i) (h2 : c2 i) (h3 : ¬ c3 i) (h4 : ¬ c4 i) (o : ℕ) (hoff : k0_off1 i = ![o, 0])
    (x8 x9 : Vec F S128x64 .f32) (x10 : Vec F S1x64 .f32) (x11 : Vec F S64x128 .f32) (x12 : Vec F S1x128 .f32) (x13 : Vec F S128x64 .f32) (x14 : Vec F S1x64 .f32) (x15 : Vec F S64x64 .f32)
    (XH XT : Vec F S10000x64 .bf16) (X4 X5 : Vec F S200x128 .f32) (K : PUnit → sProp 𝕄) :
    iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ owns (c : Thread nD τ) arg19 fullShare XH ∗ owns (c : Thread nD τ) arg20 fullShare XT ∗ owns (c : Thread nD τ) arg21 fullShare X4 ∗ owns (c : Thread nD τ) arg22 fullShare X5
        ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ owns (c : Thread nD τ) arg19 fullShare (rowsUpd XH o (k0_pay4 (k0_pay10 X4 X5 x8 x9 x10 x11 x12 x13 x14))) ∗ owns (c : Thread nD τ) arg20 fullShare (rowsUpd XT o (k0_pay5 (k0_pay9 X4 X5 x8 x9 x10 x11 x12 x13 x14) x15)) ∗ owns (c : Thread nD τ) arg21 fullShare X4 ∗ owns (c : Thread nD τ) arg22 fullShare X5) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%gH, %hgH, GH⟩, ⟨%gT, %hgT, GT⟩, ⟨%g4, %hg4, G4⟩, ⟨%g5, %hg5, G5⟩, Hk⟩
  subst hf8 hf9 hf10 hf11 hf12 hf13 hf14 hf15 hgH hgT hg4 hg5
  sl_exec (disch := first | exact h1 | exact h2 | exact h3 | exact h4)
  sl_step
  iapply Hk
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [GH]
  · iexists _; isplitr
    swap; · iexact GH
    ipureintro
    rw [View.read_writes_rows _ _ _ _ o hoff]
    sl_unfold_run_names
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [GT]
  · iexists _; isplitr
    swap; · iexact GT
    ipureintro
    rw [View.read_writes_rows _ _ _ _ o hoff]
    sl_unfold_run_names
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [G4]
  · iexists g4; isplitr; · ipureintro; rfl
    iexact G4
  iexists g5; isplitr; · ipureintro; rfl
  iexact G5

end Cert.Proof.KI

end
-- ==== Proof.BodyC.lean ====
import proofs.«143297_g16561393893844_cont_week2b_458_21_alg».proof.Proof.BodyCommon
import proofs.«143297_g16561393893844_cont_week2b_458_21_alg».proof.Proof.CaseC
import proofs.«143297_g16561393893844_cont_week2b_458_21_alg».proof.Proof.Steps
import Idealize.ShloMosaic.Lib.Pipeline.Value

/-!
The body obligation at point 50: only the MLP runs, making the last rows of h and h Wd final; the result's window is idle.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

theorem sound_body_C (c : Dev nD) (t : Fin cfg0.N) (ht : t.val = 50) :
    bodyPre m c t ⊢ wp frame (wpE (defs₀ (F := F)) 𝒱₀ c none) Set.univ (bodyAt0 t) (fun _ => bodyPost m c t) := by
  have hi : cfg0.idle 15 (cfg0.grid.coords t) = true := by rw [hidle15]; exact decide_eq_true (by omega)
  have hf : (cfg0.win 15).flush t = false := hflush15 t (by omega)
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = phi m c (t.val + 1) from rfl, show (dats m 0 c).Φ t.castSucc = phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [Dat.leavesExact_idle (dats m 0 c) 15 t hi hf]
  unfold phi
  iintro ⟨⟨%X0, %X1, %XH, %XT, %X4, %X5, %hR, S0, S1, S2, S3, S4, S5, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_C c (grid0.coords t) _ _ _ _ _ _ _ _ _ _ _ _ _ _ _ _ _ _ _ _ _ _ _ _ _ _ _ _ _ _ _ _ _ _ _ _ _ _ _ _ _ _ _ _
    ((hc1 t).not.mpr (by omega)) ((hc2 t).mpr ⟨by omega, by omega⟩) ((hc3 t).not.mpr (by omega)) ((hc4 t).not.mpr (by omega))
    (200 * (t.val - 1)) (hoff1 t (by omega) (by omega))
    (iblk m c 7 t) (iblk m c 8 t) (iblk m c 9 t) (iblk m c 10 t) (iblk m c 11 t) (iblk m c 12 t) (iblk m c 13 t) (iblk m c 14 t) XH XT X4 X5 _)
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S2]; · iexact S2
  isplitl [S3]; · iexact S3
  isplitl [S4]; · iexact S4
  isplitl [S5]; · iexact S5
  iintro ⟨H7, H8, H9, H10, H11, H12, H13, H14, S2, S3, S4, S5⟩
  isplitl [S0 S1 S2 S3 S4 S5 HR]
  · iexists _, _, _, _, _, _
    isplitr; · ipureintro; exact R_step_C m c t ht X0 X1 XH XT X4 X5 hR
    isplitl [S0]; · iexact S0
    isplitl [S1]; · iexact S1
    isplitl [S2]; · iexact S2
    isplitl [S3]; · iexact S3
    isplitl [S4]; · iexact S4
    isplitl [S5]; · iexact S5
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

end Cert.Proof.KI

end
-- ==== Proof.CaseD.lean ====
import proofs.«143297_g16561393893844_cont_week2b_458_21_alg».proof.Proof.CasesCommon
import Idealize.ShloMosaic.Lib.Pipeline.Value

/-!
The body at a decoding point: the three earlier branches are skipped; the point loads its 200 rows of the h Wd
scratch and the whole h scratch and stores their product (columns against columns) over the result's buffer.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

theorem sound_D (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S200x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S200x128 .f32) (harg21 : arg21.IsWhole) (arg22 : Memref sig .tc .vmem S200x128 .f32) (harg22 : arg22.IsWhole)
    (h1 : ¬ c1 i) (h2 : ¬ c2 i) (h3 : ¬ c3 i) (h4 : c4 i)
    (xo : Vec F S200x10000 .f32) (XH XT : Vec F S10000x64 .bf16) (K : PUnit → sProp 𝕄) :
    iprop(owns (c : Thread nD τ) arg16 fullShare xo ∗ owns (c : Thread nD τ) arg19 fullShare XH ∗ owns (c : Thread nD τ) arg20 fullShare XT
        ∗ (iprop(owns (c : Thread nD τ) arg16 fullShare (k0_pay8 (View.ld XT (Rect.unit (s := S10000x64) (k0_off2 i) S200x64.size (k0_off2_inb i h4))) XH)
            ∗ owns (c : Thread nD τ) arg19 fullShare XH ∗ owns (c : Thread nD τ) arg20 fullShare XT) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%fo, %hfo, Ho⟩, ⟨%fH, %hfH, HH⟩, ⟨%fT, %hfT, HT⟩, Hk⟩
  subst hfo hfH hfT
  sl_exec (disch := first | exact h1 | exact h2 | exact h3 | exact h4)
  sl_step
  iapply Hk
  isplitl [Ho]
  · iexists _; isplitr
    swap; · iexact Ho
    ipureintro
    rw [read_store_whole _ _ off0]
    simp only [View.readAt_eq_ld, View.ld_unit_zero (S := S200x128) off0, View.ld_unit_zero (S := S128x64) off0, View.ld_unit_zero (S := S1x64) off0, View.ld_unit_zero (S := S64x128) off0, View.ld_unit_zero (S := S1x128) off0, View.ld_unit_zero (S := S64x64) off0, View.ld_unit_zero (S := S200x10000) off0, View.ld_unit_zero (S := S10000x128) off0, View.ld_unit_zero (S := S128x128) off0, View.ld_unit_zero (S := S10000x64) off0]
  isplitl [HH]
  · iexists fH; isplitr; · ipureintro; rfl
    iexact HH
  iexists fT; isplitr; · ipureintro; rfl
  iexact HT

end Cert.Proof.KI

end
-- ==== Proof.BodyD.lean ====
import proofs.«143297_g16561393893844_cont_week2b_458_21_alg».proof.Proof.BodyCommon
import proofs.«143297_g16561393893844_cont_week2b_458_21_alg».proof.Proof.CaseD
import proofs.«143297_g16561393893844_cont_week2b_458_21_alg».proof.Proof.Steps
import Idealize.ShloMosaic.Lib.Pipeline.Value

/-!
The body obligation at a decoding point t ≥ 51: the scratch relation gives the point its rows of h Wd and the whole
of h, the body stores their product over the result's buffer, and no scratch array changes.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

theorem sound_body_D (c : Dev nD) (t : Fin cfg0.N) (ht : 51 ≤ t.val) :
    bodyPre m c t ⊢ wp frame (wpE (defs₀ (F := F)) 𝒱₀ c none) Set.univ (bodyAt0 t) (fun _ => bodyPost m c t) := by
  have hi : cfg0.idle 15 (cfg0.grid.coords t) = false := by rw [hidle15]; exact decide_eq_false (by omega)
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = phi m c (t.val + 1) from rfl, show (dats m 0 c).Φ t.castSucc = phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).leavesExact 15 t = owns (c : Thread nD τ) (st0_15 t) fullShare ((dats m 0 c).after 15 t) from by
    unfold Dat.leavesExact; rw [hi], after0_out]
  unfold phi
  iintro ⟨⟨%X0, %X1, %XH, %XT, %X4, %X5, %hR, S0, S1, S2, S3, S4, S5, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_D c (grid0.coords t) _ _ _ _ _ _ _ _ _ _ _ _ _ _ _ _ _ _ _ _ _ _ _ _ _ _ _ _ _ _ _ _ _ _ _ _ _ _ _ _ _ _ _ _
    ((hc1 t).not.mpr (by omega)) ((hc2 t).not.mpr (by omega)) ((hc3 t).not.mpr (by omega)) ((hc4 t).mpr (by omega))
    ((dats m 0 c).before 15 t d15) XH XT _)
  isplitl [H15]; · iexact H15
  isplitl [S2]; · iexact S2
  isplitl [S3]; · iexact S3
  iintro ⟨H15, S2, S3⟩
  isplitl [S0 S1 S2 S3 S4 S5 HR]
  · iexists _, _, _, _, _, _
    isplitr; · ipureintro; exact R_step_D m c t ht X0 X1 XH XT X4 X5 hR
    isplitl [S0]; · iexact S0
    isplitl [S1]; · iexact S1
    isplitl [S2]; · iexact S2
    isplitl [S3]; · iexact S3
    isplitl [S4]; · iexact S4
    isplitl [S5]; · iexact S5
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  rw [← R_decode m c t ht X0 X1 XH XT X4 X5 hR _ (hoff2 t (by omega)) _]
  iexact H15

end Cert.Proof.KI

end
-- ==== Proof.BodyRun.lean ====
import proofs.«143297_g16561393893844_cont_week2b_458_21_alg».proof.Proof.BodyA
import proofs.«143297_g16561393893844_cont_week2b_458_21_alg».proof.Proof.BodyB
import proofs.«143297_g16561393893844_cont_week2b_458_21_alg».proof.Proof.BodyC
import proofs.«143297_g16561393893844_cont_week2b_458_21_alg».proof.Proof.BodyD
import Idealize.ShloMosaic.Lib.Pipeline.Value

/-!
The body obligation at every point, the launch, and the frame. The class invariant (the scratch at anything) yields the
tracking invariant before the first point, where nothing is claimed of the scratch, and gets it back after the last.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The body at any point: one of the four control cases, by the point's number. -/
theorem sound_body (c : Dev nD) (t : Fin cfg0.N) :
    bodyPre m c t ⊢ wp frame (wpE (defs₀ (F := F)) 𝒱₀ c none) Set.univ (bodyAt0 t) (fun _ => bodyPost m c t) := by
  by_cases h0 : t.val = 0
  · exact sound_body_A m c t h0
  by_cases h49 : t.val ≤ 49
  · exact sound_body_B m c t (by omega) h49
  by_cases h50 : t.val = 50
  · exact sound_body_C m c t h50
  exact sound_body_D m c t (by omega)

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The scratch between the class invariant and the tracking invariant -/

theorem scr_eq0 (c : Dev nD) (f : Buf (Elt F) ((c : Thread nD τ).loc cc0_scratch0)) :
    (sc0.view.loc (c : Thread nD τ) ↦[sc0.view.set]{fullShare} f : sProp 𝕄) = ((c : Thread nD τ).loc cc0_scratch0) ↦{fullShare} f := by
  simp only [Memref.view_whole, View.set_whole]
theorem scr_eq1 (c : Dev nD) (f : Buf (Elt F) ((c : Thread nD τ).loc cc0_scratch1)) :
    (sc1.view.loc (c : Thread nD τ) ↦[sc1.view.set]{fullShare} f : sProp 𝕄) = ((c : Thread nD τ).loc cc0_scratch1) ↦{fullShare} f := by
  simp only [Memref.view_whole, View.set_whole]
theorem scr_eq2 (c : Dev nD) (f : Buf (Elt F) ((c : Thread nD τ).loc cc0_scratch2)) :
    (sc2.view.loc (c : Thread nD τ) ↦[sc2.view.set]{fullShare} f : sProp 𝕄) = ((c : Thread nD τ).loc cc0_scratch2) ↦{fullShare} f := by
  simp only [Memref.view_whole, View.set_whole]
theorem scr_eq3 (c : Dev nD) (f : Buf (Elt F) ((c : Thread nD τ).loc cc0_scratch3)) :
    (sc3.view.loc (c : Thread nD τ) ↦[sc3.view.set]{fullShare} f : sProp 𝕄) = ((c : Thread nD τ).loc cc0_scratch3) ↦{fullShare} f := by
  simp only [Memref.view_whole, View.set_whole]
theorem scr_eq4 (c : Dev nD) (f : Buf (Elt F) ((c : Thread nD τ).loc cc0_scratch4)) :
    (sc4.view.loc (c : Thread nD τ) ↦[sc4.view.set]{fullShare} f : sProp 𝕄) = ((c : Thread nD τ).loc cc0_scratch4) ↦{fullShare} f := by
  simp only [Memref.view_whole, View.set_whole]
theorem scr_eq5 (c : Dev nD) (f : Buf (Elt F) ((c : Thread nD τ).loc cc0_scratch5)) :
    (sc5.view.loc (c : Thread nD τ) ↦[sc5.view.set]{fullShare} f : sProp 𝕄) = ((c : Thread nD τ).loc cc0_scratch5) ↦{fullShare} f := by
  simp only [Memref.view_whole, View.set_whole]

/-- Before the first point the scratch holds anything, and nothing is claimed of it. -/
theorem phi_in (c : Dev nD) : ΦA spec0 c ⊢ (dats m 0 c).Φ 0 := by
  show ΦA spec0 c ⊢ phi m c 0
  unfold ΦA phi
  rw [scopedRest0_eq]
  iintro ⟨⟨⟨%g0, S0⟩, ⟨%g1, S1⟩, ⟨%g2, S2⟩, ⟨%g3, S3⟩, ⟨%g4, S4⟩, ⟨%g5, S5⟩⟩, HR⟩
  iexists (sc0.view.read (Elt F) g0), (sc1.view.read (Elt F) g1), (sc2.view.read (Elt F) g2), (sc3.view.read (Elt F) g3),
    (sc4.view.read (Elt F) g4), (sc5.view.read (Elt F) g5)
  isplitr; · ipureintro; exact R_zero m c _ _ _ _ _ _
  unfold owns
  isplitl [S0]
  · iexists g0; isplitr; · ipureintro; rfl
    rw [scr_eq0]; iexact S0
  isplitl [S1]
  · iexists g1; isplitr; · ipureintro; rfl
    rw [scr_eq1]; iexact S1
  isplitl [S2]
  · iexists g2; isplitr; · ipureintro; rfl
    rw [scr_eq2]; iexact S2
  isplitl [S3]
  · iexists g3; isplitr; · ipureintro; rfl
    rw [scr_eq3]; iexact S3
  isplitl [S4]
  · iexists g4; isplitr; · ipureintro; rfl
    rw [scr_eq4]; iexact S4
  isplitl [S5]
  · iexists g5; isplitr; · ipureintro; rfl
    rw [scr_eq5]; iexact S5
  iexact HR

/-- After the last point the scratch is forgotten. -/
theorem phi_out (c : Dev nD) : (dats m 0 c).Φ (Fin.last cfg0.N) ⊢ ΦA spec0 c := by
  show phi m c cfg0.N ⊢ ΦA spec0 c
  unfold ΦA phi owns
  rw [scopedRest0_eq]
  iintro ⟨%X0, %X1, %XH, %XT, %X4, %X5, -, ⟨%g0, -, S0⟩, ⟨%g1, -, S1⟩, ⟨%g2, -, S2⟩, ⟨%g3, -, S3⟩, ⟨%g4, -, S4⟩, ⟨%g5, -, S5⟩, HR⟩
  isplitr [HR]
  · isplitl [S0]; · iexists g0; rw [← scr_eq0]; iexact S0
    isplitl [S1]; · iexists g1; rw [← scr_eq1]; iexact S1
    isplitl [S2]; · iexists g2; rw [← scr_eq2]; iexact S2
    isplitl [S3]; · iexists g3; rw [← scr_eq3]; iexact S3
    isplitl [S4]; · iexists g4; rw [← scr_eq4]; iexact S4
    iexists g5; rw [← scr_eq5]; iexact S5
  iexact HR

/-! ## The run and the frame -/

set_option backward.isDefEq.respectTransparency.types false in
/-- At the compiled mesh, for any values, from any memory with zero counters: every weakly fair execution of @main
    terminates, every array of the pipeline ends at what the proof data's write-backs leave and every other unscoped buffer
    as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hin := phi_in m) (hout := phi_out m)

/-- The frame: the run terminates, nothing faults, and the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Proof.KI

end
-- ==== Proof.FinalArr.lean ====
import proofs.«143297_g16561393893844_cont_week2b_458_21_alg».proof.Proof.Data

/-!
The result array after the run. The result's window is written back at the decoding points 51 .. 100 only, point t
writing rows 200 (t - 51) .. 200 (t - 50), every column; these fifty blocks tile the array, so the array is the
function whose row r comes from point r / 200 + 51.
-/

set_option maxRecDepth 16384

noncomputable section

namespace Cert.Proof.KI

open Cert.KernelIdeal Cert.KernelIdeal.Gen
open Idealize.ShloMosaic Idealize.ShloMosaic.ValueIdx
open Idealize.ShloMosaic.TcCoe Idealize.SL.Sem
open Idealize.ShloMosaic.Pipeline (Dat)

variable {F : FTy → Type} [FloatOps F]
variable (m : (ℓ : Loc nD τ sig) → Buf (Elt F) ℓ) (c : Dev nD)

/-- What the proof data leaves in the result's buffer at point t. -/
theorem after0_15 (t : Fin cfg0.N) : (dats m 0 c).after 15 t = OUT m c t := by dsimp only [dats]

/-- The result window's index map, decided over the grid: a point writes its block back exactly when it is a decoding
    point (51 or later); there the block's row index is the point's number less 51; the column index is always 0. -/
theorem out_points : ∀ t : Fin cfg0.N, (win0_15.flush t = true ↔ 51 ≤ t.val)
    ∧ (51 ≤ t.val → win0_15.index t (0 : Fin 2) = t.val - 51)
    ∧ win0_15.index t (1 : Fin 2) = 0 :=
  (by decide +kernel : ∀ t : Fin grid0.N, _)

/-- Row 200 (t - 51) + x0 of Yfun, for a decoding point t and a row x0 < 200 of its block, is row x0 of what point t
    leaves: (200 (t - 51) + x0) / 200 + 51 = t and (200 (t - 51) + x0) % 200 = x0. -/
theorem Yfun_row (t : Fin cfg0.N) (ht : 51 ≤ t.val) (y : S10000x10000.Idx) (x : S200x10000.Idx)
    (h0 : (y 0).val = (t.val - 51) * 200 + 1 * (x 0).val) (h1 : (y 1).val = 0 * 10000 + 1 * (x 1).val) :
    Yfun m c y = OUT m c t x := by
  have hx0 : (x 0).val < 200 := idx2_lt0 x
  have eq : (y 0).val / 200 + 51 = t.val := by omega
  have er : (y 0).val % 200 = (x 0).val := by omega
  have ec : (y 1).val = (x 1).val := by omega
  unfold Yfun
  show OUT m c (pt ((y 0).val / 200 + 51)) _ = OUT m c t x
  rw [eq, pt_val]
  refine congrArg (OUT m c t) ?_
  funext a
  match a with
  | ⟨0, _⟩ => exact Fin.ext er
  | ⟨1, _⟩ => exact Fin.ext ec

/-- What a decoding point writes back is its block of Yfun. -/
theorem flushed_out (t : Fin cfg0.N) (hf : (cfg0.win 15).flush t = true) :
    (dats m 0 c).flushed 15 t = ((cfg0.win 15).blk t).view.read (Elt F) (Yfun m c) := by
  obtain ⟨hfl, hi0, hi1⟩ := out_points t
  have ht : 51 ≤ t.val := hfl.mp hf
  show (cfg0.win 15).cut (grid0.coords t) ((dats m 0 c).after 15 t) = _
  rw [after0_15]
  funext x
  show OUT m c t x = Yfun m c (((cfg0.win 15).blk t).view.emb x)
  refine (Yfun_row m c t ht _ x ?_ ?_).symm
  · show win0_15.index t (0 : Fin 2) * 200 + 1 * (x 0).val = _
    rw [hi0 ht]
  · show win0_15.index t (1 : Fin 2) * 10000 + 1 * (x 1).val = _
    rw [hi1]

/-- An index of the result is in point t's block iff each coordinate is in the block's range on its axis. -/
theorem mem_out_blk (t : Fin cfg0.N) (i : S10000x10000.Idx) :
    i ∈ ((cfg0.win 15).blk t).view.set ↔ ∀ a : Fin 2, win0_15.index t a * S200x10000.size a ≤ (i a).val ∧ (i a).val < win0_15.index t a * S200x10000.size a + S200x10000.size a := by
  show i ∈ ((View.whole main_v8).slice (win0_15.rect t)).set ↔ _
  rw [View.set_slice_whole, Rect.mem_set_unit]
  exact Iff.rfl

/-- Every index of the result lies in the block of a decoding point: row r in that of point r / 200 + 51. -/
theorem out_cover (i : S10000x10000.Idx) :
    ∃ t : Fin cfg0.N, (cfg0.win 15).flush t = true ∧ i ∈ ((cfg0.win 15).blk t).view.set := by
  have hr : (i 0).val < 10000 := idx2_lt0 i
  have hc : (i 1).val < 10000 := idx2_lt1 i
  have hp : (i 0).val / 200 + 51 < 101 := by omega
  refine ⟨⟨(i 0).val / 200 + 51, hp⟩, ?_, ?_⟩
  · exact (out_points ⟨(i 0).val / 200 + 51, hp⟩).1.mpr (by show 51 ≤ (i 0).val / 200 + 51; omega)
  · obtain ⟨-, hi0, hi1⟩ := out_points ⟨(i 0).val / 200 + 51, hp⟩
    have q0 : win0_15.index ⟨(i 0).val / 200 + 51, hp⟩ (0 : Fin 2) = (i 0).val / 200 + 51 - 51 := hi0 (by show 51 ≤ (i 0).val / 200 + 51; omega)
    rw [mem_out_blk]
    intro a
    match a with
    | ⟨0, _⟩ => show win0_15.index ⟨(i 0).val / 200 + 51, hp⟩ (0 : Fin 2) * 200 ≤ (i 0).val ∧ (i 0).val < win0_15.index ⟨(i 0).val / 200 + 51, hp⟩ (0 : Fin 2) * 200 + 200; rw [q0]; omega
    | ⟨1, _⟩ => show win0_15.index ⟨(i 0).val / 200 + 51, hp⟩ (1 : Fin 2) * 10000 ≤ (i 1).val ∧ (i 1).val < win0_15.index ⟨(i 0).val / 200 + 51, hp⟩ (1 : Fin 2) * 10000 + 10000; rw [hi1]; omega

/-- The result array after every write-back is Yfun. -/
theorem final_arr : (dats m 0 c).arrAt 15 cfg0.N = Yfun m c :=
  (dats m 0 c).arrAt_eq_of_cover 15 (Yfun m c) (flushed_out m c) (out_cover)

end Cert.Proof.KI

end
-- ==== Proof.Run.lean ====
import proofs.«143297_g16561393893844_cont_week2b_458_21_alg».proof.Proof.BodyRun
import proofs.«143297_g16561393893844_cont_week2b_458_21_alg».proof.Proof.FinalArr
import Idealize.ShloMosaic.Lib.Pipeline.Value

/-!
The run with the result named: every weakly fair execution terminates with the result array at Yfun of the argument
arrays and the arguments unchanged. The result's array is what the decoding points wrote back; an argument the pipeline
stages is never written, and one it does not stage bypasses the region.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v8) = Yfun m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 15).trans (final_arr m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 10).trans (((dats m 0 c).arrAt_in 10 rfl _).trans ((A_eq m c 10).trans (V_main_arg9 m c))),
      ((h c).2 main_arg10 (Pipeline.mem_restRefs_of main_arg10 (by decide) (by decide))).trans (V_main_arg10 m c),
      ((h c).1 12).trans (((dats m 0 c).arrAt_in 12 rfl _).trans ((A_eq m c 12).trans (V_main_arg11 m c))),
      ((h c).2 main_arg12 (Pipeline.mem_restRefs_of main_arg12 (by decide) (by decide))).trans (V_main_arg12 m c),
      ((h c).1 14).trans (((dats m 0 c).arrAt_in 14 rfl _).trans ((A_eq m c 14).trans (V_main_arg13 m c)))⟩) (run_main m ρ)

end Cert.Proof.KI

end
-- ==== Proof.MatmulAt.lean ====
import proofs.«143297_g16561393893844_cont_week2b_458_21_alg».proof.Proof.Gen.KernelIdeal
import Idealize.ShloMosaic.PureOps.Ideal.Laws
import Idealize.ShloMosaic.Lib.ValueIdx

/-!
The kernel's six matrix products read at an index, on the extended reals: a product into the zero accumulator is the
plain sum over the contracted coordinate. Five contract the left operand's columns with the right operand's rows; the
decoder's contracts columns with columns (a product with the transpose).
-/

set_option maxRecDepth 16384

noncomputable section

namespace Cert.Proof.KI

open Cert.KernelIdeal Cert.KernelIdeal.Gen
open Idealize.ShloMosaic Idealize.ShloMosaic.ValueIdx
open Idealize.ShloMosaic.TcCoe Idealize.SL.Sem

/-! ### A 10000 × 128 left operand against a 128 × 128 right operand -/

/-- The left operand's row coordinate is the output's row. -/
theorem lhs_dot_S10000x128_S128x128_S10000x128_1_0_0_1_n_n_0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contracted one. -/
theorem lhs_dot_S10000x128_S128x128_S10000x128_1_0_0_1_n_n_1 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c
/-- The right operand's row coordinate is the contracted one. -/
theorem rhs_dot_S10000x128_S128x128_S10000x128_1_0_0_1_n_n_0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c
/-- The right operand's column coordinate is the output's column. -/
theorem rhs_dot_S10000x128_S128x128_S10000x128_1_0_0_1_n_n_1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem mm_10000x128_128x128 (A : FVec Ideal S10000x128 .f32) (B : FVec Ideal S128x128 .f32) (p : Fin 10000) (q : Fin 128) :
    matmul dot_S10000x128_S128x128_S10000x128_1_0_0_1_n_n none A B (constant S10000x128 .f32 0x00000000#32) (ix2 p q)
      = ∑ k : Fin 128, A (ix2 p k) * B (ix2 k q) := by
  refine (Ideal.matmul_constant_zero_apply dot_S10000x128_S128x128_S10000x128_1_0_0_1_n_n none A B (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_dot_S10000x128_S128x128_S10000x128_1_0_0_1_n_n_0 _ _
    | ⟨1, _⟩ => exact (lhs_dot_S10000x128_S128x128_S10000x128_1_0_0_1_n_n_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_dot_S10000x128_S128x128_S10000x128_1_0_0_1_n_n_0 _ _).trans hk
    | ⟨1, _⟩ => exact rhs_dot_S10000x128_S128x128_S10000x128_1_0_0_1_n_n_1 _ _)
  rw [el, er]

/-! ### A 200 × 10000 left operand against a 10000 × 128 right operand -/

/-- The left operand's row coordinate is the output's row. -/
theorem lhs_dot_S200x10000_S10000x128_S200x128_1_0_0_1_n_n_0 (i : S200x128.Idx) (c : dot_S200x10000_S10000x128_S200x128_1_0_0_1_n_n.contr.Idx) :
    (dot_S200x10000_S10000x128_S200x128_1_0_0_1_n_n.lhsIdx i c 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The left operand's column coordinate is the contracted one. -/
theorem lhs_dot_S200x10000_S10000x128_S200x128_1_0_0_1_n_n_1 (i : S200x128.Idx) (c : dot_S200x10000_S10000x128_S200x128_1_0_0_1_n_n.contr.Idx) :
    (dot_S200x10000_S10000x128_S200x128_1_0_0_1_n_n.lhsIdx i c 1).val = (c ⟨0, by decide⟩).val :=
  dot_S200x10000_S10000x128_S200x128_1_0_0_1_n_n.lhsIdx_val_of_single rfl i c
/-- The right operand's row coordinate is the contracted one. -/
theorem rhs_dot_S200x10000_S10000x128_S200x128_1_0_0_1_n_n_0 (i : S200x128.Idx) (c : dot_S200x10000_S10000x128_S200x128_1_0_0_1_n_n.contr.Idx) :
    (dot_S200x10000_S10000x128_S200x128_1_0_0_1_n_n.rhsIdx i c 0).val = (c ⟨0, by decide⟩).val :=
  dot_S200x10000_S10000x128_S200x128_1_0_0_1_n_n.rhsIdx_val_of_single rfl i c
/-- The right operand's column coordinate is the output's column. -/
theorem rhs_dot_S200x10000_S10000x128_S200x128_1_0_0_1_n_n_1 (i : S200x128.Idx) (c : dot_S200x10000_S10000x128_S200x128_1_0_0_1_n_n.contr.Idx) :
    (dot_S200x10000_S10000x128_S200x128_1_0_0_1_n_n.rhsIdx i c 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

theorem mm_200x10000_10000x128 (A : FVec Ideal S200x10000 .bf16) (B : FVec Ideal S10000x128 .bf16) (p : Fin 200) (q : Fin 128) :
    matmul dot_S200x10000_S10000x128_S200x128_1_0_0_1_n_n none A B (constant S200x128 .f32 0x00000000#32) (ix2 p q)
      = ∑ k : Fin 10000, A (ix2 p k) * B (ix2 k q) := by
  refine (Ideal.matmul_constant_zero_apply dot_S200x10000_S10000x128_S200x128_1_0_0_1_n_n none A B (ix2 p q)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact lhs_dot_S200x10000_S10000x128_S200x128_1_0_0_1_n_n_0 _ _
    | ⟨1, _⟩ => exact (lhs_dot_S200x10000_S10000x128_S200x128_1_0_0_1_n_n_1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (rhs_dot_S200x10000_S10000x128_S200x128_1_0_0_1_n_n_0 _ _).trans hk
    | ⟨1, _⟩ => exact rhs_dot_S200x10000_S10000x128_S200x128_1_0_0_1_n_n_1 _ _)
  rw [el, er]

/-! ### A 200 × 128 left operand against a 128 × 64 right operand -/

/-- The left operand's row coordinate is the output's row. -/
theorem lhs_dot_S200x128_S128x64_S200x64_1_0_0_1_n_n_0 (i : S200x64.Idx) (c : dot_S200x128_S128x64_S200x64_1_0_0_1_n_n.contr.Idx) :
    (dot_S200x128_S128x64_S200x64_1_0_0_1_n_n.lhsIdx i c 0).val = (i 0).val := by
  unfold DotDims.lhsIdx
  rw [dif_neg (show ¬(0 : Fin S200x128.rank) ∈ dot_S200x128_S128x64_S200x64_1_0_0_1_n_n.lhsBatch by decide), dif_pos (show (0 : Fin S200x128.rank) ∈ dot_S200x128_S128x64_S200x64_1_0_0_1_n_n.lhsNonContracting by decide)]
  rfl
/-- The left operand's column coordinate is the contracted one. -/
theorem lhs_dot_S200x128_S128x64_S200x64_1_0_0_1_n_n_1 (i : S200x64.Idx) (c : dot_S200x128_S128x64_S200x64_1_0_0_1_n_n.contr.Idx) :
    (dot_S200x128_S128x64_S200x64_1_0_0_1_n_n.lhsIdx i c 1).val = (c ⟨0, by decide⟩).val :=
  dot_S200x128_S128x64_S200x64_1_0_0_1_n_n.lhsIdx_val_of_single rfl i c
/-- The right operand's row coordinate is the contracted one. -/
theorem rhs_dot_S200x128_S128x64_S200x64_1_0_0_1_n_n_0 (i : S200x64.Idx) (c : dot_S200x128_S128x64_S200x64_1_0_0_1_n_n.contr.Idx) :
    (dot_S200x128_S128x64_S200x64_1_0_0_1_n_n.rhsIdx i c 0).val = (c ⟨0, by decide⟩).val :=
  dot_S200x128_S128x64_S200x64_1_0_0_1_n_n.rhsIdx_val_of_single rfl i c
/-- The right operand's column coordinate is the output's column. -/
theorem rhs_dot_S200x128_S128x64_S200x64_1_0_0_1_n_n_1 (i : S200x64.Idx) (c : dot_S200x128_S128x64_S200x64_1_0_0_1_n_n.contr.Idx) :
    (dot_S200x128_S128x64_S200x64_1_0_0_1_n_n.rhsIdx i c 1).val = (i 1).val := by
  unfold DotDims.rhsIdx
  rw [dif_neg (show ¬(1 : Fin S128x64.rank) ∈ dot_S200x128_S128x64_S200x64_1_0_0_1_n_n.rhsBatch by decide), dif_pos (show (1 : Fin S128x64.rank) ∈ dot_S200x128_S128x64_S200x64_1_0_0_1_n_n.rhsNonContracting by decide)]
  rfl

theorem mm_200x128_128x64 (A : FVec Ideal S200x128 .f32) (B : FVec Ideal S128x64 .f32) (p : Fin 200) (q : Fin 64) :
    matmul dot_S200x128_S128x64_S200x64_1_0_0_1_n_n none A B (constant S200x64 .f32 0x00000000#32) (ix2 p q)
      = ∑ k : Fin 128, A (ix2 p k) * B (ix2 k q) := by
  refine (Ideal.matmul_constant_zero_apply dot_S200x128_S128x64_S200x64_1_0_0_1_n_n none A B (ix2 p q)).trans ?_
  rw [← Equiv.sum_comp (contrEquiv1 dot_S200x128_S128x64_S200x64_1_0_0_1_n_n 128 rfl rfl).symm]
  refine Finset.sum_congr rfl fun k _ => ?_
  have hk := contrEquiv1_symm_val dot_S200x128_S128x64_S200x64_1_0_0_1_n_n 128 rfl rfl k
  have el : dot_S200x128_S128x64_S200x64_1_0_0_1_n_n.lhsIdx (ix2 p q) ((contrEquiv1 dot_S200x128_S128x64_S200x64_1_0_0_1_n_n 128 rfl rfl).symm k) = ix2 p k := funext fun a => Fin.ext (by
    match a with
    | ⟨0, _⟩ => exact lhs_dot_S200x128_S128x64_S200x64_1_0_0_1_n_n_0 _ _
    | ⟨1, _⟩ => exact (lhs_dot_S200x128_S128x64_S200x64_1_0_0_1_n_n_1 _ _).trans hk)
  have er : dot_S200x128_S128x64_S200x64_1_0_0_1_n_n.rhsIdx (ix2 p q) ((contrEquiv1 dot_S200x128_S128x64_S200x64_1_0_0_1_n_n 128 rfl rfl).symm k) = ix2 k q := funext fun a => Fin.ext (by
    match a with
    | ⟨0, _⟩ => exact (rhs_dot_S200x128_S128x64_S200x64_1_0_0_1_n_n_0 _ _).trans hk
    | ⟨1, _⟩ => exact rhs_dot_S200x128_S128x64_S200x64_1_0_0_1_n_n_1 _ _)
  rw [el, er]

/-! ### A 200 × 64 left operand against a 64 × 128 right operand -/

/-- The left operand's row coordinate is the output's row. -/
theorem lhs_dot_S200x64_S64x128_S200x128_1_0_0_1_n_n_0 (i : S200x128.Idx) (c : dot_S200x64_S64x128_S200x128_1_0_0_1_n_n.contr.Idx) :
    (dot_S200x64_S64x128_S200x128_1_0_0_1_n_n.lhsIdx i c 0).val = (i 0).val := by
  unfold DotDims.lhsIdx
  rw [dif_neg (show ¬(0 : Fin S200x64.rank) ∈ dot_S200x64_S64x128_S200x128_1_0_0_1_n_n.lhsBatch by decide), dif_pos (show (0 : Fin S200x64.rank) ∈ dot_S200x64_S64x128_S200x128_1_0_0_1_n_n.lhsNonContracting by decide)]
  rfl
/-- The left operand's column coordinate is the contracted one. -/
theorem lhs_dot_S200x64_S64x128_S200x128_1_0_0_1_n_n_1 (i : S200x128.Idx) (c : dot_S200x64_S64x128_S200x128_1_0_0_1_n_n.contr.Idx) :
    (dot_S200x64_S64x128_S200x128_1_0_0_1_n_n.lhsIdx i c 1).val = (c ⟨0, by decide⟩).val :=
  dot_S200x64_S64x128_S200x128_1_0_0_1_n_n.lhsIdx_val_of_single rfl i c
/-- The right operand's row coordinate is the contracted one. -/
theorem rhs_dot_S200x64_S64x128_S200x128_1_0_0_1_n_n_0 (i : S200x128.Idx) (c : dot_S200x64_S64x128_S200x128_1_0_0_1_n_n.contr.Idx) :
    (dot_S200x64_S64x128_S200x128_1_0_0_1_n_n.rhsIdx i c 0).val = (c ⟨0, by decide⟩).val :=
  dot_S200x64_S64x128_S200x128_1_0_0_1_n_n.rhsIdx_val_of_single rfl i c
/-- The right operand's column coordinate is the output's column. -/
theorem rhs_dot_S200x64_S64x128_S200x128_1_0_0_1_n_n_1 (i : S200x128.Idx) (c : dot_S200x64_S64x128_S200x128_1_0_0_1_n_n.contr.Idx) :
    (dot_S200x64_S64x128_S200x128_1_0_0_1_n_n.rhsIdx i c 1).val = (i 1).val := by
  unfold DotDims.rhsIdx
  rw [dif_neg (show ¬(1 : Fin S64x128.rank) ∈ dot_S200x64_S64x128_S200x128_1_0_0_1_n_n.rhsBatch by decide), dif_pos (show (1 : Fin S64x128.rank) ∈ dot_S200x64_S64x128_S200x128_1_0_0_1_n_n.rhsNonContracting by decide)]
  rfl

theorem mm_200x64_64x128 (A : FVec Ideal S200x64 .f32) (B : FVec Ideal S64x128 .f32) (p : Fin 200) (q : Fin 128) :
    matmul dot_S200x64_S64x128_S200x128_1_0_0_1_n_n none A B (constant S200x128 .f32 0x00000000#32) (ix2 p q)
      = ∑ k : Fin 64, A (ix2 p k) * B (ix2 k q) := by
  refine (Ideal.matmul_constant_zero_apply dot_S200x64_S64x128_S200x128_1_0_0_1_n_n none A B (ix2 p q)).trans ?_
  rw [← Equiv.sum_comp (contrEquiv1 dot_S200x64_S64x128_S200x128_1_0_0_1_n_n 64 rfl rfl).symm]
  refine Finset.sum_congr rfl fun k _ => ?_
  have hk := contrEquiv1_symm_val dot_S200x64_S64x128_S200x128_1_0_0_1_n_n 64 rfl rfl k
  have el : dot_S200x64_S64x128_S200x128_1_0_0_1_n_n.lhsIdx (ix2 p q) ((contrEquiv1 dot_S200x64_S64x128_S200x128_1_0_0_1_n_n 64 rfl rfl).symm k) = ix2 p k := funext fun a => Fin.ext (by
    match a with
    | ⟨0, _⟩ => exact lhs_dot_S200x64_S64x128_S200x128_1_0_0_1_n_n_0 _ _
    | ⟨1, _⟩ => exact (lhs_dot_S200x64_S64x128_S200x128_1_0_0_1_n_n_1 _ _).trans hk)
  have er : dot_S200x64_S64x128_S200x128_1_0_0_1_n_n.rhsIdx (ix2 p q) ((contrEquiv1 dot_S200x64_S64x128_S200x128_1_0_0_1_n_n 64 rfl rfl).symm k) = ix2 k q := funext fun a => Fin.ext (by
    match a with
    | ⟨0, _⟩ => exact (rhs_dot_S200x64_S64x128_S200x128_1_0_0_1_n_n_0 _ _).trans hk
    | ⟨1, _⟩ => exact rhs_dot_S200x64_S64x128_S200x128_1_0_0_1_n_n_1 _ _)
  rw [el, er]

/-! ### A 200 × 64 left operand against a 64 × 64 right operand -/

/-- The left operand's row coordinate is the output's row. -/
theorem lhs_dot_S200x64_S64x64_S200x64_1_0_0_1_n_n_0 (i : S200x64.Idx) (c : dot_S200x64_S64x64_S200x64_1_0_0_1_n_n.contr.Idx) :
    (dot_S200x64_S64x64_S200x64_1_0_0_1_n_n.lhsIdx i c 0).val = (i 0).val := by
  unfold DotDims.lhsIdx
  rw [dif_neg (show ¬(0 : Fin S200x64.rank) ∈ dot_S200x64_S64x64_S200x64_1_0_0_1_n_n.lhsBatch by decide), dif_pos (show (0 : Fin S200x64.rank) ∈ dot_S200x64_S64x64_S200x64_1_0_0_1_n_n.lhsNonContracting by decide)]
  rfl
/-- The left operand's column coordinate is the contracted one. -/
theorem lhs_dot_S200x64_S64x64_S200x64_1_0_0_1_n_n_1 (i : S200x64.Idx) (c : dot_S200x64_S64x64_S200x64_1_0_0_1_n_n.contr.Idx) :
    (dot_S200x64_S64x64_S200x64_1_0_0_1_n_n.lhsIdx i c 1).val = (c ⟨0, by decide⟩).val :=
  dot_S200x64_S64x64_S200x64_1_0_0_1_n_n.lhsIdx_val_of_single rfl i c
/-- The right operand's row coordinate is the contracted one. -/
theorem rhs_dot_S200x64_S64x64_S200x64_1_0_0_1_n_n_0 (i : S200x64.Idx) (c : dot_S200x64_S64x64_S200x64_1_0_0_1_n_n.contr.Idx) :
    (dot_S200x64_S64x64_S200x64_1_0_0_1_n_n.rhsIdx i c 0).val = (c ⟨0, by decide⟩).val :=
  dot_S200x64_S64x64_S200x64_1_0_0_1_n_n.rhsIdx_val_of_single rfl i c
/-- The right operand's column coordinate is the output's column. -/
theorem rhs_dot_S200x64_S64x64_S200x64_1_0_0_1_n_n_1 (i : S200x64.Idx) (c : dot_S200x64_S64x64_S200x64_1_0_0_1_n_n.contr.Idx) :
    (dot_S200x64_S64x64_S200x64_1_0_0_1_n_n.rhsIdx i c 1).val = (i 1).val := by
  unfold DotDims.rhsIdx
  rw [dif_neg (show ¬(1 : Fin S64x64.rank) ∈ dot_S200x64_S64x64_S200x64_1_0_0_1_n_n.rhsBatch by decide), dif_pos (show (1 : Fin S64x64.rank) ∈ dot_S200x64_S64x64_S200x64_1_0_0_1_n_n.rhsNonContracting by decide)]
  rfl

theorem mm_200x64_64x64 (A : FVec Ideal S200x64 .f32) (B : FVec Ideal S64x64 .f32) (p : Fin 200) (q : Fin 64) :
    matmul dot_S200x64_S64x64_S200x64_1_0_0_1_n_n none A B (constant S200x64 .f32 0x00000000#32) (ix2 p q)
      = ∑ k : Fin 64, A (ix2 p k) * B (ix2 k q) := by
  refine (Ideal.matmul_constant_zero_apply dot_S200x64_S64x64_S200x64_1_0_0_1_n_n none A B (ix2 p q)).trans ?_
  rw [← Equiv.sum_comp (contrEquiv1 dot_S200x64_S64x64_S200x64_1_0_0_1_n_n 64 rfl rfl).symm]
  refine Finset.sum_congr rfl fun k _ => ?_
  have hk := contrEquiv1_symm_val dot_S200x64_S64x64_S200x64_1_0_0_1_n_n 64 rfl rfl k
  have el : dot_S200x64_S64x64_S200x64_1_0_0_1_n_n.lhsIdx (ix2 p q) ((contrEquiv1 dot_S200x64_S64x64_S200x64_1_0_0_1_n_n 64 rfl rfl).symm k) = ix2 p k := funext fun a => Fin.ext (by
    match a with
    | ⟨0, _⟩ => exact lhs_dot_S200x64_S64x64_S200x64_1_0_0_1_n_n_0 _ _
    | ⟨1, _⟩ => exact (lhs_dot_S200x64_S64x64_S200x64_1_0_0_1_n_n_1 _ _).trans hk)
  have er : dot_S200x64_S64x64_S200x64_1_0_0_1_n_n.rhsIdx (ix2 p q) ((contrEquiv1 dot_S200x64_S64x64_S200x64_1_0_0_1_n_n 64 rfl rfl).symm k) = ix2 k q := funext fun a => Fin.ext (by
    match a with
    | ⟨0, _⟩ => exact (rhs_dot_S200x64_S64x64_S200x64_1_0_0_1_n_n_0 _ _).trans hk
    | ⟨1, _⟩ => exact rhs_dot_S200x64_S64x64_S200x64_1_0_0_1_n_n_1 _ _)
  rw [el, er]

/-! ### A 200 × 64 left operand against the transpose of a 10000 × 64 right operand: columns contract with columns -/

/-- The left operand's row coordinate is the output's row. -/
theorem lhs_dot_S200x64_S10000x64_S200x10000_1_1_0_0_n_n_0 (i : S200x10000.Idx) (c : dot_S200x64_S10000x64_S200x10000_1_1_0_0_n_n.contr.Idx) :
    (dot_S200x64_S10000x64_S200x10000_1_1_0_0_n_n.lhsIdx i c 0).val = (i 0).val := by
  unfold DotDims.lhsIdx
  rw [dif_neg (show ¬(0 : Fin S200x64.rank) ∈ dot_S200x64_S10000x64_S200x10000_1_1_0_0_n_n.lhsBatch by decide), dif_pos (show (0 : Fin S200x64.rank) ∈ dot_S200x64_S10000x64_S200x10000_1_1_0_0_n_n.lhsNonContracting by decide)]
  rfl
/-- The left operand's column coordinate is the contracted one. -/
theorem lhs_dot_S200x64_S10000x64_S200x10000_1_1_0_0_n_n_1 (i : S200x10000.Idx) (c : dot_S200x64_S10000x64_S200x10000_1_1_0_0_n_n.contr.Idx) :
    (dot_S200x64_S10000x64_S200x10000_1_1_0_0_n_n.lhsIdx i c 1).val = (c ⟨0, by decide⟩).val :=
  dot_S200x64_S10000x64_S200x10000_1_1_0_0_n_n.lhsIdx_val_of_single rfl i c
/-- The right operand's row coordinate is the output's column. -/
theorem rhs_dot_S200x64_S10000x64_S200x10000_1_1_0_0_n_n_0 (i : S200x10000.Idx) (c : dot_S200x64_S10000x64_S200x10000_1_1_0_0_n_n.contr.Idx) :
    (dot_S200x64_S10000x64_S200x10000_1_1_0_0_n_n.rhsIdx i c 0).val = (i 1).val := by
  unfold DotDims.rhsIdx
  rw [dif_neg (show ¬(0 : Fin S10000x64.rank) ∈ dot_S200x64_S10000x64_S200x10000_1_1_0_0_n_n.rhsBatch by decide), dif_pos (show (0 : Fin S10000x64.rank) ∈ dot_S200x64_S10000x64_S200x10000_1_1_0_0_n_n.rhsNonContracting by decide)]
  rfl
/-- The right operand's column coordinate is the contracted one. -/
theorem rhs_dot_S200x64_S10000x64_S200x10000_1_1_0_0_n_n_1 (i : S200x10000.Idx) (c : dot_S200x64_S10000x64_S200x10000_1_1_0_0_n_n.contr.Idx) :
    (dot_S200x64_S10000x64_S200x10000_1_1_0_0_n_n.rhsIdx i c 1).val = (c ⟨0, by decide⟩).val :=
  dot_S200x64_S10000x64_S200x10000_1_1_0_0_n_n.rhsIdx_val_of_single rfl i c

theorem mm_200x64_10000x64T (A : FVec Ideal S200x64 .bf16) (B : FVec Ideal S10000x64 .bf16) (p : Fin 200) (q : Fin 10000) :
    matmul dot_S200x64_S10000x64_S200x10000_1_1_0_0_n_n none A B (constant S200x10000 .f32 0x00000000#32) (ix2 p q)
      = ∑ k : Fin 64, A (ix2 p k) * B (ix2 q k) := by
  refine (Ideal.matmul_constant_zero_apply dot_S200x64_S10000x64_S200x10000_1_1_0_0_n_n none A B (ix2 p q)).trans ?_
  rw [← Equiv.sum_comp (contrEquiv1 dot_S200x64_S10000x64_S200x10000_1_1_0_0_n_n 64 rfl rfl).symm]
  refine Finset.sum_congr rfl fun k _ => ?_
  have hk := contrEquiv1_symm_val dot_S200x64_S10000x64_S200x10000_1_1_0_0_n_n 64 rfl rfl k
  have el : dot_S200x64_S10000x64_S200x10000_1_1_0_0_n_n.lhsIdx (ix2 p q) ((contrEquiv1 dot_S200x64_S10000x64_S200x10000_1_1_0_0_n_n 64 rfl rfl).symm k) = ix2 p k := funext fun a => Fin.ext (by
    match a with
    | ⟨0, _⟩ => exact lhs_dot_S200x64_S10000x64_S200x10000_1_1_0_0_n_n_0 _ _
    | ⟨1, _⟩ => exact (lhs_dot_S200x64_S10000x64_S200x10000_1_1_0_0_n_n_1 _ _).trans hk)
  have er : dot_S200x64_S10000x64_S200x10000_1_1_0_0_n_n.rhsIdx (ix2 p q) ((contrEquiv1 dot_S200x64_S10000x64_S200x10000_1_1_0_0_n_n 64 rfl rfl).symm k) = ix2 q k := funext fun a => Fin.ext (by
    match a with
    | ⟨0, _⟩ => exact rhs_dot_S200x64_S10000x64_S200x10000_1_1_0_0_n_n_0 _ _
    | ⟨1, _⟩ => exact (rhs_dot_S200x64_S10000x64_S200x10000_1_1_0_0_n_n_1 _ _).trans hk)
  rw [el, er]

end Cert.Proof.KI

end
-- ==== Proof.ValDefs.lean ====
import proofs.«143297_g16561393893844_cont_week2b_458_21_alg».proof.Proof.Data
import proofs.«143297_g16561393893844_cont_week2b_458_21_alg».proof.Proof.Gen.ReferenceIdeal.Read

/-!
The argument arrays on a core, and the reference's stages read at them: the two feature transforms, the two encoders,
the MLP's result h, the decoder's left factor h Wd and the output h Wd hᵀ. The kernel's scratch contents and its output
are compared with these stage by stage.
-/

set_option maxRecDepth 16384

noncomputable section

namespace Cert.Proof.KI

open Cert.KernelIdeal Cert.KernelIdeal.Gen
open Idealize.ShloMosaic Idealize.ShloMosaic.ValueIdx
open Idealize.ShloMosaic.TcCoe Idealize.SL.Sem
open Cert.ReferenceIdeal.Read

variable (m : (ℓ : Loc nD τ sig) → Buf (Elt Ideal) ℓ) (c : Dev nD)

/-- The fourteen argument arrays on core c. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)
abbrev a12 := m ((c.tc : Thread nD τ).loc main_arg12)
abbrev a13 := m ((c.tc : Thread nD τ).loc main_arg13)

/-- The reference's stages at these arguments: x W_pos, x W_neg, the two encoders, h, h Wd, the output. -/
abbrev rXWP : Vec Ideal S10000x128 .f32 := val_main_v0 (F := Ideal) (a0 m c) (a3 m c)
abbrev rXWN : Vec Ideal S10000x128 .f32 := val_main_v6 (F := Ideal) (a0 m c) (a5 m c)
abbrev rZP : Vec Ideal S10000x128 .f32 := val_main_v5 (F := Ideal) (a0 m c) (a1 m c) (a3 m c) (a4 m c)
abbrev rZN : Vec Ideal S10000x128 .f32 := val_main_v11 (F := Ideal) (a0 m c) (a2 m c) (a5 m c) (a6 m c)
abbrev rH : Vec Ideal S10000x64 .f32 := val_main_v26 (F := Ideal) (a0 m c) (a1 m c) (a2 m c) (a3 m c) (a4 m c) (a5 m c) (a6 m c) (a7 m c) (a8 m c) (a9 m c) (a10 m c) (a11 m c) (a12 m c)
abbrev rT : Vec Ideal S10000x64 .f32 := val_main_v27 (F := Ideal) (a0 m c) (a1 m c) (a2 m c) (a3 m c) (a4 m c) (a5 m c) (a6 m c) (a7 m c) (a8 m c) (a9 m c) (a10 m c) (a11 m c) (a12 m c) (a13 m c)
abbrev rY : Vec Ideal S10000x10000 .f32 := val_main_v29 (F := Ideal) (a0 m c) (a1 m c) (a2 m c) (a3 m c) (a4 m c) (a5 m c) (a6 m c) (a7 m c) (a8 m c) (a9 m c) (a10 m c) (a11 m c) (a12 m c) (a13 m c)

end Cert.Proof.KI

end
-- ==== Proof.Blocks.lean ====
import proofs.«143297_g16561393893844_cont_week2b_458_21_alg».proof.Proof.ValDefs
import Idealize.ShloMosaic.Lib.ValueLayout

/-!
Each window's block, read at an index, is an entry of an argument array. The two adjacency windows hold row block n at
point n < 50; the other thirteen windows hold a whole array at every point: x (its conversion is the identity on the
extended reals), the weights, the biases as one row, and the two halves of the first MLP weight.
-/

set_option maxRecDepth 16384

noncomputable section

namespace Cert.Proof.KI

open Cert.KernelIdeal Cert.KernelIdeal.Gen
open Idealize.ShloMosaic Idealize.ShloMosaic.ValueIdx
open Idealize.ShloMosaic.TcCoe Idealize.SL.Sem

variable (m : (ℓ : Loc nD τ sig) → Buf (Elt Ideal) ℓ) (c : Dev nD)

/-- The positive adjacency window's block index: the point's number on the rows while the encoder runs, 0 on the columns. -/
theorem idx0_rows : ∀ t : Fin cfg0.N, (t.val < 50 → win0_0.index t (0 : Fin 2) = t.val) ∧ win0_0.index t (1 : Fin 2) = 0 :=
  (by decide +kernel : ∀ t : Fin grid0.N, _)

/-- Row p of the block at point n < 50 is row 200 n + p of the array. -/
theorem iblk0_apply (n : ℕ) (hn : n < 50) (p : Fin 200) (q : Fin 10000) :
    (iblk m c 0 (pt n) : Vec Ideal S200x10000 .f32) (ix2 p q) = a1 m c (ix2 (⟨200 * n + p.val, by omega⟩ : Fin 10000) q) := by
  have hpt : (pt n).val = n := by unfold pt; rw [dif_pos (by show n < 101; omega)]
  obtain ⟨e0, e1⟩ := idx0_rows (pt n)
  refine Eq.trans ?_ (congrFun (V_main_arg1 m c) _)
  show V m c main_arg1 (((cfg0.win 0).blk (pt n)).view.emb (ix2 p q)) = V m c main_arg1 _
  congr 1
  funext a; apply Fin.ext
  match a with
  | ⟨0, _⟩ => show win0_0.index (pt n) (0 : Fin 2) * 200 + 1 * p.val = 200 * n + p.val; rw [e0 (by omega), hpt]; omega
  | ⟨1, _⟩ => show win0_0.index (pt n) (1 : Fin 2) * 10000 + 1 * q.val = q.val; rw [e1]; omega

/-- The negative adjacency window's block index: the point's number on the rows while the encoder runs, 0 on the columns. -/
theorem idx1_rows : ∀ t : Fin cfg0.N, (t.val < 50 → win0_1.index t (0 : Fin 2) = t.val) ∧ win0_1.index t (1 : Fin 2) = 0 :=
  (by decide +kernel : ∀ t : Fin grid0.N, _)

/-- Row p of the block at point n < 50 is row 200 n + p of the array. -/
theorem iblk1_apply (n : ℕ) (hn : n < 50) (p : Fin 200) (q : Fin 10000) :
    (iblk m c 1 (pt n) : Vec Ideal S200x10000 .f32) (ix2 p q) = a2 m c (ix2 (⟨200 * n + p.val, by omega⟩ : Fin 10000) q) := by
  have hpt : (pt n).val = n := by unfold pt; rw [dif_pos (by show n < 101; omega)]
  obtain ⟨e0, e1⟩ := idx1_rows (pt n)
  refine Eq.trans ?_ (congrFun (V_main_arg2 m c) _)
  show V m c main_arg2 (((cfg0.win 1).blk (pt n)).view.emb (ix2 p q)) = V m c main_arg2 _
  congr 1
  funext a; apply Fin.ext
  match a with
  | ⟨0, _⟩ => show win0_1.index (pt n) (0 : Fin 2) * 200 + 1 * p.val = 200 * n + p.val; rw [e0 (by omega), hpt]; omega
  | ⟨1, _⟩ => show win0_1.index (pt n) (1 : Fin 2) * 10000 + 1 * q.val = q.val; rw [e1]; omega

/-- Window 2's block index is 0 on both axes at every point, -/
theorem idx2_zero : ∀ t : Fin cfg0.N, win0_2.index t (0 : Fin 2) = 0 ∧ win0_2.index t (1 : Fin 2) = 0 :=
  (by decide +kernel : ∀ t : Fin grid0.N, _)

/-- so its block is the whole of the array it stages. -/
theorem iblk2_whole (t : Fin cfg0.N) (y : S10000x128.Idx) : (iblk m c 2 t : Vec Ideal S10000x128 _) y = V m c main_v0 y := by
  obtain ⟨e0, e1⟩ := idx2_zero t
  show V m c main_v0 (((cfg0.win 2).blk t).view.emb y) = V m c main_v0 y
  congr 1
  funext a; apply Fin.ext
  match a with
  | ⟨0, _⟩ => show win0_2.index t (0 : Fin 2) * 10000 + 1 * (y 0).val = (y 0).val; rw [e0]; omega
  | ⟨1, _⟩ => show win0_2.index t (1 : Fin 2) * 128 + 1 * (y 1).val = (y 1).val; rw [e1]; omega

/-- The array window 2 stages is x converted to the narrower format: the identity on the extended reals. -/
theorem V_main_v0_eq : (V m c main_v0 : S10000x128.Idx → EReal) = truncf (F := Ideal) .bf16 (a0 m c) bitsLt_bf16_f32 := by
  dsimp only [Gen.V, Gen.hostOps0]; after_results

theorem iblk2_apply (t : Fin cfg0.N) (y : S10000x128.Idx) : (iblk m c 2 t : Vec Ideal S10000x128 .bf16) y = a0 m c y :=
  (iblk2_whole m c t y).trans (congrFun (V_main_v0_eq m c) y)

/-- Window 3's block index is 0 on both axes at every point, -/
theorem idx3_zero : ∀ t : Fin cfg0.N, win0_3.index t (0 : Fin 2) = 0 ∧ win0_3.index t (1 : Fin 2) = 0 :=
  (by decide +kernel : ∀ t : Fin grid0.N, _)

/-- so its block is the whole of the array it stages. -/
theorem iblk3_whole (t : Fin cfg0.N) (y : S128x128.Idx) : (iblk m c 3 t : Vec Ideal S128x128 _) y = V m c main_arg3 y := by
  obtain ⟨e0, e1⟩ := idx3_zero t
  show V m c main_arg3 (((cfg0.win 3).blk t).view.emb y) = V m c main_arg3 y
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem iblk3_apply (t : Fin cfg0.N) (y : S128x128.Idx) : (iblk m c 3 t : Vec Ideal S128x128 .f32) y = a3 m c y :=
  (iblk3_whole m c t y).trans (congrFun (V_main_arg3 m c) y)

/-- Window 4's block index is 0 on both axes at every point, -/
theorem idx4_zero : ∀ t : Fin cfg0.N, win0_4.index t (0 : Fin 2) = 0 ∧ win0_4.index t (1 : Fin 2) = 0 :=
  (by decide +kernel : ∀ t : Fin grid0.N, _)

/-- so its block is the whole of the array it stages. -/
theorem iblk4_whole (t : Fin cfg0.N) (y : S128x128.Idx) : (iblk m c 4 t : Vec Ideal S128x128 _) y = V m c main_arg5 y := by
  obtain ⟨e0, e1⟩ := idx4_zero t
  show V m c main_arg5 (((cfg0.win 4).blk t).view.emb y) = V m c main_arg5 y
  congr 1
  funext a; apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem iblk4_apply (t : Fin cfg0.N) (y : S128x128.Idx) : (iblk m c 4 t : Vec Ideal S128x128 .f32) y = a5 m c y :=
  (iblk4_whole m c t y).trans (congrFun (V_main_arg5 m c) y)

/-- Window 5's block index is 0 on both axes at every point, -/
theorem idx5_zero : ∀ t : Fin cfg0.N, win0_5.index t (0 : Fin 2) = 0 ∧ win0_5.index t (1 : Fin 2) = 0 :=
  (by decide +kernel : ∀ t : Fin grid0.N, _)

/-- so its block is the whole of the array it stages. -/
theorem iblk5_whole (t : Fin cfg0.N) (y : S1x128.Idx) : (iblk m c 5 t : Vec Ideal S1x128 _) y = V m c main_v1 y := by
  obtain ⟨e0, e1⟩ := idx5_zero t
  show V m c main_v1 (((cfg0.win 5).blk t).view.emb y) = V m c main_v1 y
  congr 1
  funext a; apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The array window 5 stages is a bias vector reshaped to one row. -/
theorem V_main_v1_eq : (V m c main_v1 : S1x128.Idx → EReal) = shapeCast S1x128 (a4 m c) shapeCasts_S128_S1x128 := by
  dsimp only [Gen.V, Gen.hostOps0]; after_results; rfl

theorem iblk5_apply (t : Fin cfg0.N) (p : Fin 1) (q : Fin 128) : (iblk m c 5 t : Vec Ideal S1x128 .f32) (ix2 p q) = a4 m c (ix1 q) := by
  refine (iblk5_whole m c t (ix2 p q)).trans ?_
  refine (congrFun (V_main_v1_eq m c) (ix2 p q)).trans ?_
  exact shapeCast_a_1a_apply (a4 m c) shapeCasts_S128_S1x128 p q

/-- Window 6's block index is 0 on both axes at every point, -/
theorem idx6_zero : ∀ t : Fin cfg0.N, win0_6.index t (0 : Fin 2) = 0 ∧ win0_6.index t (1 : Fin 2) = 0 :=
  (by decide +kernel : ∀ t : Fin grid0.N, _)

/-- so its block is the whole of the array it stages. -/
theorem iblk6_whole (t : Fin cfg0.N) (y : S1x128.Idx) : (iblk m c 6 t : Vec Ideal S1x128 _) y = V m c main_v2 y := by
  obtain ⟨e0, e1⟩ := idx6_zero t
  show V m c main_v2 (((cfg0.win 6).blk t).view.emb y) = V m c main_v2 y
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- The array window 6 stages is a bias vector reshaped to one row. -/
theorem V_main_v2_eq : (V m c main_v2 : S1x128.Idx → EReal) = shapeCast S1x128 (a6 m c) shapeCasts_S128_S1x128 := by
  dsimp only [Gen.V, Gen.hostOps0]; after_results; rfl

theorem iblk6_apply (t : Fin cfg0.N) (p : Fin 1) (q : Fin 128) : (iblk m c 6 t : Vec Ideal S1x128 .f32) (ix2 p q) = a6 m c (ix1 q) := by
  refine (iblk6_whole m c t (ix2 p q)).trans ?_
  refine (congrFun (V_main_v2_eq m c) (ix2 p q)).trans ?_
  exact shapeCast_a_1a_apply (a6 m c) shapeCasts_S128_S1x128 p q

/-- Window 7's block index is 0 on both axes at every point, -/
theorem idx7_zero : ∀ t : Fin cfg0.N, win0_7.index t (0 : Fin 2) = 0 ∧ win0_7.index t (1 : Fin 2) = 0 :=
  (by decide +kernel : ∀ t : Fin grid0.N, _)

/-- so its block is the whole of the array it stages. -/
theorem iblk7_whole (t : Fin cfg0.N) (y : S128x64.Idx) : (iblk m c 7 t : Vec Ideal S128x64 _) y = V m c main_v3 y := by
  obtain ⟨e0, e1⟩ := idx7_zero t
  show V m c main_v3 (((cfg0.win 7).blk t).view.emb y) = V m c main_v3 y
  congr 1
  funext a; apply Fin.ext
  match a with
  | ⟨0, _⟩ => show win0_7.index t (0 : Fin 2) * 128 + 1 * (y 0).val = (y 0).val; rw [e0]; omega
  | ⟨1, _⟩ => show win0_7.index t (1 : Fin 2) * 64 + 1 * (y 1).val = (y 1).val; rw [e1]; omega

/-- The array window 7 stages is rows 0 .. 127 of the first MLP weight. -/
theorem V_main_v3_eq : (V m c main_v3 : S128x64.Idx → EReal) = extractStridedSlice S128x64 ![0, 0] (a7 m c) slices_S256x64_S128x64_0_0 := by
  dsimp only [Gen.V, Gen.hostOps0]; after_results

theorem iblk7_apply (t : Fin cfg0.N) (p : Fin 128) (q : Fin 64) :
    (iblk m c 7 t : Vec Ideal S128x64 .f32) (ix2 p q) = a7 m c (ix2 (⟨p.val, by omega⟩ : Fin 256) q) := by
  refine (iblk7_whole m c t (ix2 p q)).trans ?_
  refine (congrFun (V_main_v3_eq m c) (ix2 p q)).trans ?_
  exact slice2_axis0_apply 0 (a7 m c) slices_S256x64_S128x64_0_0 p q _ (by show p.val = 0 + p.val; omega)

/-- Window 8's block index is 0 on both axes at every point, -/
theorem idx8_zero : ∀ t : Fin cfg0.N, win0_8.index t (0 : Fin 2) = 0 ∧ win0_8.index t (1 : Fin 2) = 0 :=
  (by decide +kernel : ∀ t : Fin grid0.N, _)

/-- so its block is the whole of the array it stages. -/
theorem iblk8_whole (t : Fin cfg0.N) (y : S128x64.Idx) : (iblk m c 8 t : Vec Ideal S128x64 _) y = V m c main_v4 y := by
  obtain ⟨e0, e1⟩ := idx8_zero t
  show V m c main_v4 (((cfg0.win 8).blk t).view.emb y) = V m c main_v4 y
  congr 1
  funext a; apply Fin.ext
  match a with
  | ⟨0, _⟩ => show win0_8.index t (0 : Fin 2) * 128 + 1 * (y 0).val = (y 0).val; rw [e0]; omega
  | ⟨1, _⟩ => show win0_8.index t (1 : Fin 2) * 64 + 1 * (y 1).val = (y 1).val; rw [e1]; omega

/-- The array window 8 stages is rows 128 .. 255 of the first MLP weight. -/
theorem V_main_v4_eq : (V m c main_v4 : S128x64.Idx → EReal) = extractStridedSlice S128x64 ![128, 0] (a7 m c) slices_S256x64_S128x64_128_0 := by
  dsimp only [Gen.V, Gen.hostOps0]; after_results

theorem iblk8_apply (t : Fin cfg0.N) (p : Fin 128) (q : Fin 64) :
    (iblk m c 8 t : Vec Ideal S128x64 .f32) (ix2 p q) = a7 m c (ix2 (⟨128 + p.val, by omega⟩ : Fin 256) q) := by
  refine (iblk8_whole m c t (ix2 p q)).trans ?_
  refine (congrFun (V_main_v4_eq m c) (ix2 p q)).trans ?_
  exact slice2_axis0_apply 128 (a7 m c) slices_S256x64_S128x64_128_0 p q _ (by rfl)

/-- Window 9's block index is 0 on both axes at every point, -/
theorem idx9_zero : ∀ t : Fin cfg0.N, win0_9.index t (0 : Fin 2) = 0 ∧ win0_9.index t (1 : Fin 2) = 0 :=
  (by decide +kernel : ∀ t : Fin grid0.N, _)

/-- so its block is the whole of the array it stages. -/
theorem iblk9_whole (t : Fin cfg0.N) (y : S1x64.Idx) : (iblk m c 9 t : Vec Ideal S1x64 _) y = V m c main_v5 y := by
  obtain ⟨e0, e1⟩ := idx9_zero t
  show V m c main_v5 (((cfg0.win 9).blk t).view.emb y) = V m c main_v5 y
  congr 1
  funext a; apply Fin.ext
  match a with
  | ⟨0, _⟩ => show win0_9.index t (0 : Fin 2) * 1 + 1 * (y 0).val = (y 0).val; rw [e0]; omega
  | ⟨1, _⟩ => show win0_9.index t (1 : Fin 2) * 64 + 1 * (y 1).val = (y 1).val; rw [e1]; omega

/-- The array window 9 stages is a bias vector reshaped to one row. -/
theorem V_main_v5_eq : (V m c main_v5 : S1x64.Idx → EReal) = shapeCast S1x64 (a8 m c) shapeCasts_S64_S1x64 := by
  dsimp only [Gen.V, Gen.hostOps0]; after_results; rfl

theorem iblk9_apply (t : Fin cfg0.N) (p : Fin 1) (q : Fin 64) : (iblk m c 9 t : Vec Ideal S1x64 .f32) (ix2 p q) = a8 m c (ix1 q) := by
  refine (iblk9_whole m c t (ix2 p q)).trans ?_
  refine (congrFun (V_main_v5_eq m c) (ix2 p q)).trans ?_
  exact shapeCast_a_1a_apply (a8 m c) shapeCasts_S64_S1x64 p q

/-- Window 10's block index is 0 on both axes at every point, -/
theorem idx10_zero : ∀ t : Fin cfg0.N, win0_10.index t (0 : Fin 2) = 0 ∧ win0_10.index t (1 : Fin 2) = 0 :=
  (by decide +kernel : ∀ t : Fin grid0.N, _)

/-- so its block is the whole of the array it stages. -/
theorem iblk10_whole (t : Fin cfg0.N) (y : S64x128.Idx) : (iblk m c 10 t : Vec Ideal S64x128 _) y = V m c main_arg9 y := by
  obtain ⟨e0, e1⟩ := idx10_zero t
  show V m c main_arg9 (((cfg0.win 10).blk t).view.emb y) = V m c main_arg9 y
  congr 1
  funext a; apply Fin.ext
  match a with
  | ⟨0, _⟩ => show win0_10.index t (0 : Fin 2) * 64 + 1 * (y 0).val = (y 0).val; rw [e0]; omega
  | ⟨1, _⟩ => show win0_10.index t (1 : Fin 2) * 128 + 1 * (y 1).val = (y 1).val; rw [e1]; omega

theorem iblk10_apply (t : Fin cfg0.N) (y : S64x128.Idx) : (iblk m c 10 t : Vec Ideal S64x128 .f32) y = a9 m c y :=
  (iblk10_whole m c t y).trans (congrFun (V_main_arg9 m c) y)

/-- Window 11's block index is 0 on both axes at every point, -/
theorem idx11_zero : ∀ t : Fin cfg0.N, win0_11.index t (0 : Fin 2) = 0 ∧ win0_11.index t (1 : Fin 2) = 0 :=
  (by decide +kernel : ∀ t : Fin grid0.N, _)

/-- so its block is the whole of the array it stages. -/
theorem iblk11_whole (t : Fin cfg0.N) (y : S1x128.Idx) : (iblk m c 11 t : Vec Ideal S1x128 _) y = V m c main_v6 y := by
  obtain ⟨e0, e1⟩ := idx11_zero t
  show V m c main_v6 (((cfg0.win 11).blk t).view.emb y) = V m c main_v6 y
  congr 1
  funext a; apply Fin.ext
  match a with
  | ⟨0, _⟩ => show win0_11.index t (0 : Fin 2) * 1 + 1 * (y 0).val = (y 0).val; rw [e0]; omega
  | ⟨1, _⟩ => show win0_11.index t (1 : Fin 2) * 128 + 1 * (y 1).val = (y 1).val; rw [e1]; omega

/-- The array window 11 stages is a bias vector reshaped to one row. -/
theorem V_main_v6_eq : (V m c main_v6 : S1x128.Idx → EReal) = shapeCast S1x128 (a10 m c) shapeCasts_S128_S1x128 := by
  dsimp only [Gen.V, Gen.hostOps0]; after_results; rfl

theorem iblk11_apply (t : Fin cfg0.N) (p : Fin 1) (q : Fin 128) : (iblk m c 11 t : Vec Ideal S1x128 .f32) (ix2 p q) = a10 m c (ix1 q) := by
  refine (iblk11_whole m c t (ix2 p q)).trans ?_
  refine (congrFun (V_main_v6_eq m c) (ix2 p q)).trans ?_
  exact shapeCast_a_1a_apply (a10 m c) shapeCasts_S128_S1x128 p q

/-- Window 12's block index is 0 on both axes at every point, -/
theorem idx12_zero : ∀ t : Fin cfg0.N, win0_12.index t (0 : Fin 2) = 0 ∧ win0_12.index t (1 : Fin 2) = 0 :=
  (by decide +kernel : ∀ t : Fin grid0.N, _)

/-- so its block is the whole of the array it stages. -/
theorem iblk12_whole (t : Fin cfg0.N) (y : S128x64.Idx) : (iblk m c 12 t : Vec Ideal S128x64 _) y = V m c main_arg11 y := by
  obtain ⟨e0, e1⟩ := idx12_zero t
  show V m c main_arg11 (((cfg0.win 12).blk t).view.emb y) = V m c main_arg11 y
  congr 1
  funext a; apply Fin.ext
  match a with
  | ⟨0, _⟩ => show win0_12.index t (0 : Fin 2) * 128 + 1 * (y 0).val = (y 0).val; rw [e0]; omega
  | ⟨1, _⟩ => show win0_12.index t (1 : Fin 2) * 64 + 1 * (y 1).val = (y 1).val; rw [e1]; omega

theorem iblk12_apply (t : Fin cfg0.N) (y : S128x64.Idx) : (iblk m c 12 t : Vec Ideal S128x64 .f32) y = a11 m c y :=
  (iblk12_whole m c t y).trans (congrFun (V_main_arg11 m c) y)

/-- Window 13's block index is 0 on both axes at every point, -/
theorem idx13_zero : ∀ t : Fin cfg0.N, win0_13.index t (0 : Fin 2) = 0 ∧ win0_13.index t (1 : Fin 2) = 0 :=
  (by decide +kernel : ∀ t : Fin grid0.N, _)

/-- so its block is the whole of the array it stages. -/
theorem iblk13_whole (t : Fin cfg0.N) (y : S1x64.Idx) : (iblk m c 13 t : Vec Ideal S1x64 _) y = V m c main_v7 y := by
  obtain ⟨e0, e1⟩ := idx13_zero t
  show V m c main_v7 (((cfg0.win 13).blk t).view.emb y) = V m c main_v7 y
  congr 1
  funext a; apply Fin.ext
  match a with
  | ⟨0, _⟩ => show win0_13.index t (0 : Fin 2) * 1 + 1 * (y 0).val = (y 0).val; rw [e0]; omega
  | ⟨1, _⟩ => show win0_13.index t (1 : Fin 2) * 64 + 1 * (y 1).val = (y 1).val; rw [e1]; omega

/-- The array window 13 stages is a bias vector reshaped to one row. -/
theorem V_main_v7_eq : (V m c main_v7 : S1x64.Idx → EReal) = shapeCast S1x64 (a12 m c) shapeCasts_S64_S1x64 := by
  dsimp only [Gen.V, Gen.hostOps0]; after_results; rfl

theorem iblk13_apply (t : Fin cfg0.N) (p : Fin 1) (q : Fin 64) : (iblk m c 13 t : Vec Ideal S1x64 .f32) (ix2 p q) = a12 m c (ix1 q) := by
  refine (iblk13_whole m c t (ix2 p q)).trans ?_
  refine (congrFun (V_main_v7_eq m c) (ix2 p q)).trans ?_
  exact shapeCast_a_1a_apply (a12 m c) shapeCasts_S64_S1x64 p q

/-- Window 14's block index is 0 on both axes at every point, -/
theorem idx14_zero : ∀ t : Fin cfg0.N, win0_14.index t (0 : Fin 2) = 0 ∧ win0_14.index t (1 : Fin 2) = 0 :=
  (by decide +kernel : ∀ t : Fin grid0.N, _)

/-- so its block is the whole of the array it stages. -/
theorem iblk14_whole (t : Fin cfg0.N) (y : S64x64.Idx) : (iblk m c 14 t : Vec Ideal S64x64 _) y = V m c main_arg13 y := by
  obtain ⟨e0, e1⟩ := idx14_zero t
  show V m c main_arg13 (((cfg0.win 14).blk t).view.emb y) = V m c main_arg13 y
  congr 1
  funext a; apply Fin.ext
  match a with
  | ⟨0, _⟩ => show win0_14.index t (0 : Fin 2) * 64 + 1 * (y 0).val = (y 0).val; rw [e0]; omega
  | ⟨1, _⟩ => show win0_14.index t (1 : Fin 2) * 64 + 1 * (y 1).val = (y 1).val; rw [e1]; omega

theorem iblk14_apply (t : Fin cfg0.N) (y : S64x64.Idx) : (iblk m c 14 t : Vec Ideal S64x64 .f32) y = a13 m c y :=
  (iblk14_whole m c t y).trans (congrFun (V_main_arg13 m c) y)

end Cert.Proof.KI

end
-- ==== Proof.ValXW.lean ====
import proofs.«143297_g16561393893844_cont_week2b_458_21_alg».proof.Proof.MatmulAt
import proofs.«143297_g16561393893844_cont_week2b_458_21_alg».proof.Proof.Blocks

/-!
The feature transforms the first point leaves in scratch are the reference's x W_pos and x W_neg, entry by entry:
both are the sum over the 128 features of x times the weight.
-/

set_option maxRecDepth 16384

noncomputable section

namespace Cert.Proof.KI

open Cert.KernelIdeal Cert.KernelIdeal.Gen
open Idealize.ShloMosaic Idealize.ShloMosaic.ValueIdx
open Idealize.ShloMosaic.TcCoe Idealize.SL.Sem
open Cert.ReferenceIdeal.Read

variable (m : (ℓ : Loc nD τ sig) → Buf (Elt Ideal) ℓ) (c : Dev nD)

/-- The reference's two products read the left operand at row p, column k and the right one at row k, column q. -/
private theorem lidx0_ix2 (p : Fin 10000) (q k : Fin 128) : lidx_main_v0 (ix2 p q) k = ix2 p k :=
  funext fun a => Fin.ext (by match a with | ⟨0, _⟩ => rfl | ⟨1, _⟩ => rfl)
private theorem ridx0_ix2 (p : Fin 10000) (q k : Fin 128) : ridx_main_v0 (ix2 p q) k = ix2 k q :=
  funext fun a => Fin.ext (by match a with | ⟨0, _⟩ => rfl | ⟨1, _⟩ => rfl)
private theorem lidx6_ix2 (p : Fin 10000) (q k : Fin 128) : lidx_main_v6 (ix2 p q) k = ix2 p k :=
  funext fun a => Fin.ext (by match a with | ⟨0, _⟩ => rfl | ⟨1, _⟩ => rfl)
private theorem ridx6_ix2 (p : Fin 10000) (q k : Fin 128) : ridx_main_v6 (ix2 p q) k = ix2 k q :=
  funext fun a => Fin.ext (by match a with | ⟨0, _⟩ => rfl | ⟨1, _⟩ => rfl)

/-- Entry (p, q) of the stored x W_pos is the sum over k of x (p, k) W_pos (k, q): the conversions of x and of the product
    are the identity on the extended reals, and so are the casts to the same shape. -/
theorem XWP_eq (y : S10000x128.Idx) : XWP (F := Ideal) m c y = rXWP m c y := by
  obtain ⟨p, q, rfl⟩ : ∃ (p : Fin 10000) (q : Fin 128), y = ix2 p q := ⟨y 0, y 1, eq_ix2 y⟩
  unfold XWP
  unfold k0_pay2
  rw [shapeCast_self]
  refine (truncf_apply (ψ := .bf16) _ bitsLt_bf16_f32 _).trans ?_
  refine (mm_10000x128_128x128 _ _ p q).trans ?_
  refine Eq.trans ?_ (val_main_v0_apply (a0 m c) (a3 m c) (ix2 p q)).symm
  refine Finset.sum_congr rfl fun k _ => ?_
  unfold k0_pay1
  rw [shapeCast_self]
  refine (congrArg (· * _) (extf_apply (ψ := .f32) _ bitsLt_bf16_f32 _)).trans ?_
  rw [iblk2_apply, iblk3_apply, lidx0_ix2, ridx0_ix2]

/-- The same for x W_neg. -/
theorem XWN_eq (y : S10000x128.Idx) : XWN (F := Ideal) m c y = rXWN m c y := by
  obtain ⟨p, q, rfl⟩ : ∃ (p : Fin 10000) (q : Fin 128), y = ix2 p q := ⟨y 0, y 1, eq_ix2 y⟩
  unfold XWN
  unfold k0_pay3
  rw [shapeCast_self]
  refine (truncf_apply (ψ := .bf16) _ bitsLt_bf16_f32 _).trans ?_
  refine (mm_10000x128_128x128 _ _ p q).trans ?_
  refine Eq.trans ?_ (val_main_v6_apply (a0 m c) (a5 m c) (ix2 p q)).symm
  refine Finset.sum_congr rfl fun k _ => ?_
  unfold k0_pay1
  rw [shapeCast_self]
  refine (congrArg (· * _) (extf_apply (ψ := .f32) _ bitsLt_bf16_f32 _)).trans ?_
  rw [iblk2_apply, iblk4_apply, lidx6_ix2, ridx6_ix2]

end Cert.Proof.KI

end
-- ==== Proof.ValZ.lean ====
import proofs.«143297_g16561393893844_cont_week2b_458_21_alg».proof.Proof.ValXW
import Idealize.ShloMosaic.Lib.ValueLayout

/-!
Row block n of either encoder, as point n computes it, is rows 200 n .. of the reference's encoder:
relu of the adjacency row against the feature transform plus the bias.
-/

set_option maxRecDepth 16384

noncomputable section

namespace Cert.Proof.KI

open Cert.KernelIdeal Cert.KernelIdeal.Gen
open Idealize.ShloMosaic Idealize.ShloMosaic.ValueIdx
open Idealize.ShloMosaic.TcCoe Idealize.SL.Sem
open Cert.ReferenceIdeal.Read

variable (m : (ℓ : Loc nD τ sig) → Buf (Elt Ideal) ℓ) (c : Dev nD)

/-- The reference's encoder products read the adjacency at row r, column k and the feature transform at row k, column q;
    the bias is read at q through its one-row form. -/
private theorem lidx1_ix2 (r : Fin 10000) (q : Fin 128) (k : Fin 10000) : lidx_main_v1 (ix2 r q) k = ix2 r k :=
  funext fun a => Fin.ext (by match a with | ⟨0, _⟩ => rfl | ⟨1, _⟩ => rfl)
private theorem ridx1_ix2 (r : Fin 10000) (q : Fin 128) (k : Fin 10000) : ridx_main_v1 (ix2 r q) k = ix2 k q :=
  funext fun a => Fin.ext (by match a with | ⟨0, _⟩ => rfl | ⟨1, _⟩ => rfl)
private theorem idx3_ix2 (r : Fin 10000) (q : Fin 128) : idx_main_v3 (ix2 r q) = ix2 (0 : Fin 1) q :=
  funext fun a => Fin.ext (by match a with | ⟨0, _⟩ => rfl | ⟨1, _⟩ => rfl)
private theorem idx2_ix2 (u : Fin 1) (q : Fin 128) : idx_main_v2 (ix2 u q) = ix1 q :=
  funext fun a => Fin.ext (by match a with | ⟨0, _⟩ => rfl)
private theorem lidx7_ix2 (r : Fin 10000) (q : Fin 128) (k : Fin 10000) : lidx_main_v7 (ix2 r q) k = ix2 r k :=
  funext fun a => Fin.ext (by match a with | ⟨0, _⟩ => rfl | ⟨1, _⟩ => rfl)
private theorem ridx7_ix2 (r : Fin 10000) (q : Fin 128) (k : Fin 10000) : ridx_main_v7 (ix2 r q) k = ix2 k q :=
  funext fun a => Fin.ext (by match a with | ⟨0, _⟩ => rfl | ⟨1, _⟩ => rfl)
private theorem idx9_ix2 (r : Fin 10000) (q : Fin 128) : idx_main_v9 (ix2 r q) = ix2 (0 : Fin 1) q :=
  funext fun a => Fin.ext (by match a with | ⟨0, _⟩ => rfl | ⟨1, _⟩ => rfl)
private theorem idx8_ix2 (u : Fin 1) (q : Fin 128) : idx_main_v8 (ix2 u q) = ix1 q :=
  funext fun a => Fin.ext (by match a with | ⟨0, _⟩ => rfl)

/-- Entry (p, q) of block n of the positive encoder is max (Σ_k A_pos (200 n + p, k) (x W_pos) (k, q) + b_pos q) 0 on both
    sides: the conversion of the adjacency block is the identity on the extended reals, the feature transform is the
    reference's by the previous module, the bias row is broadcast over the 200 rows, and the zero is the same word. -/
theorem ZP_eq (n : ℕ) (hn : n < 50) (p : Fin 200) (q : Fin 128) :
    ZP (F := Ideal) m c n (ix2 p q) = rZP m c (ix2 (⟨200 * n + p.val, by omega⟩ : Fin 10000) q) := by
  unfold ZP
  unfold k0_pay6
  rw [shapeCast_self, shapeCast_self]
  refine (maximumf_apply _ _ _).trans ?_
  refine Eq.trans ?_ (val_main_v5_apply (a0 m c) (a1 m c) (a3 m c) (a4 m c) _).symm
  show max _ _ = max _ _
  refine congrArg₂ max ?_ ?_
  · refine (addf_apply _ _ _).trans ?_
    refine Eq.trans ?_ (val_main_v4_apply (a0 m c) (a1 m c) (a3 m c) (a4 m c) _).symm
    show _ + _ = _ + _
    refine congrArg₂ (· + ·) ?_ ?_
    · refine (mm_200x10000_10000x128 _ _ p q).trans ?_
      refine Eq.trans ?_ (val_main_v1_apply (a0 m c) (a1 m c) (a3 m c) _).symm
      refine Finset.sum_congr rfl fun k _ => ?_
      rw [lidx1_ix2, ridx1_ix2]
      refine congrArg₂ (· * ·) ?_ ?_
      · refine (truncf_apply (ψ := .bf16) _ bitsLt_bf16_f32 _).trans ?_
        exact iblk0_apply m c n hn p k
      · exact XWP_eq m c (ix2 k q)
    · rw [broadcastTo_1b_ab_apply, iblk5_apply, val_main_v3_apply, idx3_ix2, val_main_v2_apply, idx2_ix2]
  · rw [val_main_call0_v0_apply, val_main_call0_cst_apply]
    rfl

/-- The same for the negative encoder. -/
theorem ZN_eq (n : ℕ) (hn : n < 50) (p : Fin 200) (q : Fin 128) :
    ZN (F := Ideal) m c n (ix2 p q) = rZN m c (ix2 (⟨200 * n + p.val, by omega⟩ : Fin 10000) q) := by
  unfold ZN
  unfold k0_pay7
  rw [shapeCast_self, shapeCast_self]
  refine (maximumf_apply _ _ _).trans ?_
  refine Eq.trans ?_ (val_main_v11_apply (a0 m c) (a2 m c) (a5 m c) (a6 m c) _).symm
  show max _ _ = max _ _
  refine congrArg₂ max ?_ ?_
  · refine (addf_apply _ _ _).trans ?_
    refine Eq.trans ?_ (val_main_v10_apply (a0 m c) (a2 m c) (a5 m c) (a6 m c) _).symm
    show _ + _ = _ + _
    refine congrArg₂ (· + ·) ?_ ?_
    · refine (mm_200x10000_10000x128 _ _ p q).trans ?_
      refine Eq.trans ?_ (val_main_v7_apply (a0 m c) (a2 m c) (a5 m c) _).symm
      refine Finset.sum_congr rfl fun k _ => ?_
      rw [lidx7_ix2, ridx7_ix2]
      refine congrArg₂ (· * ·) ?_ ?_
      · refine (truncf_apply (ψ := .bf16) _ bitsLt_bf16_f32 _).trans ?_
        exact iblk1_apply m c n hn p k
      · exact XWN_eq m c (ix2 k q)
    · rw [broadcastTo_1b_ab_apply, iblk6_apply, val_main_v9_apply, idx9_ix2, val_main_v8_apply, idx8_ix2]
  · rw [val_main_call1_v0_apply, val_main_call1_cst_apply]
    rfl

end Cert.Proof.KI

end
-- ==== Proof.ValH.lean ====
import proofs.«143297_g16561393893844_cont_week2b_458_21_alg».proof.Proof.ValZ
import Idealize.ShloMosaic.Lib.ValueLayout
import Mathlib.Algebra.BigOperators.Fin

/-!
The MLP block point n computes (from the blocks encoded at point n - 1) is rows 200 (n - 1) .. of the reference's h.
The kernel multiplies the two encoders by the two halves of the first weight and adds; the reference multiplies their
concatenation by the whole weight: the sum over 256 splits into the two sums over 128.
-/

set_option maxRecDepth 16384

noncomputable section

namespace Cert.Proof.KI

open Cert.KernelIdeal Cert.KernelIdeal.Gen
open Idealize.ShloMosaic Idealize.ShloMosaic.ValueIdx
open Idealize.ShloMosaic.TcCoe Idealize.SL.Sem
open Cert.ReferenceIdeal.Read

variable (m : (ℓ : Loc nD τ sig) → Buf (Elt Ideal) ℓ) (c : Dev nD)

namespace HMlp

/-- The zero both relus compare with. -/
abbrev zr : Ideal .f32 := FloatOps.ofBits (F := Ideal) .f32 0x00000000#32

/-- The kernel's MLP payload at an index: three matrix products, each a plain sum, with the biases' one row added
    and the two relus in between; the first layer is the sum of the two encoders' products. -/
theorem pay9_apply (zp zn : Vec Ideal S200x128 .f32) (w1p w1n : Vec Ideal S128x64 .f32) (b1 : Vec Ideal S1x64 .f32)
    (w2 : Vec Ideal S64x128 .f32) (b2 : Vec Ideal S1x128 .f32) (w3 : Vec Ideal S128x64 .f32) (b3 : Vec Ideal S1x64 .f32)
    (p : Fin 200) (q : Fin 64) :
    k0_pay9 (F := Ideal) zp zn w1p w1n b1 w2 b2 w3 b3 (ix2 p q)
      = (∑ k : Fin 128, max ((∑ j : Fin 64, max (((∑ i : Fin 128, zp (ix2 p i) * w1p (ix2 i j))
            + (∑ i : Fin 128, zn (ix2 p i) * w1n (ix2 i j))) + b1 (ix2 (0 : Fin 1) j)) zr * w2 (ix2 j k))
          + b2 (ix2 (0 : Fin 1) k)) zr * w3 (ix2 k q)) + b3 (ix2 (0 : Fin 1) q) := by
  unfold k0_pay9
  simp only [shapeCast_self, addf_apply, maximumf_apply, mm_200x128_128x64, mm_200x64_64x128, broadcastTo_1b_ab_apply, broadcast_apply]

/-- The reference's concatenation of the two encoders, -/
abbrev r12 : Vec Ideal Cert.ReferenceIdeal.S10000x256 .f32 :=
  val_main_v12 (F := Ideal) (a0 m c) (a1 m c) (a2 m c) (a3 m c) (a4 m c) (a5 m c) (a6 m c)
/-- its first hidden layer (after the relu), -/
abbrev r17 : Vec Ideal S10000x64 .f32 := val_main_v17 (F := Ideal) (a0 m c) (a1 m c) (a2 m c) (a3 m c) (a4 m c) (a5 m c) (a6 m c) (a7 m c) (a8 m c)
/-- and its second (after the relu). -/
abbrev r22 : Vec Ideal S10000x128 .f32 := val_main_v22 (F := Ideal) (a0 m c) (a1 m c) (a2 m c) (a3 m c) (a4 m c) (a5 m c) (a6 m c) (a7 m c) (a8 m c) (a9 m c) (a10 m c)

/-- A sum over 256 is the sum over the first 128 plus the sum over the last 128. -/
theorem sum_fin256 (f : Fin 256 → EReal) :
    ∑ k : Fin 256, f k = (∑ k : Fin 128, f ⟨k.val, by omega⟩) + ∑ k : Fin 128, f ⟨128 + k.val, by omega⟩ :=
  Fin.sum_univ_add (M := EReal) (a := 128) (b := 128) f

/-- The concatenation reads the positive encoder on its first 128 columns, -/
theorem r12_left (r : Fin 10000) (i : Fin 128) :
    r12 m c (ix2 r (⟨i.val, by omega⟩ : Fin 256)) = rZP m c (ix2 r i) := by
  unfold r12 val_main_v12
  exact concatenate_pair_apply_left (t := Cert.ReferenceIdeal.S10000x256) (s₁ := Cert.ReferenceIdeal.S10000x128)
    (s₂ := Cert.ReferenceIdeal.S10000x128) 1 _ _ _ (ix2 r (⟨i.val, by omega⟩ : Fin 256)) rfl (ix2 r i)
    (fun b => match b with | ⟨0, _⟩ => rfl | ⟨1, _⟩ => rfl)

/-- and the negative one on its last 128. -/
theorem r12_right (r : Fin 10000) (i : Fin 128) :
    r12 m c (ix2 r (⟨128 + i.val, by omega⟩ : Fin 256)) = rZN m c (ix2 r i) := by
  unfold r12 val_main_v12
  exact concatenate_pair_apply_right (t := Cert.ReferenceIdeal.S10000x256) (s₁ := Cert.ReferenceIdeal.S10000x128)
    (s₂ := Cert.ReferenceIdeal.S10000x128) 1 _ _ _ (ix2 r (⟨128 + i.val, by omega⟩ : Fin 256)) rfl rfl (ix2 r i)
    (fun b => match b with | ⟨0, _⟩ => fun _ => rfl | ⟨1, _⟩ => fun h => absurd rfl h)
    (show i.val + 128 = 128 + i.val from Nat.add_comm _ _)

/-- The reference's first hidden layer at an index. -/
theorem r17_apply (r : Fin 10000) (j : Fin 64) :
    r17 m c (ix2 r j) = max ((∑ i : Fin 256, r12 m c (ix2 r i) * a7 m c (ix2 i j)) + a8 m c (ix1 j)) zr := by
  have e1 : ∀ k, lidx_main_v13 (ix2 r j) k = ix2 r k := fun k => funext fun a => Fin.ext (by
    match a with | ⟨0, _⟩ => rfl | ⟨1, _⟩ => rfl)
  have e2 : ∀ k, ridx_main_v13 (ix2 r j) k = ix2 k j := fun k => funext fun a => Fin.ext (by
    match a with | ⟨0, _⟩ => rfl | ⟨1, _⟩ => rfl)
  have e3 : idx_main_v14 (idx_main_v15 (ix2 r j)) = ix1 j := funext fun a => Fin.ext (by
    match a with | ⟨0, _⟩ => rfl)
  refine (val_main_v17_apply _ _ _ _ _ _ _ _ _ _).trans ?_
  rw [val_main_v16_apply, val_main_v13_apply, val_main_v15_apply, val_main_v14_apply, val_main_call2_v0_apply, val_main_call2_cst_apply]
  simp only [e1, e2, e3, Ideal.addf_def, Ideal.maximumf_def]

/-- The reference's second hidden layer at an index. -/
theorem r22_apply (r : Fin 10000) (k : Fin 128) :
    r22 m c (ix2 r k) = max ((∑ j : Fin 64, r17 m c (ix2 r j) * a9 m c (ix2 j k)) + a10 m c (ix1 k)) zr := by
  have e1 : ∀ j, lidx_main_v18 (ix2 r k) j = ix2 r j := fun j => funext fun a => Fin.ext (by
    match a with | ⟨0, _⟩ => rfl | ⟨1, _⟩ => rfl)
  have e2 : ∀ j, ridx_main_v18 (ix2 r k) j = ix2 j k := fun j => funext fun a => Fin.ext (by
    match a with | ⟨0, _⟩ => rfl | ⟨1, _⟩ => rfl)
  have e3 : idx_main_v19 (idx_main_v20 (ix2 r k)) = ix1 k := funext fun a => Fin.ext (by
    match a with | ⟨0, _⟩ => rfl)
  refine (val_main_v22_apply _ _ _ _ _ _ _ _ _ _ _ _).trans ?_
  rw [val_main_v21_apply, val_main_v18_apply, val_main_v20_apply, val_main_v19_apply, val_main_call3_v0_apply, val_main_call3_cst_apply]
  simp only [e1, e2, e3, Ideal.addf_def, Ideal.maximumf_def]

/-- The reference's h at an index. -/
theorem rH_apply (r : Fin 10000) (q : Fin 64) :
    rH m c (ix2 r q) = (∑ k : Fin 128, r22 m c (ix2 r k) * a11 m c (ix2 k q)) + a12 m c (ix1 q) := by
  have e1 : ∀ k, lidx_main_v23 (ix2 r q) k = ix2 r k := fun k => funext fun a => Fin.ext (by
    match a with | ⟨0, _⟩ => rfl | ⟨1, _⟩ => rfl)
  have e2 : ∀ k, ridx_main_v23 (ix2 r q) k = ix2 k q := fun k => funext fun a => Fin.ext (by
    match a with | ⟨0, _⟩ => rfl | ⟨1, _⟩ => rfl)
  have e3 : idx_main_v24 (idx_main_v25 (ix2 r q)) = ix1 q := funext fun a => Fin.ext (by
    match a with | ⟨0, _⟩ => rfl)
  refine (val_main_v26_apply _ _ _ _ _ _ _ _ _ _ _ _ _ _).trans ?_
  rw [val_main_v23_apply, val_main_v25_apply, val_main_v24_apply]
  simp only [e1, e2, e3, Ideal.addf_def]

end HMlp

theorem HF_eq (n : ℕ) (h1 : 1 ≤ n) (h2 : n ≤ 50) (p : Fin 200) (q : Fin 64) :
    HF (F := Ideal) m c n (ix2 p q) = rH m c (ix2 (⟨200 * (n - 1) + p.val, by omega⟩ : Fin 10000) q) := by
  have hn : n - 1 < 50 := by omega
  unfold HF
  rw [HMlp.pay9_apply, HMlp.rH_apply]
  simp only [ZP_eq m c (n - 1) hn, ZN_eq m c (n - 1) hn, iblk7_apply, iblk8_apply, iblk9_apply, iblk10_apply, iblk11_apply,
    iblk12_apply, iblk13_apply, HMlp.r22_apply, HMlp.r17_apply, HMlp.sum_fin256, HMlp.r12_left, HMlp.r12_right]

theorem HB_eq (n : ℕ) (h1 : 1 ≤ n) (h2 : n ≤ 50) (p : Fin 200) (q : Fin 64) :
    HB (F := Ideal) m c n (ix2 p q) = rH m c (ix2 (⟨200 * (n - 1) + p.val, by omega⟩ : Fin 10000) q) := by
  refine Eq.trans ?_ (HF_eq m c n h1 h2 p q)
  unfold HB HF k0_pay4 k0_pay10
  rw [shapeCast_self]
  rfl

end Cert.Proof.KI

end
-- ==== Proof.ValT.lean ====
import proofs.«143297_g16561393893844_cont_week2b_458_21_alg».proof.Proof.ValH

/-!
The decoder's left factor point n stores is rows 200 (n - 1) .. of the reference's h Wd, and the h scratch, once
every block is stored, is the reference's h.
-/

set_option maxRecDepth 16384

noncomputable section

namespace Cert.Proof.KI

open Cert.KernelIdeal Cert.KernelIdeal.Gen
open Idealize.ShloMosaic Idealize.ShloMosaic.ValueIdx
open Idealize.ShloMosaic.TcCoe Idealize.SL.Sem
open Cert.ReferenceIdeal.Read

variable (m : (ℓ : Loc nD τ sig) → Buf (Elt Ideal) ℓ) (c : Dev nD)

/-- The left operand's coordinate of the reference's product h Wd at row P, column q, summand k: row P, column k. -/
private theorem lidx27_ix2 (P : Fin 10000) (q k : Fin 64) : lidx_main_v27 (ix2 P q) k = ix2 P k := by
  funext a
  match a with
  | ⟨0, _⟩ => rfl
  | ⟨1, _⟩ => rfl

/-- The right operand's coordinate of the same summand: row k, column q. -/
private theorem ridx27_ix2 (P : Fin 10000) (q k : Fin 64) : ridx_main_v27 (ix2 P q) k = ix2 k q := by
  funext a
  match a with
  | ⟨0, _⟩ => rfl
  | ⟨1, _⟩ => rfl

theorem TB_eq (n : ℕ) (h1 : 1 ≤ n) (h2 : n ≤ 50) (p : Fin 200) (q : Fin 64) :
    TB (F := Ideal) m c n (ix2 p q) = rT m c (ix2 (⟨200 * (n - 1) + p.val, by omega⟩ : Fin 10000) q) := by
  -- the stored block is the product of the MLP block with Wd: rounding and the cast to the same shape are the identity
  have hL : TB (F := Ideal) m c n (ix2 p q)
      = ∑ k : Fin 64, HF (F := Ideal) m c n (ix2 p k) * (iblk m c 14 (pt n) : Vec Ideal S64x64 .f32) (ix2 k q) := by
    unfold TB k0_pay5
    simp only [shapeCast_self, truncf_apply]
    exact mm_200x64_64x64 _ _ p q
  rw [hL]
  refine Eq.trans ?_ (val_main_v27_apply _ _ _ _ _ _ _ _ _ _ _ _ _ _ _).symm
  refine Finset.sum_congr rfl fun k _ => ?_
  rw [lidx27_ix2, ridx27_ix2, HF_eq m c n h1 h2 p k, iblk14_apply m c (pt n) (ix2 k q)]

theorem Hfun_eq (y : S10000x64.Idx) : Hfun (F := Ideal) m c y = rH m c y := by
  have hy0 : (y 0).val < 10000 := (y 0).isLt
  have hn1 : 1 ≤ (y 0).val / 200 + 1 := Nat.le_add_left _ _
  have hn2 : (y 0).val / 200 + 1 ≤ 50 := by omega
  unfold Hfun
  refine (HB_eq m c ((y 0).val / 200 + 1) hn1 hn2 _ _).trans ?_
  refine congrArg (rH m c) ?_
  refine Eq.trans ?_ (eq_ix2 y).symm
  funext a
  match a with
  | ⟨0, _⟩ => exact Fin.ext (by
      show 200 * ((y 0).val / 200 + 1 - 1) + (y 0).val % 200 = (y 0).val
      rw [Nat.add_sub_cancel]; exact Nat.div_add_mod _ _)
  | ⟨1, _⟩ => rfl

end Cert.Proof.KI

end
-- ==== Proof.ValOut.lean ====
import proofs.«143297_g16561393893844_cont_week2b_458_21_alg».proof.Proof.ValT

/-!
What decoding point t writes back is rows 200 (t - 51) .. of the reference's output h Wd hᵀ (the kernel contracts
columns with columns, the reference multiplies by the transpose), and so the result array is the reference's output.
-/

set_option maxRecDepth 16384

noncomputable section

namespace Cert.Proof.KI

open Cert.KernelIdeal Cert.KernelIdeal.Gen
open Idealize.ShloMosaic Idealize.ShloMosaic.ValueIdx
open Idealize.ShloMosaic.TcCoe Idealize.SL.Sem
open Cert.ReferenceIdeal.Read

variable (m : (ℓ : Loc nD τ sig) → Buf (Elt Ideal) ℓ) (c : Dev nD)

/-- The left operand's coordinate of the reference's product (h Wd) hᵀ at row P, column q, summand k: row P, column k. -/
private theorem lidx29_ix2 (P q : Fin 10000) (k : Fin 64) : lidx_main_v29 (ix2 P q) k = ix2 P k := by
  funext a
  match a with
  | ⟨0, _⟩ => rfl
  | ⟨1, _⟩ => rfl

/-- The right operand's coordinate of the same summand: row k, column q of the transpose, -/
private theorem ridx29_ix2 (P q : Fin 10000) (k : Fin 64) : ridx_main_v29 (ix2 P q) k = ix2 k q := by
  funext a
  match a with
  | ⟨0, _⟩ => rfl
  | ⟨1, _⟩ => rfl

/-- which is row q, column k of h. -/
private theorem idx28_ix2 (q : Fin 10000) (k : Fin 64) : idx_main_v28 (ix2 k q) = ix2 q k := by
  funext a
  match a with
  | ⟨0, _⟩ => rfl
  | ⟨1, _⟩ => rfl

theorem OUT_eq (t : Fin cfg0.N) (ht : 51 ≤ t.val) (p : Fin 200) (q : Fin 10000) :
    OUT (F := Ideal) m c t (ix2 p q) = rY m c (ix2 (⟨200 * (t.val - 51) + p.val, by have := t.isLt; have : cfg0.N = 101 := rfl; omega⟩ : Fin 10000) q) := by
  have hN : cfg0.N = 101 := rfl
  have htl : t.val < 101 := hN ▸ t.isLt
  -- the written block is the product of block t - 51 of h Wd with h, columns against columns
  have hL : OUT (F := Ideal) m c t (ix2 p q)
      = ∑ k : Fin 64, TB (F := Ideal) m c (t.val - 50) (ix2 p k) * Hfun (F := Ideal) m c (ix2 q k) := by
    unfold OUT k0_pay8
    exact mm_200x64_10000x64T _ _ p q
  rw [hL]
  refine Eq.trans ?_ (val_main_v29_apply _ _ _ _ _ _ _ _ _ _ _ _ _ _ _).symm
  refine Finset.sum_congr rfl fun k _ => ?_
  rw [lidx29_ix2, ridx29_ix2, val_main_v28_apply, idx28_ix2, Hfun_eq m c (ix2 q k),
    TB_eq m c (t.val - 50) (by omega) (by omega) p k]
  refine congrArg (fun P : Fin 10000 => rT m c (ix2 P k) * rH m c (ix2 q k)) (Fin.ext ?_)
  show 200 * (t.val - 50 - 1) + p.val = 200 * (t.val - 51) + p.val
  rw [Nat.sub_sub]

theorem Yfun_eq : Yfun (F := Ideal) m c = rY m c := by
  funext y
  have hy0 : (y 0).val < 10000 := (y 0).isLt
  have hlt : (y 0).val / 200 + 51 < cfg0.N := by
    have hN : cfg0.N = 101 := rfl
    omega
  have hpt : pt ((y 0).val / 200 + 51) = (⟨(y 0).val / 200 + 51, hlt⟩ : Fin cfg0.N) := by
    unfold pt; rw [dif_pos hlt]
  unfold Yfun
  rw [hpt]
  refine (OUT_eq m c ⟨(y 0).val / 200 + 51, hlt⟩ (Nat.le_add_left _ _) _ _).trans ?_
  refine congrArg (rY m c) ?_
  refine Eq.trans ?_ (eq_ix2 y).symm
  funext a
  match a with
  | ⟨0, _⟩ => exact Fin.ext (by
      show 200 * ((y 0).val / 200 + 51 - 51) + (y 0).val % 200 = (y 0).val
      rw [Nat.add_sub_cancel]; exact Nat.div_add_mod _ _)
  | ⟨1, _⟩ => rfl

end Cert.Proof.KI

end
-- ==== Proof.lean ====
/-
  The fused signed-graph autoencoder kernel against its jnp reference, over the extended reals.

  The kernel is one pipelined call over 101 points with six scratch arrays. Point 0 stores the feature transforms x W for
  both signs; points 0 .. 49 encode row block t, z = relu (A[t] (x W) + b), for both signs; points 1 .. 50 run the MLP on
  the block encoded one point earlier and store h and the decoder's left factor h Wd into rows 200 (t - 1) .. of two
  scratch arrays; points 51 .. 100 write out[t - 51] = (h Wd)[t - 51] hᵀ. The reference computes the same chain on whole
  arrays, with the two encoders concatenated before the first MLP weight.

  Frames. The body has four control cases, decided by the point's number (Proof/CaseA .. CaseD: the body's triple in each
  case; Proof/BodyA .. BodyD: the library's body obligation at such a point). Between points the scratch is tracked by a
  relation that says which parts are already final (Proof/Data: R, phi; Proof/Steps: how R advances), so that a decoding
  point finds h whole and its own rows of h Wd. The launch is the library's frame run with a tracking invariant
  (Proof/BodyRun). The word-level kernel's frame is the same text read at the word instance (Proof/K).

  Values. The result's window is written back at the decoding points only, and those fifty blocks tile the result, so the
  result array is one function of the arguments (Proof/FinalArr, Proof/Run). Stage by stage it is the reference's
  (Proof/ValXW, ValZ, ValH, ValT, ValOut over Proof/MatmulAt and Proof/Blocks): a matrix product into zero is the plain sum
  over the contracted coordinate on both sides; a row block of a product is the product of the row block; and the one law
  used is that the sum over the 256 concatenated features splits into the two sums over 128, which holds in any
  commutative monoid, so the finiteness of the inputs is never used.
-/
import proofs.«143297_g16561393893844_cont_week2b_458_21_alg».proof.Defs
import proofs.«143297_g16561393893844_cont_week2b_458_21_alg».proof.Proof.Gen.Kernel
import proofs.«143297_g16561393893844_cont_week2b_458_21_alg».proof.Proof.Gen.KernelIdeal
import proofs.«143297_g16561393893844_cont_week2b_458_21_alg».proof.Proof.Gen.ReferenceIdeal
import proofs.«143297_g16561393893844_cont_week2b_458_21_alg».proof.Proof.Gen.Pre_finite_inputs
import proofs.«143297_g16561393893844_cont_week2b_458_21_alg».proof.Proof.Gen.ReferenceIdeal.Run
import proofs.«143297_g16561393893844_cont_week2b_458_21_alg».proof.Proof.Gen.ReferenceIdeal.Read
import proofs.«143297_g16561393893844_cont_week2b_458_21_alg».proof.Proof.K.BodyRun
import proofs.«143297_g16561393893844_cont_week2b_458_21_alg».proof.Proof.Run
import proofs.«143297_g16561393893844_cont_week2b_458_21_alg».proof.Proof.ValOut
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments unchanged. -/
theorem frame_k : Cert.frame_Kernel :=
  fun m ρ _ => Cert.Proof.KB.frame (F := Bits) m ρ

/-- So does the kernel read over the extended reals. -/
theorem frame_ki : Cert.frame_KernelIdeal :=
  fun m ρ _ => Cert.Proof.KI.frame (F := Ideal) m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are one function of arguments that agree. -/
theorem algebraic :
    Cert.algebraic_KernelIdeal_ReferenceIdeal := by
  intro m ρ m' ρ' _ hagree
  refine ⟨fun c => Cert.Proof.KI.Yfun (F := Ideal) m c, Cert.Proof.KI.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.Proof.KI.Yfun_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
